-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg6 : FVec F S128x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128x64 .f32) (main_arg6 : FVec F S128x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S128x128 : Shape := ⟨2, ![128, 128]⟩
abbrev S100000x64 : Shape := ⟨2, ![100000, 64]⟩
abbrev S1x2 : Shape := ⟨2, ![1, 2]⟩
abbrev S5000x64 : Shape := ⟨2, ![5000, 64]⟩
abbrev S5000 : Shape := ⟨1, ![5000]⟩
abbrev S5000x1 : Shape := ⟨2, ![5000, 1]⟩
abbrev S1 : Shape := ⟨1, ![1]⟩
abbrev S1x1 : Shape := ⟨2, ![1, 1]⟩

abbrev nBuf : Space → Nat
  | .hbm => 54
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128x64, .f32⟩
  | .hbm, ⟨6, _⟩ => ⟨S128x64, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x1, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x64, .f32⟩
  | .hbm, ⟨43, _⟩ => ⟨S100000x64, .f32⟩
  | .hbm, ⟨44, _⟩ => ⟨S1x2, .f32⟩
  | .hbm, ⟨45, _⟩ => ⟨S1x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S1x2, .f32⟩
  | .local _ .vmem, ⟨15, _⟩ => ⟨S1x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v26 : BitVec 1 := Scalar.cmpi .eq arg0 c19_i32
  let v27 : BitVec 32 := Scalar.extui v26
  let c0_i32_14 : BitVec 32 := 0#32
  let v28 : BitVec 1 := Scalar.cmpi .ne v27 c0_i32_14
  v28

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S128x64_S128x64_S128x128_d1 : Shape.Concatenates [S128x64, S128x64] S128x128 1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x64_0_0 : S100000x128.Slices ![0, 0] S100000x64
  slices_S100000x128_S100000x64_0_64 : S100000x128.Slices ![0, 64] S100000x64
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  reduces_S5000x1_S1 : S5000x1.Reduces [0] S1
  shapeCasts_S1_S1x1 : S1.ShapeCasts S1x1
  inb_S1x2_S1x1_0_0 : ∀ a, (![0, 0] : Fin 2 → Nat) a + S1x1.size a ≤ S1x2.size a
  h_S1x1 : 0 < S1x1.numel
  shapeCasts_S1x1_S1x1 : S1x1.ShapeCasts S1x1
  inb_S1x2_S1x1_0_1 : ∀ a, (![0, 1] : Fin 2 → Nat) a + S1x1.size a ≤ S1x2.size a
  slices_S1x2_S1x1_0_0 : S1x2.Slices ![0, 0] S1x1
  shapeCasts_S1x1_S_ : S1x1.ShapeCasts S_
  slices_S1x2_S1x1_0_1 : S1x2.Slices ![0, 1] S1x1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x2.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128x64 : Shape := ⟨2, ![128, 64]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1600000x64 : Shape := ⟨2, ![1600000, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128x64, .f32⟩
  | .hbm, ⟨6, _⟩ => ⟨S128x64, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S1600000x1, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S100000x64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S_d0_1 : S100000x64.ReducesTo [0, 1] S_
  h_S_ : 0 < S_.numel
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Bits.Mm0.lean ====
/-
  The first projection's pallas_call (pipeline 0): per grid point the body multiplies the staged
  5000-row block of its first operand (as loaded) by the whole of its second operand, the weights, into the staged output block.
  Here: the blocks the pipeline stages, what the body leaves in the output's staging buffer as a
  function of the two input blocks, the body's triple, the pipeline's proof data at a parameter `V`
  (the core's buffer contents when the region is entered), and the body obligation at every point.
-/
import proofs.«114034_j16561393893850_1_alg».proof.Proof.Gen.Kernel.Launch
import proofs.«114034_j16561393893850_1_alg».proof.Proof.Gen.Kernel.Skeleton
import proofs.«114034_j16561393893850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x256 := Rect.unit (s := S5000x256) ![0, 0] S5000x256.size inb_S5000x256_S5000x256_0_0
abbrev rW0 : Rect S256x128 := Rect.unit (s := S256x128) ![0, 0] S256x128.size inb_S256x128_S256x128_0_0
abbrev rO0 : Rect S5000x128 := Rect.unit (s := S5000x128) ![0, 0] S5000x128.size inb_S5000x128_S5000x128_0_0

/-- What the body leaves in the output's staging buffer: its one store, of the product of the row block and the weights. -/
def prod0 (x : Vec F S5000x256 .f32) (w : Vec F S256x128 .f32) : Vec F S5000x128 .f32 :=
  View.canon [⟨rO0, k0_pay1 (View.ld x rX0) (View.ld w rW0)⟩]

/-- The one whole-buffer store tiles the output's staging buffer, so every index is covered by it. -/
theorem cover0 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

set_option maxHeartbeats 1000000 in
/-- The body's triple on whole staging memrefs. -/
theorem sound_kernel0 (c : Dev nD) (E : Set ℕ) (i : grid0.Coords) (arg1 : Memref sig .tc .vmem S5000x256 .f32) (harg1 : arg1.IsWhole)
    (arg2 : Memref sig .tc .vmem S256x128 .f32) (harg2 : arg2.IsWhole) (arg3 : Memref sig .tc .vmem S5000x128 .f32) (harg3 : arg3.IsWhole)
    (x : Vec F S5000x256 .f32) (w : Vec F S256x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- Pipeline 0's proof data on core `c`: the arrays as the region finds them; after the body the inputs' buffers at
    their blocks and the output's at the product; the class invariant untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = prod0 (blk0 V c 0 t) (blk0 V c 1 t) := by dsimp only [dat0]

/-- An input window's current staging buffer holds that window's block at every grid point, whether or not it was
    fetched at that point: an unfetched point has the same block index as the one before it, and the body leaves
    the block in place. Stated for any proof data over the region's arrays whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem before0_0 (c : Dev nD) (t : Fin cfg0.N) (d) : (dat0 V c).before 0 t d = blk0 V c 0 t :=
  before0_0_of V (dat0 V c) (dat0_A V c 0) (dat0_after0 V c) t d

theorem before0_1 (c : Dev nD) (t : Fin cfg0.N) (d) : (dat0 V c).before 1 t d = blk0 V c 1 t :=
  before0_1_of V (dat0 V c) (dat0_A V c 1) (dat0_after1 V c) t d

/-- What the body is handed at grid point `t`: the invariant, the core's debts, and the three windows' current
    staging buffers, the inputs' at what the pipeline left there and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same, with each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: both inputs' buffers hold their blocks, so the body's triple applies with those
    blocks as the read contents; the invariant and the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 0, at every point. -/
theorem body_obligation0 (c : Dev nD) : BodyObligation (dat0 (F := F) V c) (defs₀ (F := F)) Variants.none () Set.univ := by
  refine fun t => ?_
  rw [bigSep_W0, bigSep_W0]
  exact sound_body0 V c t

end Cert.Kernel.Hand

end
-- ==== Proof.Bits.Mm1.lean ====
/-
  The second projection's pallas_call (pipeline 1): per grid point the body multiplies the staged
  5000-row block of its first operand (clamped at zero from below) by the whole of its second operand, the weights, into the staged output block.
  Here: the blocks the pipeline stages, what the body leaves in the output's staging buffer as a
  function of the two input blocks, the body's triple, the pipeline's proof data at a parameter `V`
  (the core's buffer contents when the region is entered), and the body obligation at every point.
-/
import proofs.«114034_j16561393893850_1_alg».proof.Proof.Gen.Kernel.Launch
import proofs.«114034_j16561393893850_1_alg».proof.Proof.Gen.Kernel.Skeleton
import proofs.«114034_j16561393893850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rO1 : Rect S5000x128 := Rect.unit (s := S5000x128) ![0, 0] S5000x128.size inb_S5000x128_S5000x128_0_0

/-- What the body leaves in the output's staging buffer: its one store, of the product of the row block and the weights. -/
def prod1 (x : Vec F S5000x128 .f32) (w : Vec F S128x128 .f32) : Vec F S5000x128 .f32 :=
  View.canon [⟨rO1, k1_pay1 (View.ld x rX1) (View.ld w rW1)⟩]

/-- The one whole-buffer store tiles the output's staging buffer, so every index is covered by it. -/
theorem cover1 (p0 : Vec F S5000x128 .f32) (y : S5000x128.Idx) :
    ∃ pc ∈ ([⟨rO1, p0⟩] : List (View.Piece (Elt F) S5000x128 .f32)), y ∈ pc.1.set :=
  View.cover_of_tiled [⟨rO1, p0⟩] S5000x128.size (by rfl) y

set_option maxHeartbeats 1000000 in
/-- The body's triple on whole staging memrefs. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod1 x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- pipeline 1's proof data on core `c`: the arrays as the region finds them; after the body the inputs' buffers at
    their blocks and the output's at the product; the class invariant untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prod1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = prod1 (blk1 V c 0 t) (blk1 V c 1 t) := by dsimp only [dat1]

/-- An input window's current staging buffer holds that window's block at every grid point, whether or not it was
    fetched at that point: an unfetched point has the same block index as the one before it, and the body leaves
    the block in place. Stated for any proof data over the region's arrays whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_0 (c : Dev nD) (t : Fin cfg1.N) (d) : (dat1 V c).before 0 t d = blk1 V c 0 t :=
  before1_0_of V (dat1 V c) (dat1_A V c 0) (dat1_after0 V c) t d

theorem before1_1 (c : Dev nD) (t : Fin cfg1.N) (d) : (dat1 V c).before 1 t d = blk1 V c 1 t :=
  before1_1_of V (dat1 V c) (dat1_A V c 1) (dat1_after1 V c) t d

/-- What the body is handed at grid point `t`: the invariant, the core's debts, and the three windows' current
    staging buffers, the inputs' at what the pipeline left there and the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same, with each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: both inputs' buffers hold their blocks, so the body's triple applies with those
    blocks as the read contents; the invariant and the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 1, at every point. -/
theorem body_obligation1 (c : Dev nD) : BodyObligation (dat1 (F := F) V c) (defs₀ (F := F)) Variants.none () Set.univ := by
  refine fun t => ?_
  rw [bigSep_W1, bigSep_W1]
  exact sound_body1 V c t

end Cert.Kernel.Hand

end
-- ==== Proof.Bits.Red2.lean ====
/-
  The reduction's pallas_call (pipeline 2): a two-entry accumulator kept in a scratch buffer across the 20 grid
  points. The first point clears it; every point adds the sum of its block of the first operand to entry (0,0)
  and the sum of the exponentials of its block of the second operand to entry (0,1); the last point copies the
  accumulator into the output's staging buffer, which the pipeline writes back once, there.
  Here: the accumulator's contents after each point as a recursion over the points, the body's triple in its
  three control cases (first point, a middle point, the last point), the pipeline's proof data with the
  accumulator carried in the invariant, and the body obligation at every point.
-/
import proofs.«114034_j16561393893850_1_alg».proof.Proof.Gen.Kernel.Launch
import proofs.«114034_j16561393893850_1_alg».proof.Proof.Gen.Kernel.Skeleton
import proofs.«114034_j16561393893850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rB2 : Rect S5000x64 := Rect.unit (s := S5000x64) ![0, 0] S5000x64.size inb_S5000x64_S5000x64_0_0
abbrev rS2 : Rect S1x2 := Rect.unit (s := S1x2) ![0, 0] S1x2.size inb_S1x2_S1x2_0_0
abbrev rS00 : Rect S1x2 := Rect.unit (s := S1x2) ![0, 0] S1x1.size inb_S1x2_S1x1_0_0
abbrev rS01 : Rect S1x2 := Rect.unit (s := S1x2) ![0, 1] S1x1.size inb_S1x2_S1x1_0_1

/-- The accumulator's memref: the kernel's one scratch operand, whole. -/
abbrev scr2 : Memref sig .tc .vmem S1x2 .f32 := Memref.whole cc2_scratch0

/-- The cleared accumulator (the first point's whole store). -/
def zero2 : Vec F S1x2 .f32 := View.canon [⟨rS2, k2_pay1 (F := F)⟩]

/-- The accumulator after a point's two accumulating stores, from its contents `s` before them and the point's two blocks. -/
def step2 (x y : Vec F S5000x64 .f32) (s : Vec F S1x2 .f32) : Vec F S1x2 .f32 :=
  View.canon [⟨rS01, k2_pay3 (View.ld y rB2) (View.ld s rS01)⟩, ⟨rS00, k2_pay2 (View.ld x rB2) (View.ld s rS00)⟩]

/-- The accumulator after point `n`. -/
def sc2 (c : Dev nD) : (n : ℕ) → n < cfg2.N → Vec F S1x2 .f32
  | 0, h => step2 (blk2 V c 0 ⟨0, h⟩) (blk2 V c 1 ⟨0, h⟩) zero2
  | n + 1, h => step2 (blk2 V c 0 ⟨n + 1, h⟩) (blk2 V c 1 ⟨n + 1, h⟩) (sc2 c n (Nat.lt_of_succ_lt h))

/-- What the last point's copy leaves in the output's staging buffer (stated at every point; only the last one's is read). -/
def out2 (c : Dev nD) (t : Fin cfg2.N) : Vec F S1x2 .f32 :=
  View.canon [⟨rS2, View.ld (sc2 V c t.val t.isLt) rS2⟩]

/-- What stays of the class invariant when the accumulator is taken out of it: whatever gives the class invariant
    back once the accumulator is returned at any contents. -/
def rest2 (c : Dev nD) : sProp 𝕄 :=
  iprop(∀ d : Vec F S1x2 .f32, owns (c : Thread nD τ) scr2 fullShare d -∗ Pipeline.ΦA spec2 c)

/-- The invariant between points: before the first point the class's; after point `n` the accumulator at `sc2 … n`. -/
def Phi2 (c : Dev nD) : (n : ℕ) → n ≤ cfg2.N → sProp 𝕄
  | 0, _ => Pipeline.ΦA spec2 c
  | n + 1, hn => iprop(owns (c : Thread nD τ) scr2 fullShare (sc2 V c n hn) ∗ rest2 (F := F) c)

/-- Pipeline 2's proof data on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 V c t
  Φ t := Phi2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = out2 V c t := by dsimp only [dat2]

/-- Before the first point the invariant is the class's. -/
theorem dat2_Phi_first (c : Dev nD) : (dat2 V c).Φ 0 = Pipeline.ΦA spec2 c := rfl

/-! ## The accumulator's two cells -/

/-- Two last stores that together cover the shape shadow every earlier one. -/
theorem canon_shadow2 {s : Shape} {e : EltTy} (p q : View.Piece (Elt F) s e) (L : List (View.Piece (Elt F) s e))
    (h : ∀ y : s.Idx, y ∈ p.1.set ∨ y ∈ q.1.set) : View.canon (p :: q :: L) = View.canon [p, q] := by
  funext y
  by_cases hp : y ∈ p.1.set
  · obtain ⟨r, w⟩ := p
    obtain ⟨x, rfl⟩ := r.exists_idx_of_mem hp
    rw [show r.idx x = r.emb x from rfl, View.canon_cons_emb, View.canon_cons_emb]
  · have hq := (h y).resolve_left hp
    rw [View.canon_cons_of_not_mem _ _ hp, View.canon_cons_of_not_mem _ _ hp]
    obtain ⟨r, w⟩ := q
    obtain ⟨x, rfl⟩ := r.exists_idx_of_mem hq
    rw [show r.idx x = r.emb x from rfl, View.canon_cons_emb, View.canon_cons_emb]

/-- The two unit cells (0,1) and (0,0) cover the accumulator. -/
theorem cells2_cover (w1 : rS01.shape.Idx → Elt F .f32) (w0 : rS00.shape.Idx → Elt F .f32) (y : S1x2.Idx) :
    y ∈ (⟨rS01, w1⟩ : View.Piece (Elt F) S1x2 .f32).1.set ∨ y ∈ (⟨rS00, w0⟩ : View.Piece (Elt F) S1x2 .f32).1.set := by
  obtain ⟨p, hp, hy⟩ := View.cover_of_tiledL (s := S1x2) [(⟨rS01, w1⟩ : View.Piece (Elt F) S1x2 .f32), ⟨rS00, w0⟩] S1x1.size (by sl_kernel_rfl) y
  rcases List.mem_cons.mp hp with rfl | hp
  · exact .inl hy
  · rcases List.mem_cons.mp hp with rfl | hp
    · exact .inr hy
    · exact absurd hp List.not_mem_nil

/-- So do they at the head of any list of stores. -/
theorem cells2_cover_list (w1 : rS01.shape.Idx → Elt F .f32) (w0 : rS00.shape.Idx → Elt F .f32) (L : List (View.Piece (Elt F) S1x2 .f32))
    (y : S1x2.Idx) : ∃ p ∈ ((⟨rS01, w1⟩ : View.Piece (Elt F) S1x2 .f32) :: ⟨rS00, w0⟩ :: L), y ∈ p.1.set := by
  rcases cells2_cover w1 w0 y with h | h
  · exact ⟨_, List.mem_cons_self, h⟩
  · exact ⟨_, List.mem_cons_of_mem _ List.mem_cons_self, h⟩

/-- What the two accumulating stores leave, over any earlier stores and any prior contents: the canon of the two alone. -/
theorem read_cells2 {sg : RefSig} {κ : Kind} {sp : Space} (v : View sg κ sp S1x2 .f32) (f : v.ty.Contents (Elt F))
    (w1 : rS01.shape.Idx → Elt F .f32) (w0 : rS00.shape.Idx → Elt F .f32) (L : List (View.Piece (Elt F) S1x2 .f32)) :
    v.read (Elt F) (v.writes (Elt F) f ((⟨rS01, w1⟩ : View.Piece (Elt F) S1x2 .f32) :: ⟨rS00, w0⟩ :: L))
      = View.canon [(⟨rS01, w1⟩ : View.Piece (Elt F) S1x2 .f32), ⟨rS00, w0⟩] := by
  rw [View.read_writes_eq_canon _ _ _ (cells2_cover_list w1 w0 L), canon_shadow2 _ _ _ (cells2_cover w1 w0)]

/-- A load of the cleared accumulator through any rectangle reads `zero2` there. -/
theorem readCov_zero2 {sg : RefSig} {κ : Kind} {sp : Space} (v : View sg κ sp S1x2 .f32) (r : Rect S1x2) :
    v.readCov [(⟨rS2, k2_pay1 (F := F)⟩ : View.Piece (Elt F) S1x2 .f32)] r.toLoadRect = View.ld (zero2 (F := F)) r := by
  rw [View.readCov_eq_canon']; rfl

/-- Cell (0,0) and cell (0,1) are apart. -/
theorem cells2_disjoint : Disjoint rS00.set rS01.toLoadRect.set := by decide

/-- A load of cell (0,1) does not see a store into cell (0,0). -/
theorem readCov2_skip00 {sg : RefSig} {κ : Kind} {sp : Space} (v : View sg κ sp S1x2 .f32)
    (w0 : rS00.shape.Idx → Elt F .f32) (L : List (View.Piece (Elt F) S1x2 .f32)) :
    v.readCov ((⟨rS00, w0⟩ : View.Piece (Elt F) S1x2 .f32) :: L) rS01.toLoadRect = v.readCov L rS01.toLoadRect :=
  View.readCov_cons_of_disjoint v _ L _ cells2_disjoint

/-- The zero offsets, as a constant function. -/
theorem zeros2_eq : (![0, 0] : Fin 2 → Nat) = fun _ => 0 := funext fun a => by fin_cases a <;> rfl

/-- The whole-accumulator rectangle covers it. -/
theorem whole2_cover (w : rS2.shape.Idx → Elt F .f32) (y : S1x2.Idx) :
    ∃ p ∈ [(⟨rS2, w⟩ : View.Piece (Elt F) S1x2 .f32)], y ∈ p.1.set :=
  ⟨_, List.mem_singleton_self _, View.mem_set_unit_zero zeros2_eq inb_S1x2_S1x2_0_0 y⟩

/-! ## The body's triple, in its three control cases

On whole memrefs: the two input blocks at `x`, `y`; the accumulator `arg4`. The first conditional (clear the
accumulator) is taken at the first point only, the second (copy the accumulator out into `arg3`) at the last only. -/

/-- The first conditional's condition, over the grid coordinates. -/
abbrev cond2_0 (i : grid2.Coords) : Prop := (Scalar.cmpi .ne (Scalar.extui (Scalar.cmpi .eq (BitVec.ofNat 32 (i 0).val) 0#32)) 0#32) = 1#1

set_option maxHeartbeats 1000000 in
/-- First point: the accumulator, found at anything, is cleared and then takes the point's two sums; the output's buffer is not touched. -/
theorem sound2_first (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S1x2 .f32) (harg3 : arg3.IsWhole) (arg4 : Memref sig .tc .vmem S1x2 .f32) (harg4 : arg4.IsWhole) (hc0 : cond2_0 i) (hc1 : ¬k2_cond2 i = 1#1)
    (x y : Vec F S5000x64 .f32) (E : Set ℕ) (K : PUnit → sProp 𝕄) :
        iprop(owns (c : Thread nD τ) arg1 fullShare x ∗ owns (c : Thread nD τ) arg2 fullShare y ∗ (∃ d, owns (c : Thread nD τ) arg4 fullShare d)
            ∗ (iprop(owns (c : Thread nD τ) arg1 fullShare x ∗ owns (c : Thread nD τ) arg2 fullShare y ∗ owns (c : Thread nD τ) arg4 fullShare (step2 x y zero2)) -∗ K ⟨⟩))
          ⊢ wp frame (wpE (defs₀ (F := F)) Variants.none c none) E (cc2__reduce_kernel i arg1 harg1 arg2 harg2 arg3 harg3 arg4 harg4) K := by
  simp only [cc2__reduce_kernel_eq_skeleton]; unfold cc2__reduce_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  -- the three stores read back: the two cells shadow the clearing store, whose zeros both cells' loads read
  unfold Cert.Kernel.Hand.sound2_first.sl.v21 Cert.Kernel.Hand.sound2_first.sl.HS_2
  rw [read_cells2]
  rw [readCov2_skip00]
  unfold Cert.Kernel.Hand.sound2_first.sl.v16 Cert.Kernel.Hand.sound2_first.sl.HS_1
  rw [readCov_zero2 (F := F), readCov_zero2 (F := F)]
  unfold step2
  simp only [View.readAt_eq_ld, hf0, hf1]

set_option maxHeartbeats 1000000 in
/-- A middle point: the accumulator at `s` takes the point's two sums; the output's buffer is not touched. -/
theorem sound2_mid (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S1x2 .f32) (harg3 : arg3.IsWhole) (arg4 : Memref sig .tc .vmem S1x2 .f32) (harg4 : arg4.IsWhole) (hc0 : ¬cond2_0 i) (hc1 : ¬k2_cond2 i = 1#1)
    (x y : Vec F S5000x64 .f32) (s : Vec F S1x2 .f32) (E : Set ℕ) (K : PUnit → sProp 𝕄) :
        iprop(owns (c : Thread nD τ) arg1 fullShare x ∗ owns (c : Thread nD τ) arg2 fullShare y ∗ owns (c : Thread nD τ) arg4 fullShare s
            ∗ (iprop(owns (c : Thread nD τ) arg1 fullShare x ∗ owns (c : Thread nD τ) arg2 fullShare y ∗ owns (c : Thread nD τ) arg4 fullShare (step2 x y s)) -∗ K ⟨⟩))
          ⊢ wp frame (wpE (defs₀ (F := F)) Variants.none c none) E (cc2__reduce_kernel i arg1 harg1 arg2 harg2 arg3 harg3 arg4 harg4) K := by
  simp only [cc2__reduce_kernel_eq_skeleton]; unfold cc2__reduce_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  unfold Cert.Kernel.Hand.sound2_mid.sl.v21
  rw [read_cells2]
  unfold step2
  simp only [View.readAt_eq_ld, hf0, hf1, hfs]

set_option maxHeartbeats 1000000 in
/-- The last point: the accumulator at `s` takes the point's two sums and is copied whole into the output's buffer. -/
theorem sound2_last (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S1x2 .f32) (harg3 : arg3.IsWhole) (arg4 : Memref sig .tc .vmem S1x2 .f32) (harg4 : arg4.IsWhole) (hc0 : ¬cond2_0 i) (hc1 : k2_cond2 i = 1#1)
    (x y : Vec F S5000x64 .f32) (s : Vec F S1x2 .f32) (E : Set ℕ) (K : PUnit → sProp 𝕄) :
        iprop(owns (c : Thread nD τ) arg1 fullShare x ∗ owns (c : Thread nD τ) arg2 fullShare y ∗ (∃ d, owns (c : Thread nD τ) arg3 fullShare d) ∗ owns (c : Thread nD τ) arg4 fullShare s
            ∗ (iprop(owns (c : Thread nD τ) arg1 fullShare x ∗ owns (c : Thread nD τ) arg2 fullShare y ∗ owns (c : Thread nD τ) arg3 fullShare (View.canon [⟨rS2, View.ld (step2 x y s) rS2⟩]) ∗ owns (c : Thread nD τ) arg4 fullShare (step2 x y s)) -∗ K ⟨⟩))
          ⊢ wp frame (wpE (defs₀ (F := F)) Variants.none c none) E (cc2__reduce_kernel i arg1 harg1 arg2 harg2 arg3 harg3 arg4 harg4) K := by
  simp only [cc2__reduce_kernel_eq_skeleton]; unfold cc2__reduce_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    -- the copy's payload is the whole accumulator as the two stores left it
    unfold Cert.Kernel.Hand.sound2_last.sl.v29
    rw [View.read_writes_eq_canon _ _ _ (whole2_cover _)]
    rw [View.readCov_eq_canon']
    unfold Cert.Kernel.Hand.sound2_last.sl.HS_2 Cert.Kernel.Hand.sound2_last.sl.v21
    unfold step2
    simp only [View.readAt_eq_ld, hf0, hf1, hfs]
  iexists _; isplitr
  swap; · iexact HS
  ipureintro
  unfold Cert.Kernel.Hand.sound2_last.sl.HS_2 Cert.Kernel.Hand.sound2_last.sl.v21
  rw [read_cells2]
  unfold step2
  simp only [View.readAt_eq_ld, hf0, hf1, hfs]

/-! ## The grid's facts -/

theorem hcond2_first : ∀ t : Fin cfg2.N, cond2_0 (grid2.coords t) ↔ t.val = 0 :=
  (by decide +kernel : ∀ t : Fin grid2.N, cond2_0 (grid2.coords t) ↔ t.val = 0)
theorem hcond2_last : ∀ t : Fin cfg2.N, k2_cond2 (grid2.coords t) = 1#1 ↔ t.val = 19 :=
  (by decide +kernel : ∀ t : Fin grid2.N, k2_cond2 (grid2.coords t) = 1#1 ↔ t.val = 19)
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, t.val ≠ 19 → cfg2.idle 2 (grid2.coords t) = true := by decide +kernel
theorem live2_2 : ∀ t : Fin cfg2.N, t.val = 19 → cfg2.idle 2 (grid2.coords t) = false := by decide +kernel
theorem noflush2_2 : ∀ t : Fin cfg2.N, t.val ≠ 19 → (cfg2.win 2).flush t = false := by decide +kernel

/-! ## The accumulator's recursion and the invariant, at a point -/

theorem sc2_first (c : Dev nD) (t : Fin cfg2.N) (h0 : t.val = 0) :
    sc2 V c t.val t.isLt = step2 (blk2 V c 0 t) (blk2 V c 1 t) zero2 := by
  obtain ⟨n, hn⟩ := t
  cases n with
  | zero => rfl
  | succ n => exact absurd h0 (Nat.succ_ne_zero n)

theorem sc2_next (c : Dev nD) (t : Fin cfg2.N) (h0 : t.val ≠ 0) :
    sc2 V c t.val t.isLt = step2 (blk2 V c 0 t) (blk2 V c 1 t) (sc2 V c (t.val - 1) (Nat.lt_of_le_of_lt (Nat.sub_le _ _) t.isLt)) := by
  obtain ⟨n, hn⟩ := t
  cases n with
  | zero => exact absurd rfl h0
  | succ n => rfl

theorem Phi2_zero (c : Dev nD) (n : ℕ) (h : n ≤ cfg2.N) (hz : n = 0) : Phi2 V c n h = Pipeline.ΦA spec2 c := by
  subst hz; rfl

theorem Phi2_pos (c : Dev nD) (n : ℕ) (h : n ≤ cfg2.N) (hz : n ≠ 0) :
    Phi2 V c n h = iprop(owns (c : Thread nD τ) scr2 fullShare (sc2 V c (n - 1) (by omega)) ∗ rest2 (F := F) c) := by
  cases n with
  | zero => exact absurd rfl hz
  | succ n => rfl

theorem Phi2_castSucc (c : Dev nD) (t : Fin cfg2.N) :
    (dat2 V c).Φ t.castSucc = Phi2 V c t.val (Nat.le_of_lt t.isLt) := by
  dsimp only [dat2]; simp only [Fin.coe_castSucc]

/-- The class invariant hands the accumulator over at some contents and keeps the way back. -/
theorem PhiA2_take (c : Dev nD) :
    (Pipeline.ΦA spec2 c : sProp 𝕄) ⊢ iprop((∃ d, owns (c : Thread nD τ) scr2 fullShare d) ∗ rest2 (F := F) c) := by
  unfold rest2 Pipeline.ΦA; rw [scopedRest2_eq]; simp only [scr2, owns_whole]
  iintro ⟨⟨B0, B1, B2, B3, B4, B5, B6, B7, B8, B9, ⟨%f, HS⟩⟩, Hg⟩
  isplitl [HS]
  · iexists f; iexact HS
  iintro %d HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexists d; iexact HS
  iexact Hg

/-- After the last point the invariant gives the class's back. -/
theorem dat2_Phi_last (c : Dev nD) : (dat2 V c).Φ (Fin.last cfg2.N) ⊢ Pipeline.ΦA spec2 c := by
  rw [show (dat2 V c).Φ (Fin.last cfg2.N) = Phi2 V c cfg2.N (Nat.le_refl _) from rfl,
    Phi2_pos V c _ _ (by rw [show cfg2.N = 20 from N_2]; decide)]
  unfold rest2
  iintro ⟨HS, HR⟩
  ispecialize HR $$ %_ HS
  iexact HR

/-! ## The body at a point -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2 .f32 := win2_2.stage (cfg2.slots t 2)
abbrev hs2_2 (t : Fin cfg2.N) : (ms2_2 t).IsWhole := hstage2_2 ((cfg2.slots t 2).cast nbuf2_2)

/-- Each input's staging buffer holds its block when the body runs: both are fetched at every point. -/
theorem before2_0 (c : Dev nD) (t : Fin cfg2.N) (d) : (dat2 V c).before 0 t d = blk2 V c 0 t := by
  unfold Dat.before
  rw [if_pos (fetch2_0 t)]
  rfl
theorem before2_1 (c : Dev nD) (t : Fin cfg2.N) (d) : (dat2 V c).before 1 t d = blk2 V c 1 t := by
  unfold Dat.before
  rw [if_pos (fetch2_1 t)]
  rfl

set_option maxHeartbeats 1600000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
        iprop((dat2 V c).Φ t.succ ∗ (dat2 V c).owesAt () t.succ
          ∗ (dat2 V c).leavesExact 0 t ∗ (dat2 V c).leavesExact 1 t ∗ (dat2 V c).leavesExact 2 t)) := by
  unfold bodyAt2
  simp only [before2_0, before2_1]
  rw [show (dat2 V c).owesAt () t.succ = (dat2 V c).owesAt () t.castSucc from rfl]
  rw [show (dat2 V c).Φ t.succ = iprop(owns (c : Thread nD τ) scr2 fullShare (sc2 V c t.val t.isLt) ∗ rest2 (F := F) c) from rfl]
  rw [show (dat2 V c).leavesExact 0 t = owns (c : Thread nD τ) (ms2_0 t) fullShare (blk2 V c 0 t) from by
    unfold Dat.leavesExact; rw [live2_0 t, dat2_after0]]
  rw [show (dat2 V c).leavesExact 1 t = owns (c : Thread nD τ) (ms2_1 t) fullShare (blk2 V c 1 t) from by
    unfold Dat.leavesExact; rw [live2_1 t, dat2_after1]]
  rw [Phi2_castSucc]
  have hN : t.val < 20 := lt_of_lt_of_eq t.isLt (show cfg2.N = 20 from N_2)
  by_cases h19 : t.val = 19
  · have h0 : t.val ≠ 0 := by omega
    rw [show (dat2 V c).leavesExact 2 t = owns (c : Thread nD τ) (ms2_2 t) fullShare (out2 V c t) from by
      unfold Dat.leavesExact; rw [live2_2 t h19, dat2_after2]]
    rw [Phi2_pos V c _ _ h0]
    unfold out2; rw [sc2_next V c t h0]
    iintro ⟨⟨HS, HR⟩, Ho, ⟨%d0, H0⟩, ⟨%d1, H1⟩, ⟨%d2, H2⟩⟩
    iapply (sound2_last c (grid2.coords t) _ _ _ _ _ _ _ _ (fun h => h0 ((hcond2_first t).mp h)) ((hcond2_last t).mpr h19) (blk2 V c 0 t) (blk2 V c 1 t) _ Set.univ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · rw [Dat.leavesExact_idle (dat2 V c) 2 t (idle2_2 t h19) (noflush2_2 t h19)]
    by_cases h0 : t.val = 0
    · rw [Phi2_zero V c _ _ h0, sc2_first V c t h0]
      iintro ⟨HA, Ho, ⟨%d0, H0⟩, ⟨%d1, H1⟩, H2⟩
      icases (PhiA2_take (F := F) c) $$ HA with ⟨⟨%ds, HS⟩, HR⟩
      iapply (sound2_first c (grid2.coords t) _ _ _ _ (ms2_2 t) (hs2_2 t) _ _ ((hcond2_first t).mpr h0) (fun h => h19 ((hcond2_last t).mp h)) (blk2 V c 0 t) (blk2 V c 1 t) Set.univ _)
      isplitl [H0]; · iexact H0
      isplitl [H1]; · iexact H1
      isplitl [HS]; · iexists _; iexact HS
      iintro ⟨H0, H1, HS⟩
      isplitl [HS HR]
      · isplitl [HS]; · iexact HS
        iexact HR
      isplitl [Ho]; · iexact Ho
      isplitl [H0]; · iexact H0
      isplitl [H1]; · iexact H1
      iexact H2
    · rw [Phi2_pos V c _ _ h0, sc2_next V c t h0]
      iintro ⟨⟨HS, HR⟩, Ho, ⟨%d0, H0⟩, ⟨%d1, H1⟩, H2⟩
      iapply (sound2_mid c (grid2.coords t) _ _ _ _ (ms2_2 t) (hs2_2 t) _ _ (fun h => h0 ((hcond2_first t).mp h)) (fun h => h19 ((hcond2_last t).mp h)) (blk2 V c 0 t) (blk2 V c 1 t) _ Set.univ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexact H2

/-- The library's body obligation for pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Launch.lean ====
/-
  The whole run of @main: three pipelined regions with host stretches between and after them.

  The core's unscoped buffers are followed from the launch to the return as a chain of valuations: a host
  stretch rewrites them by its operations, a region overwrites its windows' arrays with what the pipeline's
  write-backs leave and touches nothing else. Each region is entered from "every unscoped buffer at the current
  valuation", gives its arrays to the pipeline, and is left at the next valuation. At the end every unscoped
  buffer is read off the last valuation: the arguments come back as launched, and the two results are the last
  stretch's operations applied to the reduction's output array.
-/
import proofs.«114034_j16561393893850_1_alg».proof.Proof.Gen.Kernel.Launch
import proofs.«114034_j16561393893850_1_alg».proof.Proof.Gen.Kernel.Skeleton
import proofs.«114034_j16561393893850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114034_j16561393893850_1_alg».proof.Proof.Bits.Mm0
import proofs.«114034_j16561393893850_1_alg».proof.Proof.Bits.Mm1
import proofs.«114034_j16561393893850_1_alg».proof.Proof.Bits.Red2
import proofs.«114034_j16561393893850_1_alg».proof.Proof.Gen.Kernel.Regions
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev U0 : Dev nD → Valuation τ sig (Elt F) := fun c b => m (c, b)
/-- The same read at the TensorCore's references: what region 0 is entered at. -/
abbrev E0 : (c : Dev nD) → (b : Ref sig .tc) → Buf (Elt F) ((c : Thread nD τ).loc b) := fun c b => U0 m c b
/-- After region 0: its arrays at what the pipeline leaves, the rest as entered. -/
def U1 (c : Dev nD) : Valuation τ sig (Elt F) :=
  Pipeline.withArrays spec0 c (U0 m c) fun w => (dat0 (E0 m) c).arrAt w cfg0.N
abbrev E1 : (c : Dev nD) → (b : Ref sig .tc) → Buf (Elt F) ((c : Thread nD τ).loc b) := fun c b => U1 m c b
/-- After the first host stretch. -/
abbrev U2 : Dev nD → Valuation τ sig (Elt F) := fun c => StableHlo.after hostOps1 (U1 m c)
abbrev E2 : (c : Dev nD) → (b : Ref sig .tc) → Buf (Elt F) ((c : Thread nD τ).loc b) := fun c b => U2 m c b
/-- After region 1. -/
def U3 (c : Dev nD) : Valuation τ sig (Elt F) :=
  Pipeline.withArrays spec1 c (U2 m c) fun w => (dat1 (E2 m) c).arrAt w cfg1.N
abbrev E3 : (c : Dev nD) → (b : Ref sig .tc) → Buf (Elt F) ((c : Thread nD τ).loc b) := fun c b => U3 m c b
/-- After the second host stretch. -/
abbrev U4 : Dev nD → Valuation τ sig (Elt F) := fun c => StableHlo.after hostOps2 (U3 m c)
abbrev E4 : (c : Dev nD) → (b : Ref sig .tc) → Buf (Elt F) ((c : Thread nD τ).loc b) := fun c b => U4 m c b
/-- After region 2. -/
def U5 (c : Dev nD) : Valuation τ sig (Elt F) :=
  Pipeline.withArrays spec2 c (U4 m c) fun w => (dat2 (E4 m) c).arrAt w cfg2.N
abbrev E5 : (c : Dev nD) → (b : Ref sig .tc) → Buf (Elt F) ((c : Thread nD τ).loc b) := fun c b => U5 m c b
/-- After the last host stretch: what @main returns with. -/
abbrev U6 : Dev nD → Valuation τ sig (Elt F) := fun c => StableHlo.after hostOps3 (U5 m c)

theorem U1_arr (c : Dev nD) (w : Fin cfg0.W) :
    U1 m c (Proc.devRef .tc (Pipeline.arrRef spec0 w)) = (dat0 (E0 m) c).arrAt w cfg0.N := by
  unfold U1; exact Pipeline.withArrays_arr spec0 launch0.win.arr_inj c _ _ w
theorem U1_other (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
theorem U3_arr (c : Dev nD) (w : Fin cfg1.W) :
    U3 m c (Proc.devRef .tc (Pipeline.arrRef spec1 w)) = (dat1 (E2 m) c).arrAt w cfg1.N := by
  unfold U3; exact Pipeline.withArrays_arr spec1 launch1.win.arr_inj c _ _ w
theorem U3_other (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
theorem U5_arr (c : Dev nD) (w : Fin cfg2.W) :
    U5 m c (Proc.devRef .tc (Pipeline.arrRef spec2 w)) = (dat2 (E4 m) c).arrAt w cfg2.N := by
  unfold U5; exact Pipeline.withArrays_arr spec2 launch2.win.arr_inj c _ _ w
theorem U5_other (c : Dev nD) (b : Ref sig .tc) (hb : ∀ w, Pipeline.arrRef spec2 w ≠ b) :
    U5 m c (Proc.devRef .tc b) = U4 m c (Proc.devRef .tc b) := by
  unfold U5; exact Pipeline.withArrays_of_ne spec2 c _ _ b hb

/-- A host stretch leaves a buffer it does not write as it found it. -/
theorem U2_other (c : Dev nD) (r : Ref sig .tc) (h : r ∉ hostOps1_W) : U2 m c r = U1 m c r :=
  StableHlo.after_of_writes_sub hostOps1 _ hostOps1_writes h
theorem U4_other (c : Dev nD) (r : Ref sig .tc) (h : r ∉ hostOps2_W) : U4 m c r = U3 m c r :=
  StableHlo.after_of_writes_sub hostOps2 _ hostOps2_writes h
theorem U6_other (c : Dev nD) (r : Ref sig .tc) (h : r ∉ hostOps3_W) : U6 m c r = U5 m c r :=
  StableHlo.after_of_writes_sub hostOps3 _ hostOps3_writes h

/-- A buffer that no host stretch writes and that is no region's OUTPUT array comes back as launched
    (an input array of a region is handed back unchanged). -/
theorem U6_kept (c : Dev nD) (r : Ref sig .tc) (h1 : r ∉ hostOps1_W) (h2 : r ∉ hostOps2_W) (h3 : r ∉ hostOps3_W)
    (k0 : (∀ w, Pipeline.arrRef spec0 w ≠ r) ∨ ∃ w, Pipeline.arrRef spec0 w = r ∧ (cfg0.win w).isOut = false)
    (k1 : (∀ w, Pipeline.arrRef spec1 w ≠ r) ∨ ∃ w, Pipeline.arrRef spec1 w = r ∧ (cfg1.win w).isOut = false)
    (k2 : (∀ w, Pipeline.arrRef spec2 w ≠ r) ∨ ∃ w, Pipeline.arrRef spec2 w = r ∧ (cfg2.win w).isOut = false) :
    U6 m c r = m ((c : Thread nD τ).loc r) := by
  rw [U6_other m c r h3]
  have e5 : U5 m c r = U4 m c r := by
    rcases k2 with k | ⟨w, rfl, hw⟩
    · exact U5_other m c _ k
    · rw [U5_arr]; exact ((dat2 (E4 m) c).arrAt_in w hw _).trans (dat2_A (E4 m) c w)
  have e3 : U3 m c r = U2 m c r := by
    rcases k1 with k | ⟨w, rfl, hw⟩
    · exact U3_other m c _ k
    · rw [U3_arr]; exact ((dat1 (E2 m) c).arrAt_in w hw _).trans (dat1_A (E2 m) c w)
  have e1 : U1 m c r = U0 m c r := by
    rcases k0 with k | ⟨w, rfl, hw⟩
    · exact U1_other m c _ k
    · rw [U1_arr]; exact ((dat0 (E0 m) c).arrAt_in w hw _).trans (dat0_A (E0 m) c w)
  rw [e5, U4_other m c r h2, e3, U2_other m c r h1, e1]

/-! ## The proof data family, the thread state, the host stretches as segments -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
  | ⟨2, _⟩ => fun c => dat2 (E4 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state, and nothing owed. -/
abbrev Rd (c : Dev nD) : sProp 𝕄 := iprop((∃ r, prngReg c r) ∗ ∃ W, owes (c : Thread nD τ) (0 : CellTallies nD τ sig Unit) W)

/-- The thread state at a boundary: every unscoped buffer at the boundary's contents, and what rides along. -/
abbrev At (W : Dev nD → Valuation τ sig (Elt F)) (c : Dev nD) : sProp 𝕄 :=
  iprop(StableHlo.held (c : Thread nD τ) (Pipeline.ucRefs τ sig) (W c) ∗ Rd (F := F) c)

/-- A host stretch as a segment from the contents `W`: it ends at `StableHlo.after ops (W c)`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-! ## The regions as segments -/

/-- At a region's exit its arrays hold what the pipeline leaves and every other buffer what it held at entry. -/
theorem exit0_arr (c : Dev nD) (w : Fin cfg0.W) : (dat0 (E0 m) c).arrAt w cfg0.N = E1 m c (Pipeline.arrRef spec0 w) :=
  (U1_arr m c w).symm
theorem exit0_rest (c : Dev nD) : ∀ b, b ∉ Finset.univ.image (Pipeline.arrRef spec0) → E1 m c b = E0 m c b :=
  fun b hb => U1_other m c b fun w e => hb (Finset.mem_image.mpr ⟨w, Finset.mem_univ _, e⟩)
theorem exit1_arr (c : Dev nD) (w : Fin cfg1.W) : (dat1 (E2 m) c).arrAt w cfg1.N = E3 m c (Pipeline.arrRef spec1 w) :=
  (U3_arr m c w).symm
theorem exit1_rest (c : Dev nD) : ∀ b, b ∉ Finset.univ.image (Pipeline.arrRef spec1) → E3 m c b = E2 m c b :=
  fun b hb => U3_other m c b fun w e => hb (Finset.mem_image.mpr ⟨w, Finset.mem_univ _, e⟩)
theorem exit2_arr (c : Dev nD) (w : Fin cfg2.W) : (dat2 (E4 m) c).arrAt w cfg2.N = E5 m c (Pipeline.arrRef spec2 w) :=
  (U5_arr m c w).symm
theorem exit2_rest (c : Dev nD) : ∀ b, b ∉ Finset.univ.image (Pipeline.arrRef spec2) → E5 m c b = E4 m c b :=
  fun b hb => U5_other m c b fun w e => hb (Finset.mem_image.mpr ⟨w, Finset.mem_univ _, e⟩)

set_option backward.isDefEq.respectTransparency.types false in
/-- Region 0, entered from the launch contents and left at `U1`: its arrays are split out of the unscoped buffers and
    put back at the exit contents; the generator register goes into the class invariant and comes back; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (U0 m c) ∗ Rd c)
  post c := iprop(StableHlo.held (c : Thread nD τ) (Pipeline.ucRefs τ sig) (U1 m c) ∗ Rd c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from the contents after the first host stretch and left at `U3`, in the same way: its arrays split out and put back, the generator register through the class invariant, nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (U2 m c) ∗ Rd c)
  post c := iprop(StableHlo.held (c : Thread nD τ) (Pipeline.ucRefs τ sig) (U3 m c) ∗ Rd c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, the reduction, entered from the contents after the second host stretch and left at `U5`: as the others, except that its invariant carries the accumulator between the points: it starts as the class invariant and gives it back after the last point. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (U4 m c) ∗ Rd c)
  post c := iprop(StableHlo.held (c : Thread nD τ) (Pipeline.ucRefs τ sig) (U5 m c) ∗ Rd c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from dat2_Phi_last (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order: a region per pallas_call, a host segment per stretch from its boundary's contents. -/
abbrev segs : List (Pipeline.Seg (pcfgs (F := F)) adm (pdats m) () defs₀ 𝒱₀ L lv) :=
  [ .region (reg0 m),
    .host (hostSeg hostOps1 hostOps1_sub hostOps1_fresh (U1 m)),
    .region (reg1 m),
    .host (hostSeg hostOps2 hostOps2_sub hostOps2_fresh (U3 m)),
    .region (reg2 m),
    .host (hostSeg hostOps3 hostOps3_sub hostOps3_fresh (U5 m)) ]

/-- @main is the run of these segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main on the TensorCores terminates,
    nothing faulting, and in every final state each unscoped buffer holds what the chain of valuations ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rd c))
    (Tₙ := fun c => iprop(StableHlo.held (c : Thread nD τ) (Pipeline.ucRefs τ sig) (U6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (U6 m c) ∗ Rd c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c => h c)

/-! ## The arguments come back as launched -/

theorem U6_arg0 (c : Dev nD) : U6 m c main_arg0 = m ((c : Thread nD τ).loc main_arg0) :=
  U6_kept m c main_arg0 (by decide) (by decide) (by decide) (.inr ⟨0, rfl, rfl⟩) (.inl (by decide)) (.inl (by decide))
theorem U6_arg1 (c : Dev nD) : U6 m c main_arg1 = m ((c : Thread nD τ).loc main_arg1) :=
  U6_kept m c main_arg1 (by decide) (by decide) (by decide) (.inl (by decide)) (.inl (by decide)) (.inl (by decide))
theorem U6_arg2 (c : Dev nD) : U6 m c main_arg2 = m ((c : Thread nD τ).loc main_arg2) :=
  U6_kept m c main_arg2 (by decide) (by decide) (by decide) (.inl (by decide)) (.inl (by decide)) (.inl (by decide))
theorem U6_arg3 (c : Dev nD) : U6 m c main_arg3 = m ((c : Thread nD τ).loc main_arg3) :=
  U6_kept m c main_arg3 (by decide) (by decide) (by decide) (.inl (by decide)) (.inl (by decide)) (.inl (by decide))
theorem U6_arg4 (c : Dev nD) : U6 m c main_arg4 = m ((c : Thread nD τ).loc main_arg4) :=
  U6_kept m c main_arg4 (by decide) (by decide) (by decide) (.inr ⟨1, rfl, rfl⟩) (.inl (by decide)) (.inl (by decide))
theorem U6_arg5 (c : Dev nD) : U6 m c main_arg5 = m ((c : Thread nD τ).loc main_arg5) :=
  U6_kept m c main_arg5 (by decide) (by decide) (by decide) (.inl (by decide)) (.inl (by decide)) (.inl (by decide))
theorem U6_arg6 (c : Dev nD) : U6 m c main_arg6 = m ((c : Thread nD τ).loc main_arg6) :=
  U6_kept m c main_arg6 (by decide) (by decide) (by decide) (.inl (by decide)) (.inl (by decide)) (.inl (by decide))

/-- The run with what a claim reads off it: the two results at the last valuation, the arguments as launched. -/
theorem run_read : θ_run defs (onTc (τ := τ) (main (F := F))) ⟨m, fun _ => 0, ρ⟩ (fun r => ∀ c : Dev nD,
      r.2.mem ((c.tc : Thread nD τ).loc main_v34) = U6 m c main_v34
      ∧ r.2.mem ((c.tc : Thread nD τ).loc main_v38) = U6 m c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v34 (by decide)), h c _ (mem_uc main_v38 (by decide)),
      (h c _ (mem_uc main_arg0 (by decide))).trans (U6_arg0 m c), (h c _ (mem_uc main_arg1 (by decide))).trans (U6_arg1 m c),
      (h c _ (mem_uc main_arg2 (by decide))).trans (U6_arg2 m c), (h c _ (mem_uc main_arg3 (by decide))).trans (U6_arg3 m c),
      (h c _ (mem_uc main_arg4 (by decide))).trans (U6_arg4 m c), (h c _ (mem_uc main_arg5 (by decide))).trans (U6_arg5 m c),
      (h c _ (mem_uc main_arg6 (by decide))).trans (U6_arg6 m c)⟩) (run_all m ρ)

/-- THE FRAME: the arguments come back as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2.2) (run_read m ρ)

end Cert.Kernel.Hand

end
-- ==== Proof.Mm0.lean ====
/-
  The first projection's pallas_call (pipeline 0): per grid point the body multiplies the staged
  5000-row block of its first operand (as loaded) by the whole of its second operand, the weights, into the staged output block.
  Here: the blocks the pipeline stages, what the body leaves in the output's staging buffer as a
  function of the two input blocks, the body's triple, the pipeline's proof data at a parameter `V`
  (the core's buffer contents when the region is entered), and the body obligation at every point.
-/
import proofs.«114034_j16561393893850_1_alg».proof.Proof.Gen.KernelIdeal.Launch
import proofs.«114034_j16561393893850_1_alg».proof.Proof.Gen.KernelIdeal.Skeleton
import proofs.«114034_j16561393893850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x256 := Rect.unit (s := S5000x256) ![0, 0] S5000x256.size inb_S5000x256_S5000x256_0_0
abbrev rW0 : Rect S256x128 := Rect.unit (s := S256x128) ![0, 0] S256x128.size inb_S256x128_S256x128_0_0
abbrev rO0 : Rect S5000x128 := Rect.unit (s := S5000x128) ![0, 0] S5000x128.size inb_S5000x128_S5000x128_0_0

/-- What the body leaves in the output's staging buffer: its one store, of the product of the row block and the weights. -/
def prod0 (x : Vec F S5000x256 .f32) (w : Vec F S256x128 .f32) : Vec F S5000x128 .f32 :=
  View.canon [⟨rO0, k0_pay1 (View.ld x rX0) (View.ld w rW0)⟩]

/-- The one whole-buffer store tiles the output's staging buffer, so every index is covered by it. -/
theorem cover0 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

set_option maxHeartbeats 1000000 in
/-- The body's triple on whole staging memrefs. -/
theorem sound_kernel0 (c : Dev nD) (E : Set ℕ) (i : grid0.Coords) (arg1 : Memref sig .tc .vmem S5000x256 .f32) (harg1 : arg1.IsWhole)
    (arg2 : Memref sig .tc .vmem S256x128 .f32) (harg2 : arg2.IsWhole) (arg3 : Memref sig .tc .vmem S5000x128 .f32) (harg3 : arg3.IsWhole)
    (x : Vec F S5000x256 .f32) (w : Vec F S256x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- Pipeline 0's proof data on core `c`: the arrays as the region finds them; after the body the inputs' buffers at
    their blocks and the output's at the product; the class invariant untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = prod0 (blk0 V c 0 t) (blk0 V c 1 t) := by dsimp only [dat0]

/-- An input window's current staging buffer holds that window's block at every grid point, whether or not it was
    fetched at that point: an unfetched point has the same block index as the one before it, and the body leaves
    the block in place. Stated for any proof data over the region's arrays whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem before0_0 (c : Dev nD) (t : Fin cfg0.N) (d) : (dat0 V c).before 0 t d = blk0 V c 0 t :=
  before0_0_of V (dat0 V c) (dat0_A V c 0) (dat0_after0 V c) t d

theorem before0_1 (c : Dev nD) (t : Fin cfg0.N) (d) : (dat0 V c).before 1 t d = blk0 V c 1 t :=
  before0_1_of V (dat0 V c) (dat0_A V c 1) (dat0_after1 V c) t d

/-- What the body is handed at grid point `t`: the invariant, the core's debts, and the three windows' current
    staging buffers, the inputs' at what the pipeline left there and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same, with each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: both inputs' buffers hold their blocks, so the body's triple applies with those
    blocks as the read contents; the invariant and the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 0, at every point. -/
theorem body_obligation0 (c : Dev nD) : BodyObligation (dat0 (F := F) V c) (defs₀ (F := F)) Variants.none () Set.univ := by
  refine fun t => ?_
  rw [bigSep_W0, bigSep_W0]
  exact sound_body0 V c t

end Cert.KernelIdeal.Hand

end
-- ==== Proof.Mm1.lean ====
/-
  The second projection's pallas_call (pipeline 1): per grid point the body multiplies the staged
  5000-row block of its first operand (clamped at zero from below) by the whole of its second operand, the weights, into the staged output block.
  Here: the blocks the pipeline stages, what the body leaves in the output's staging buffer as a
  function of the two input blocks, the body's triple, the pipeline's proof data at a parameter `V`
  (the core's buffer contents when the region is entered), and the body obligation at every point.
-/
import proofs.«114034_j16561393893850_1_alg».proof.Proof.Gen.KernelIdeal.Launch
import proofs.«114034_j16561393893850_1_alg».proof.Proof.Gen.KernelIdeal.Skeleton
import proofs.«114034_j16561393893850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rO1 : Rect S5000x128 := Rect.unit (s := S5000x128) ![0, 0] S5000x128.size inb_S5000x128_S5000x128_0_0

/-- What the body leaves in the output's staging buffer: its one store, of the product of the row block and the weights. -/
def prod1 (x : Vec F S5000x128 .f32) (w : Vec F S128x128 .f32) : Vec F S5000x128 .f32 :=
  View.canon [⟨rO1, k1_pay1 (View.ld x rX1) (View.ld w rW1)⟩]

/-- The one whole-buffer store tiles the output's staging buffer, so every index is covered by it. -/
theorem cover1 (p0 : Vec F S5000x128 .f32) (y : S5000x128.Idx) :
    ∃ pc ∈ ([⟨rO1, p0⟩] : List (View.Piece (Elt F) S5000x128 .f32)), y ∈ pc.1.set :=
  View.cover_of_tiled [⟨rO1, p0⟩] S5000x128.size (by rfl) y

set_option maxHeartbeats 1000000 in
/-- The body's triple on whole staging memrefs. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod1 x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- pipeline 1's proof data on core `c`: the arrays as the region finds them; after the body the inputs' buffers at
    their blocks and the output's at the product; the class invariant untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => prod1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = prod1 (blk1 V c 0 t) (blk1 V c 1 t) := by dsimp only [dat1]

/-- An input window's current staging buffer holds that window's block at every grid point, whether or not it was
    fetched at that point: an unfetched point has the same block index as the one before it, and the body leaves
    the block in place. Stated for any proof data over the region's arrays whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_0 (c : Dev nD) (t : Fin cfg1.N) (d) : (dat1 V c).before 0 t d = blk1 V c 0 t :=
  before1_0_of V (dat1 V c) (dat1_A V c 0) (dat1_after0 V c) t d

theorem before1_1 (c : Dev nD) (t : Fin cfg1.N) (d) : (dat1 V c).before 1 t d = blk1 V c 1 t :=
  before1_1_of V (dat1 V c) (dat1_A V c 1) (dat1_after1 V c) t d

/-- What the body is handed at grid point `t`: the invariant, the core's debts, and the three windows' current
    staging buffers, the inputs' at what the pipeline left there and the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same, with each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: both inputs' buffers hold their blocks, so the body's triple applies with those
    blocks as the read contents; the invariant and the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for pipeline 1, at every point. -/
theorem body_obligation1 (c : Dev nD) : BodyObligation (dat1 (F := F) V c) (defs₀ (F := F)) Variants.none () Set.univ := by
  refine fun t => ?_
  rw [bigSep_W1, bigSep_W1]
  exact sound_body1 V c t

end Cert.KernelIdeal.Hand

end
-- ==== Proof.Red2.lean ====
/-
  The reduction's pallas_call (pipeline 2): a two-entry accumulator kept in a scratch buffer across the 20 grid
  points. The first point clears it; every point adds the sum of its block of the first operand to entry (0,0)
  and the sum of the exponentials of its block of the second operand to entry (0,1); the last point copies the
  accumulator into the output's staging buffer, which the pipeline writes back once, there.
  Here: the accumulator's contents after each point as a recursion over the points, the body's triple in its
  three control cases (first point, a middle point, the last point), the pipeline's proof data with the
  accumulator carried in the invariant, and the body obligation at every point.
-/
import proofs.«114034_j16561393893850_1_alg».proof.Proof.Gen.KernelIdeal.Launch
import proofs.«114034_j16561393893850_1_alg».proof.Proof.Gen.KernelIdeal.Skeleton
import proofs.«114034_j16561393893850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rB2 : Rect S5000x64 := Rect.unit (s := S5000x64) ![0, 0] S5000x64.size inb_S5000x64_S5000x64_0_0
abbrev rS2 : Rect S1x2 := Rect.unit (s := S1x2) ![0, 0] S1x2.size inb_S1x2_S1x2_0_0
abbrev rS00 : Rect S1x2 := Rect.unit (s := S1x2) ![0, 0] S1x1.size inb_S1x2_S1x1_0_0
abbrev rS01 : Rect S1x2 := Rect.unit (s := S1x2) ![0, 1] S1x1.size inb_S1x2_S1x1_0_1

/-- The accumulator's memref: the kernel's one scratch operand, whole. -/
abbrev scr2 : Memref sig .tc .vmem S1x2 .f32 := Memref.whole cc2_scratch0

/-- The cleared accumulator (the first point's whole store). -/
def zero2 : Vec F S1x2 .f32 := View.canon [⟨rS2, k2_pay1 (F := F)⟩]

/-- The accumulator after a point's two accumulating stores, from its contents `s` before them and the point's two blocks. -/
def step2 (x y : Vec F S5000x64 .f32) (s : Vec F S1x2 .f32) : Vec F S1x2 .f32 :=
  View.canon [⟨rS01, k2_pay3 (View.ld y rB2) (View.ld s rS01)⟩, ⟨rS00, k2_pay2 (View.ld x rB2) (View.ld s rS00)⟩]

/-- The accumulator after point `n`. -/
def sc2 (c : Dev nD) : (n : ℕ) → n < cfg2.N → Vec F S1x2 .f32
  | 0, h => step2 (blk2 V c 0 ⟨0, h⟩) (blk2 V c 1 ⟨0, h⟩) zero2
  | n + 1, h => step2 (blk2 V c 0 ⟨n + 1, h⟩) (blk2 V c 1 ⟨n + 1, h⟩) (sc2 c n (Nat.lt_of_succ_lt h))

/-- What the last point's copy leaves in the output's staging buffer (stated at every point; only the last one's is read). -/
def out2 (c : Dev nD) (t : Fin cfg2.N) : Vec F S1x2 .f32 :=
  View.canon [⟨rS2, View.ld (sc2 V c t.val t.isLt) rS2⟩]

/-- What stays of the class invariant when the accumulator is taken out of it: whatever gives the class invariant
    back once the accumulator is returned at any contents. -/
def rest2 (c : Dev nD) : sProp 𝕄 :=
  iprop(∀ d : Vec F S1x2 .f32, owns (c : Thread nD τ) scr2 fullShare d -∗ Pipeline.ΦA spec2 c)

/-- The invariant between points: before the first point the class's; after point `n` the accumulator at `sc2 … n`. -/
def Phi2 (c : Dev nD) : (n : ℕ) → n ≤ cfg2.N → sProp 𝕄
  | 0, _ => Pipeline.ΦA spec2 c
  | n + 1, hn => iprop(owns (c : Thread nD τ) scr2 fullShare (sc2 V c n hn) ∗ rest2 (F := F) c)

/-- Pipeline 2's proof data on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 V c t
  Φ t := Phi2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = out2 V c t := by dsimp only [dat2]

/-- Before the first point the invariant is the class's. -/
theorem dat2_Phi_first (c : Dev nD) : (dat2 V c).Φ 0 = Pipeline.ΦA spec2 c := rfl

/-! ## The accumulator's two cells -/

/-- Two last stores that together cover the shape shadow every earlier one. -/
theorem canon_shadow2 {s : Shape} {e : EltTy} (p q : View.Piece (Elt F) s e) (L : List (View.Piece (Elt F) s e))
    (h : ∀ y : s.Idx, y ∈ p.1.set ∨ y ∈ q.1.set) : View.canon (p :: q :: L) = View.canon [p, q] := by
  funext y
  by_cases hp : y ∈ p.1.set
  · obtain ⟨r, w⟩ := p
    obtain ⟨x, rfl⟩ := r.exists_idx_of_mem hp
    rw [show r.idx x = r.emb x from rfl, View.canon_cons_emb, View.canon_cons_emb]
  · have hq := (h y).resolve_left hp
    rw [View.canon_cons_of_not_mem _ _ hp, View.canon_cons_of_not_mem _ _ hp]
    obtain ⟨r, w⟩ := q
    obtain ⟨x, rfl⟩ := r.exists_idx_of_mem hq
    rw [show r.idx x = r.emb x from rfl, View.canon_cons_emb, View.canon_cons_emb]

/-- The two unit cells (0,1) and (0,0) cover the accumulator. -/
theorem cells2_cover (w1 : rS01.shape.Idx → Elt F .f32) (w0 : rS00.shape.Idx → Elt F .f32) (y : S1x2.Idx) :
    y ∈ (⟨rS01, w1⟩ : View.Piece (Elt F) S1x2 .f32).1.set ∨ y ∈ (⟨rS00, w0⟩ : View.Piece (Elt F) S1x2 .f32).1.set := by
  obtain ⟨p, hp, hy⟩ := View.cover_of_tiledL (s := S1x2) [(⟨rS01, w1⟩ : View.Piece (Elt F) S1x2 .f32), ⟨rS00, w0⟩] S1x1.size (by sl_kernel_rfl) y
  rcases List.mem_cons.mp hp with rfl | hp
  · exact .inl hy
  · rcases List.mem_cons.mp hp with rfl | hp
    · exact .inr hy
    · exact absurd hp List.not_mem_nil

/-- So do they at the head of any list of stores. -/
theorem cells2_cover_list (w1 : rS01.shape.Idx → Elt F .f32) (w0 : rS00.shape.Idx → Elt F .f32) (L : List (View.Piece (Elt F) S1x2 .f32))
    (y : S1x2.Idx) : ∃ p ∈ ((⟨rS01, w1⟩ : View.Piece (Elt F) S1x2 .f32) :: ⟨rS00, w0⟩ :: L), y ∈ p.1.set := by
  rcases cells2_cover w1 w0 y with h | h
  · exact ⟨_, List.mem_cons_self, h⟩
  · exact ⟨_, List.mem_cons_of_mem _ List.mem_cons_self, h⟩

/-- What the two accumulating stores leave, over any earlier stores and any prior contents: the canon of the two alone. -/
theorem read_cells2 {sg : RefSig} {κ : Kind} {sp : Space} (v : View sg κ sp S1x2 .f32) (f : v.ty.Contents (Elt F))
    (w1 : rS01.shape.Idx → Elt F .f32) (w0 : rS00.shape.Idx → Elt F .f32) (L : List (View.Piece (Elt F) S1x2 .f32)) :
    v.read (Elt F) (v.writes (Elt F) f ((⟨rS01, w1⟩ : View.Piece (Elt F) S1x2 .f32) :: ⟨rS00, w0⟩ :: L))
      = View.canon [(⟨rS01, w1⟩ : View.Piece (Elt F) S1x2 .f32), ⟨rS00, w0⟩] := by
  rw [View.read_writes_eq_canon _ _ _ (cells2_cover_list w1 w0 L), canon_shadow2 _ _ _ (cells2_cover w1 w0)]

/-- A load of the cleared accumulator through any rectangle reads `zero2` there. -/
theorem readCov_zero2 {sg : RefSig} {κ : Kind} {sp : Space} (v : View sg κ sp S1x2 .f32) (r : Rect S1x2) :
    v.readCov [(⟨rS2, k2_pay1 (F := F)⟩ : View.Piece (Elt F) S1x2 .f32)] r.toLoadRect = View.ld (zero2 (F := F)) r := by
  rw [View.readCov_eq_canon']; rfl

/-- Cell (0,0) and cell (0,1) are apart. -/
theorem cells2_disjoint : Disjoint rS00.set rS01.toLoadRect.set := by decide

/-- A load of cell (0,1) does not see a store into cell (0,0). -/
theorem readCov2_skip00 {sg : RefSig} {κ : Kind} {sp : Space} (v : View sg κ sp S1x2 .f32)
    (w0 : rS00.shape.Idx → Elt F .f32) (L : List (View.Piece (Elt F) S1x2 .f32)) :
    v.readCov ((⟨rS00, w0⟩ : View.Piece (Elt F) S1x2 .f32) :: L) rS01.toLoadRect = v.readCov L rS01.toLoadRect :=
  View.readCov_cons_of_disjoint v _ L _ cells2_disjoint

/-- The zero offsets, as a constant function. -/
theorem zeros2_eq : (![0, 0] : Fin 2 → Nat) = fun _ => 0 := funext fun a => by fin_cases a <;> rfl

/-- The whole-accumulator rectangle covers it. -/
theorem whole2_cover (w : rS2.shape.Idx → Elt F .f32) (y : S1x2.Idx) :
    ∃ p ∈ [(⟨rS2, w⟩ : View.Piece (Elt F) S1x2 .f32)], y ∈ p.1.set :=
  ⟨_, List.mem_singleton_self _, View.mem_set_unit_zero zeros2_eq inb_S1x2_S1x2_0_0 y⟩

/-! ## The body's triple, in its three control cases

On whole memrefs: the two input blocks at `x`, `y`; the accumulator `arg4`. The first conditional (clear the
accumulator) is taken at the first point only, the second (copy the accumulator out into `arg3`) at the last only. -/

/-- The first conditional's condition, over the grid coordinates. -/
abbrev cond2_0 (i : grid2.Coords) : Prop := (Scalar.cmpi .ne (Scalar.extui (Scalar.cmpi .eq (BitVec.ofNat 32 (i 0).val) 0#32)) 0#32) = 1#1

set_option maxHeartbeats 1000000 in
/-- First point: the accumulator, found at anything, is cleared and then takes the point's two sums; the output's buffer is not touched. -/
theorem sound2_first (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S1x2 .f32) (harg3 : arg3.IsWhole) (arg4 : Memref sig .tc .vmem S1x2 .f32) (harg4 : arg4.IsWhole) (hc0 : cond2_0 i) (hc1 : ¬k2_cond2 i = 1#1)
    (x y : Vec F S5000x64 .f32) (E : Set ℕ) (K : PUnit → sProp 𝕄) :
        iprop(owns (c : Thread nD τ) arg1 fullShare x ∗ owns (c : Thread nD τ) arg2 fullShare y ∗ (∃ d, owns (c : Thread nD τ) arg4 fullShare d)
            ∗ (iprop(owns (c : Thread nD τ) arg1 fullShare x ∗ owns (c : Thread nD τ) arg2 fullShare y ∗ owns (c : Thread nD τ) arg4 fullShare (step2 x y zero2)) -∗ K ⟨⟩))
          ⊢ wp frame (wpE (defs₀ (F := F)) Variants.none c none) E (cc2__reduce_kernel i arg1 harg1 arg2 harg2 arg3 harg3 arg4 harg4) K := by
  simp only [cc2__reduce_kernel_eq_skeleton]; unfold cc2__reduce_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  -- the three stores read back: the two cells shadow the clearing store, whose zeros both cells' loads read
  unfold Cert.KernelIdeal.Hand.sound2_first.sl.v21 Cert.KernelIdeal.Hand.sound2_first.sl.HS_2
  rw [read_cells2]
  rw [readCov2_skip00]
  unfold Cert.KernelIdeal.Hand.sound2_first.sl.v16 Cert.KernelIdeal.Hand.sound2_first.sl.HS_1
  rw [readCov_zero2 (F := F), readCov_zero2 (F := F)]
  unfold step2
  simp only [View.readAt_eq_ld, hf0, hf1]

set_option maxHeartbeats 1000000 in
/-- A middle point: the accumulator at `s` takes the point's two sums; the output's buffer is not touched. -/
theorem sound2_mid (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S1x2 .f32) (harg3 : arg3.IsWhole) (arg4 : Memref sig .tc .vmem S1x2 .f32) (harg4 : arg4.IsWhole) (hc0 : ¬cond2_0 i) (hc1 : ¬k2_cond2 i = 1#1)
    (x y : Vec F S5000x64 .f32) (s : Vec F S1x2 .f32) (E : Set ℕ) (K : PUnit → sProp 𝕄) :
        iprop(owns (c : Thread nD τ) arg1 fullShare x ∗ owns (c : Thread nD τ) arg2 fullShare y ∗ owns (c : Thread nD τ) arg4 fullShare s
            ∗ (iprop(owns (c : Thread nD τ) arg1 fullShare x ∗ owns (c : Thread nD τ) arg2 fullShare y ∗ owns (c : Thread nD τ) arg4 fullShare (step2 x y s)) -∗ K ⟨⟩))
          ⊢ wp frame (wpE (defs₀ (F := F)) Variants.none c none) E (cc2__reduce_kernel i arg1 harg1 arg2 harg2 arg3 harg3 arg4 harg4) K := by
  simp only [cc2__reduce_kernel_eq_skeleton]; unfold cc2__reduce_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  unfold Cert.KernelIdeal.Hand.sound2_mid.sl.v21
  rw [read_cells2]
  unfold step2
  simp only [View.readAt_eq_ld, hf0, hf1, hfs]

set_option maxHeartbeats 1000000 in
/-- The last point: the accumulator at `s` takes the point's two sums and is copied whole into the output's buffer. -/
theorem sound2_last (c : Dev nD) (i : grid2.Coords) (arg1 : Memref sig .tc .vmem S5000x64 .f32) (harg1 : arg1.IsWhole) (arg2 : Memref sig .tc .vmem S5000x64 .f32) (harg2 : arg2.IsWhole) (arg3 : Memref sig .tc .vmem S1x2 .f32) (harg3 : arg3.IsWhole) (arg4 : Memref sig .tc .vmem S1x2 .f32) (harg4 : arg4.IsWhole) (hc0 : ¬cond2_0 i) (hc1 : k2_cond2 i = 1#1)
    (x y : Vec F S5000x64 .f32) (s : Vec F S1x2 .f32) (E : Set ℕ) (K : PUnit → sProp 𝕄) :
        iprop(owns (c : Thread nD τ) arg1 fullShare x ∗ owns (c : Thread nD τ) arg2 fullShare y ∗ (∃ d, owns (c : Thread nD τ) arg3 fullShare d) ∗ owns (c : Thread nD τ) arg4 fullShare s
            ∗ (iprop(owns (c : Thread nD τ) arg1 fullShare x ∗ owns (c : Thread nD τ) arg2 fullShare y ∗ owns (c : Thread nD τ) arg3 fullShare (View.canon [⟨rS2, View.ld (step2 x y s) rS2⟩]) ∗ owns (c : Thread nD τ) arg4 fullShare (step2 x y s)) -∗ K ⟨⟩))
          ⊢ wp frame (wpE (defs₀ (F := F)) Variants.none c none) E (cc2__reduce_kernel i arg1 harg1 arg2 harg2 arg3 harg3 arg4 harg4) K := by
  simp only [cc2__reduce_kernel_eq_skeleton]; unfold cc2__reduce_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    -- the copy's payload is the whole accumulator as the two stores left it
    unfold Cert.KernelIdeal.Hand.sound2_last.sl.v29
    rw [View.read_writes_eq_canon _ _ _ (whole2_cover _)]
    rw [View.readCov_eq_canon']
    unfold Cert.KernelIdeal.Hand.sound2_last.sl.HS_2 Cert.KernelIdeal.Hand.sound2_last.sl.v21
    unfold step2
    simp only [View.readAt_eq_ld, hf0, hf1, hfs]
  iexists _; isplitr
  swap; · iexact HS
  ipureintro
  unfold Cert.KernelIdeal.Hand.sound2_last.sl.HS_2 Cert.KernelIdeal.Hand.sound2_last.sl.v21
  rw [read_cells2]
  unfold step2
  simp only [View.readAt_eq_ld, hf0, hf1, hfs]

/-! ## The grid's facts -/

theorem hcond2_first : ∀ t : Fin cfg2.N, cond2_0 (grid2.coords t) ↔ t.val = 0 :=
  (by decide +kernel : ∀ t : Fin grid2.N, cond2_0 (grid2.coords t) ↔ t.val = 0)
theorem hcond2_last : ∀ t : Fin cfg2.N, k2_cond2 (grid2.coords t) = 1#1 ↔ t.val = 19 :=
  (by decide +kernel : ∀ t : Fin grid2.N, k2_cond2 (grid2.coords t) = 1#1 ↔ t.val = 19)
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, t.val ≠ 19 → cfg2.idle 2 (grid2.coords t) = true := by decide +kernel
theorem live2_2 : ∀ t : Fin cfg2.N, t.val = 19 → cfg2.idle 2 (grid2.coords t) = false := by decide +kernel
theorem noflush2_2 : ∀ t : Fin cfg2.N, t.val ≠ 19 → (cfg2.win 2).flush t = false := by decide +kernel

/-! ## The accumulator's recursion and the invariant, at a point -/

theorem sc2_first (c : Dev nD) (t : Fin cfg2.N) (h0 : t.val = 0) :
    sc2 V c t.val t.isLt = step2 (blk2 V c 0 t) (blk2 V c 1 t) zero2 := by
  obtain ⟨n, hn⟩ := t
  cases n with
  | zero => rfl
  | succ n => exact absurd h0 (Nat.succ_ne_zero n)

theorem sc2_next (c : Dev nD) (t : Fin cfg2.N) (h0 : t.val ≠ 0) :
    sc2 V c t.val t.isLt = step2 (blk2 V c 0 t) (blk2 V c 1 t) (sc2 V c (t.val - 1) (Nat.lt_of_le_of_lt (Nat.sub_le _ _) t.isLt)) := by
  obtain ⟨n, hn⟩ := t
  cases n with
  | zero => exact absurd rfl h0
  | succ n => rfl

theorem Phi2_zero (c : Dev nD) (n : ℕ) (h : n ≤ cfg2.N) (hz : n = 0) : Phi2 V c n h = Pipeline.ΦA spec2 c := by
  subst hz; rfl

theorem Phi2_pos (c : Dev nD) (n : ℕ) (h : n ≤ cfg2.N) (hz : n ≠ 0) :
    Phi2 V c n h = iprop(owns (c : Thread nD τ) scr2 fullShare (sc2 V c (n - 1) (by omega)) ∗ rest2 (F := F) c) := by
  cases n with
  | zero => exact absurd rfl hz
  | succ n => rfl

theorem Phi2_castSucc (c : Dev nD) (t : Fin cfg2.N) :
    (dat2 V c).Φ t.castSucc = Phi2 V c t.val (Nat.le_of_lt t.isLt) := by
  dsimp only [dat2]; simp only [Fin.coe_castSucc]

/-- The class invariant hands the accumulator over at some contents and keeps the way back. -/
theorem PhiA2_take (c : Dev nD) :
    (Pipeline.ΦA spec2 c : sProp 𝕄) ⊢ iprop((∃ d, owns (c : Thread nD τ) scr2 fullShare d) ∗ rest2 (F := F) c) := by
  unfold rest2 Pipeline.ΦA; rw [scopedRest2_eq]; simp only [scr2, owns_whole]
  iintro ⟨⟨B0, B1, B2, B3, B4, B5, B6, B7, B8, B9, ⟨%f, HS⟩⟩, Hg⟩
  isplitl [HS]
  · iexists f; iexact HS
  iintro %d HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexists d; iexact HS
  iexact Hg

/-- After the last point the invariant gives the class's back. -/
theorem dat2_Phi_last (c : Dev nD) : (dat2 V c).Φ (Fin.last cfg2.N) ⊢ Pipeline.ΦA spec2 c := by
  rw [show (dat2 V c).Φ (Fin.last cfg2.N) = Phi2 V c cfg2.N (Nat.le_refl _) from rfl,
    Phi2_pos V c _ _ (by rw [show cfg2.N = 20 from N_2]; decide)]
  unfold rest2
  iintro ⟨HS, HR⟩
  ispecialize HR $$ %_ HS
  iexact HR

/-! ## The body at a point -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2 .f32 := win2_2.stage (cfg2.slots t 2)
abbrev hs2_2 (t : Fin cfg2.N) : (ms2_2 t).IsWhole := hstage2_2 ((cfg2.slots t 2).cast nbuf2_2)

/-- Each input's staging buffer holds its block when the body runs: both are fetched at every point. -/
theorem before2_0 (c : Dev nD) (t : Fin cfg2.N) (d) : (dat2 V c).before 0 t d = blk2 V c 0 t := by
  unfold Dat.before
  rw [if_pos (fetch2_0 t)]
  rfl
theorem before2_1 (c : Dev nD) (t : Fin cfg2.N) (d) : (dat2 V c).before 1 t d = blk2 V c 1 t := by
  unfold Dat.before
  rw [if_pos (fetch2_1 t)]
  rfl

set_option maxHeartbeats 1600000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d)))
    ⊢ wp frame (wpE (defs₀ (F := F)) Variants.none c none) Set.univ (bodyAt2 t) (fun _ =>
        iprop((dat2 V c).Φ t.succ ∗ (dat2 V c).owesAt () t.succ
          ∗ (dat2 V c).leavesExact 0 t ∗ (dat2 V c).leavesExact 1 t ∗ (dat2 V c).leavesExact 2 t)) := by
  unfold bodyAt2
  simp only [before2_0, before2_1]
  rw [show (dat2 V c).owesAt () t.succ = (dat2 V c).owesAt () t.castSucc from rfl]
  rw [show (dat2 V c).Φ t.succ = iprop(owns (c : Thread nD τ) scr2 fullShare (sc2 V c t.val t.isLt) ∗ rest2 (F := F) c) from rfl]
  rw [show (dat2 V c).leavesExact 0 t = owns (c : Thread nD τ) (ms2_0 t) fullShare (blk2 V c 0 t) from by
    unfold Dat.leavesExact; rw [live2_0 t, dat2_after0]]
  rw [show (dat2 V c).leavesExact 1 t = owns (c : Thread nD τ) (ms2_1 t) fullShare (blk2 V c 1 t) from by
    unfold Dat.leavesExact; rw [live2_1 t, dat2_after1]]
  rw [Phi2_castSucc]
  have hN : t.val < 20 := lt_of_lt_of_eq t.isLt (show cfg2.N = 20 from N_2)
  by_cases h19 : t.val = 19
  · have h0 : t.val ≠ 0 := by omega
    rw [show (dat2 V c).leavesExact 2 t = owns (c : Thread nD τ) (ms2_2 t) fullShare (out2 V c t) from by
      unfold Dat.leavesExact; rw [live2_2 t h19, dat2_after2]]
    rw [Phi2_pos V c _ _ h0]
    unfold out2; rw [sc2_next V c t h0]
    iintro ⟨⟨HS, HR⟩, Ho, ⟨%d0, H0⟩, ⟨%d1, H1⟩, ⟨%d2, H2⟩⟩
    iapply (sound2_last c (grid2.coords t) _ _ _ _ _ _ _ _ (fun h => h0 ((hcond2_first t).mp h)) ((hcond2_last t).mpr h19) (blk2 V c 0 t) (blk2 V c 1 t) _ Set.univ _)
    isplitl [H0]; · iexact H0
    isplitl [H1]; · iexact H1
    isplitl [H2]; · iexists _; iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexact H2
  · rw [Dat.leavesExact_idle (dat2 V c) 2 t (idle2_2 t h19) (noflush2_2 t h19)]
    by_cases h0 : t.val = 0
    · rw [Phi2_zero V c _ _ h0, sc2_first V c t h0]
      iintro ⟨HA, Ho, ⟨%d0, H0⟩, ⟨%d1, H1⟩, H2⟩
      icases (PhiA2_take (F := F) c) $$ HA with ⟨⟨%ds, HS⟩, HR⟩
      iapply (sound2_first c (grid2.coords t) _ _ _ _ (ms2_2 t) (hs2_2 t) _ _ ((hcond2_first t).mpr h0) (fun h => h19 ((hcond2_last t).mp h)) (blk2 V c 0 t) (blk2 V c 1 t) Set.univ _)
      isplitl [H0]; · iexact H0
      isplitl [H1]; · iexact H1
      isplitl [HS]; · iexists _; iexact HS
      iintro ⟨H0, H1, HS⟩
      isplitl [HS HR]
      · isplitl [HS]; · iexact HS
        iexact HR
      isplitl [Ho]; · iexact Ho
      isplitl [H0]; · iexact H0
      isplitl [H1]; · iexact H1
      iexact H2
    · rw [Phi2_pos V c _ _ h0, sc2_next V c t h0]
      iintro ⟨⟨HS, HR⟩, Ho, ⟨%d0, H0⟩, ⟨%d1, H1⟩, H2⟩
      iapply (sound2_mid c (grid2.coords t) _ _ _ _ (ms2_2 t) (hs2_2 t) _ _ (fun h => h0 ((hcond2_first t).mp h)) (fun h => h19 ((hcond2_last t).mp h)) (blk2 V c 0 t) (blk2 V c 1 t) _ Set.univ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      iexact H2

/-- The library's body obligation for pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Launch.lean ====
/-
  The whole run of @main: three pipelined regions with host stretches between and after them.

  The core's unscoped buffers are followed from the launch to the return as a chain of valuations: a host
  stretch rewrites them by its operations, a region overwrites its windows' arrays with what the pipeline's
  write-backs leave and touches nothing else. Each region is entered from "every unscoped buffer at the current
  valuation", gives its arrays to the pipeline, and is left at the next valuation. At the end every unscoped
  buffer is read off the last valuation: the arguments come back as launched, and the two results are the last
  stretch's operations applied to the reduction's output array.
-/
import proofs.«114034_j16561393893850_1_alg».proof.Proof.Gen.KernelIdeal.Launch
import proofs.«114034_j16561393893850_1_alg».proof.Proof.Gen.KernelIdeal.Skeleton
import proofs.«114034_j16561393893850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114034_j16561393893850_1_alg».proof.Proof.Mm0
import proofs.«114034_j16561393893850_1_alg».proof.Proof.Mm1
import proofs.«114034_j16561393893850_1_alg».proof.Proof.Red2
import proofs.«114034_j16561393893850_1_alg».proof.Proof.Gen.KernelIdeal.Regions
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev U0 : Dev nD → Valuation τ sig (Elt F) := fun c b => m (c, b)
/-- The same read at the TensorCore's references: what region 0 is entered at. -/
abbrev E0 : (c : Dev nD) → (b : Ref sig .tc) → Buf (Elt F) ((c : Thread nD τ).loc b) := fun c b => U0 m c b
/-- After region 0: its arrays at what the pipeline leaves, the rest as entered. -/
def U1 (c : Dev nD) : Valuation τ sig (Elt F) :=
  Pipeline.withArrays spec0 c (U0 m c) fun w => (dat0 (E0 m) c).arrAt w cfg0.N
abbrev E1 : (c : Dev nD) → (b : Ref sig .tc) → Buf (Elt F) ((c : Thread nD τ).loc b) := fun c b => U1 m c b
/-- After the first host stretch. -/
abbrev U2 : Dev nD → Valuation τ sig (Elt F) := fun c => StableHlo.after hostOps1 (U1 m c)
abbrev E2 : (c : Dev nD) → (b : Ref sig .tc) → Buf (Elt F) ((c : Thread nD τ).loc b) := fun c b => U2 m c b
/-- After region 1. -/
def U3 (c : Dev nD) : Valuation τ sig (Elt F) :=
  Pipeline.withArrays spec1 c (U2 m c) fun w => (dat1 (E2 m) c).arrAt w cfg1.N
abbrev E3 : (c : Dev nD) → (b : Ref sig .tc) → Buf (Elt F) ((c : Thread nD τ).loc b) := fun c b => U3 m c b
/-- After the second host stretch. -/
abbrev U4 : Dev nD → Valuation τ sig (Elt F) := fun c => StableHlo.after hostOps2 (U3 m c)
abbrev E4 : (c : Dev nD) → (b : Ref sig .tc) → Buf (Elt F) ((c : Thread nD τ).loc b) := fun c b => U4 m c b
/-- After region 2. -/
def U5 (c : Dev nD) : Valuation τ sig (Elt F) :=
  Pipeline.withArrays spec2 c (U4 m c) fun w => (dat2 (E4 m) c).arrAt w cfg2.N
abbrev E5 : (c : Dev nD) → (b : Ref sig .tc) → Buf (Elt F) ((c : Thread nD τ).loc b) := fun c b => U5 m c b
/-- After the last host stretch: what @main returns with. -/
abbrev U6 : Dev nD → Valuation τ sig (Elt F) := fun c => StableHlo.after hostOps3 (U5 m c)

theorem U1_arr (c : Dev nD) (w : Fin cfg0.W) :
    U1 m c (Proc.devRef .tc (Pipeline.arrRef spec0 w)) = (dat0 (E0 m) c).arrAt w cfg0.N := by
  unfold U1; exact Pipeline.withArrays_arr spec0 launch0.win.arr_inj c _ _ w
theorem U1_other (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
theorem U3_arr (c : Dev nD) (w : Fin cfg1.W) :
    U3 m c (Proc.devRef .tc (Pipeline.arrRef spec1 w)) = (dat1 (E2 m) c).arrAt w cfg1.N := by
  unfold U3; exact Pipeline.withArrays_arr spec1 launch1.win.arr_inj c _ _ w
theorem U3_other (c : Dev nD) (b : Ref sig .tc) (hb : ∀ w, Pipeline.arrRef spec1 w ≠ b) :
    U3 m c (Proc.devRef .tc b) = U2 m c (Proc.devRef .tc b) := by
  unfold U3; exact Pipeline.withArrays_of_ne spec1 c _ _ b hb
theorem U5_arr (c : Dev nD) (w : Fin cfg2.W) :
    U5 m c (Proc.devRef .tc (Pipeline.arrRef spec2 w)) = (dat2 (E4 m) c).arrAt w cfg2.N := by
  unfold U5; exact Pipeline.withArrays_arr spec2 launch2.win.arr_inj c _ _ w
theorem U5_other (c : Dev nD) (b : Ref sig .tc) (hb : ∀ w, Pipeline.arrRef spec2 w ≠ b) :
    U5 m c (Proc.devRef .tc b) = U4 m c (Proc.devRef .tc b) := by
  unfold U5; exact Pipeline.withArrays_of_ne spec2 c _ _ b hb

/-- A host stretch leaves a buffer it does not write as it found it. -/
theorem U2_other (c : Dev nD) (r : Ref sig .tc) (h : r ∉ hostOps1_W) : U2 m c r = U1 m c r :=
  StableHlo.after_of_writes_sub hostOps1 _ hostOps1_writes h
theorem U4_other (c : Dev nD) (r : Ref sig .tc) (h : r ∉ hostOps2_W) : U4 m c r = U3 m c r :=
  StableHlo.after_of_writes_sub hostOps2 _ hostOps2_writes h
theorem U6_other (c : Dev nD) (r : Ref sig .tc) (h : r ∉ hostOps3_W) : U6 m c r = U5 m c r :=
  StableHlo.after_of_writes_sub hostOps3 _ hostOps3_writes h

/-- A buffer that no host stretch writes and that is no region's OUTPUT array comes back as launched
    (an input array of a region is handed back unchanged). -/
theorem U6_kept (c : Dev nD) (r : Ref sig .tc) (h1 : r ∉ hostOps1_W) (h2 : r ∉ hostOps2_W) (h3 : r ∉ hostOps3_W)
    (k0 : (∀ w, Pipeline.arrRef spec0 w ≠ r) ∨ ∃ w, Pipeline.arrRef spec0 w = r ∧ (cfg0.win w).isOut = false)
    (k1 : (∀ w, Pipeline.arrRef spec1 w ≠ r) ∨ ∃ w, Pipeline.arrRef spec1 w = r ∧ (cfg1.win w).isOut = false)
    (k2 : (∀ w, Pipeline.arrRef spec2 w ≠ r) ∨ ∃ w, Pipeline.arrRef spec2 w = r ∧ (cfg2.win w).isOut = false) :
    U6 m c r = m ((c : Thread nD τ).loc r) := by
  rw [U6_other m c r h3]
  have e5 : U5 m c r = U4 m c r := by
    rcases k2 with k | ⟨w, rfl, hw⟩
    · exact U5_other m c _ k
    · rw [U5_arr]; exact ((dat2 (E4 m) c).arrAt_in w hw _).trans (dat2_A (E4 m) c w)
  have e3 : U3 m c r = U2 m c r := by
    rcases k1 with k | ⟨w, rfl, hw⟩
    · exact U3_other m c _ k
    · rw [U3_arr]; exact ((dat1 (E2 m) c).arrAt_in w hw _).trans (dat1_A (E2 m) c w)
  have e1 : U1 m c r = U0 m c r := by
    rcases k0 with k | ⟨w, rfl, hw⟩
    · exact U1_other m c _ k
    · rw [U1_arr]; exact ((dat0 (E0 m) c).arrAt_in w hw _).trans (dat0_A (E0 m) c w)
  rw [e5, U4_other m c r h2, e3, U2_other m c r h1, e1]

/-! ## The proof data family, the thread state, the host stretches as segments -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
  | ⟨2, _⟩ => fun c => dat2 (E4 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state, and nothing owed. -/
abbrev Rd (c : Dev nD) : sProp 𝕄 := iprop((∃ r, prngReg c r) ∗ ∃ W, owes (c : Thread nD τ) (0 : CellTallies nD τ sig Unit) W)

/-- The thread state at a boundary: every unscoped buffer at the boundary's contents, and what rides along. -/
abbrev At (W : Dev nD → Valuation τ sig (Elt F)) (c : Dev nD) : sProp 𝕄 :=
  iprop(StableHlo.held (c : Thread nD τ) (Pipeline.ucRefs τ sig) (W c) ∗ Rd (F := F) c)

/-- A host stretch as a segment from the contents `W`: it ends at `StableHlo.after ops (W c)`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-! ## The regions as segments -/

/-- At a region's exit its arrays hold what the pipeline leaves and every other buffer what it held at entry. -/
theorem exit0_arr (c : Dev nD) (w : Fin cfg0.W) : (dat0 (E0 m) c).arrAt w cfg0.N = E1 m c (Pipeline.arrRef spec0 w) :=
  (U1_arr m c w).symm
theorem exit0_rest (c : Dev nD) : ∀ b, b ∉ Finset.univ.image (Pipeline.arrRef spec0) → E1 m c b = E0 m c b :=
  fun b hb => U1_other m c b fun w e => hb (Finset.mem_image.mpr ⟨w, Finset.mem_univ _, e⟩)
theorem exit1_arr (c : Dev nD) (w : Fin cfg1.W) : (dat1 (E2 m) c).arrAt w cfg1.N = E3 m c (Pipeline.arrRef spec1 w) :=
  (U3_arr m c w).symm
theorem exit1_rest (c : Dev nD) : ∀ b, b ∉ Finset.univ.image (Pipeline.arrRef spec1) → E3 m c b = E2 m c b :=
  fun b hb => U3_other m c b fun w e => hb (Finset.mem_image.mpr ⟨w, Finset.mem_univ _, e⟩)
theorem exit2_arr (c : Dev nD) (w : Fin cfg2.W) : (dat2 (E4 m) c).arrAt w cfg2.N = E5 m c (Pipeline.arrRef spec2 w) :=
  (U5_arr m c w).symm
theorem exit2_rest (c : Dev nD) : ∀ b, b ∉ Finset.univ.image (Pipeline.arrRef spec2) → E5 m c b = E4 m c b :=
  fun b hb => U5_other m c b fun w e => hb (Finset.mem_image.mpr ⟨w, Finset.mem_univ _, e⟩)

set_option backward.isDefEq.respectTransparency.types false in
/-- Region 0, entered from the launch contents and left at `U1`: its arrays are split out of the unscoped buffers and
    put back at the exit contents; the generator register goes into the class invariant and comes back; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (U0 m c) ∗ Rd c)
  post c := iprop(StableHlo.held (c : Thread nD τ) (Pipeline.ucRefs τ sig) (U1 m c) ∗ Rd c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from the contents after the first host stretch and left at `U3`, in the same way: its arrays split out and put back, the generator register through the class invariant, nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (U2 m c) ∗ Rd c)
  post c := iprop(StableHlo.held (c : Thread nD τ) (Pipeline.ucRefs τ sig) (U3 m c) ∗ Rd c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, the reduction, entered from the contents after the second host stretch and left at `U5`: as the others, except that its invariant carries the accumulator between the points: it starts as the class invariant and gives it back after the last point. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (U4 m c) ∗ Rd c)
  post c := iprop(StableHlo.held (c : Thread nD τ) (Pipeline.ucRefs τ sig) (U5 m c) ∗ Rd c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from dat2_Phi_last (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (exit2_arr m c) (exit2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order: a region per pallas_call, a host segment per stretch from its boundary's contents. -/
abbrev segs : List (Pipeline.Seg (pcfgs (F := F)) adm (pdats m) () defs₀ 𝒱₀ L lv) :=
  [ .region (reg0 m),
    .host (hostSeg hostOps1 hostOps1_sub hostOps1_fresh (U1 m)),
    .region (reg1 m),
    .host (hostSeg hostOps2 hostOps2_sub hostOps2_fresh (U3 m)),
    .region (reg2 m),
    .host (hostSeg hostOps3 hostOps3_sub hostOps3_fresh (U5 m)) ]

/-- @main is the run of these segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main on the TensorCores terminates,
    nothing faulting, and in every final state each unscoped buffer holds what the chain of valuations ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rd c))
    (Tₙ := fun c => iprop(StableHlo.held (c : Thread nD τ) (Pipeline.ucRefs τ sig) (U6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (U6 m c) ∗ Rd c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c => h c)

/-! ## The arguments come back as launched -/

theorem U6_arg0 (c : Dev nD) : U6 m c main_arg0 = m ((c : Thread nD τ).loc main_arg0) :=
  U6_kept m c main_arg0 (by decide) (by decide) (by decide) (.inr ⟨0, rfl, rfl⟩) (.inl (by decide)) (.inl (by decide))
theorem U6_arg1 (c : Dev nD) : U6 m c main_arg1 = m ((c : Thread nD τ).loc main_arg1) :=
  U6_kept m c main_arg1 (by decide) (by decide) (by decide) (.inl (by decide)) (.inl (by decide)) (.inl (by decide))
theorem U6_arg2 (c : Dev nD) : U6 m c main_arg2 = m ((c : Thread nD τ).loc main_arg2) :=
  U6_kept m c main_arg2 (by decide) (by decide) (by decide) (.inl (by decide)) (.inl (by decide)) (.inl (by decide))
theorem U6_arg3 (c : Dev nD) : U6 m c main_arg3 = m ((c : Thread nD τ).loc main_arg3) :=
  U6_kept m c main_arg3 (by decide) (by decide) (by decide) (.inl (by decide)) (.inl (by decide)) (.inl (by decide))
theorem U6_arg4 (c : Dev nD) : U6 m c main_arg4 = m ((c : Thread nD τ).loc main_arg4) :=
  U6_kept m c main_arg4 (by decide) (by decide) (by decide) (.inr ⟨1, rfl, rfl⟩) (.inl (by decide)) (.inl (by decide))
theorem U6_arg5 (c : Dev nD) : U6 m c main_arg5 = m ((c : Thread nD τ).loc main_arg5) :=
  U6_kept m c main_arg5 (by decide) (by decide) (by decide) (.inl (by decide)) (.inl (by decide)) (.inl (by decide))
theorem U6_arg6 (c : Dev nD) : U6 m c main_arg6 = m ((c : Thread nD τ).loc main_arg6) :=
  U6_kept m c main_arg6 (by decide) (by decide) (by decide) (.inl (by decide)) (.inl (by decide)) (.inl (by decide))

/-- The run with what a claim reads off it: the two results at the last valuation, the arguments as launched. -/
theorem run_read : θ_run defs (onTc (τ := τ) (main (F := F))) ⟨m, fun _ => 0, ρ⟩ (fun r => ∀ c : Dev nD,
      r.2.mem ((c.tc : Thread nD τ).loc main_v34) = U6 m c main_v34
      ∧ r.2.mem ((c.tc : Thread nD τ).loc main_v38) = U6 m c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v34 (by decide)), h c _ (mem_uc main_v38 (by decide)),
      (h c _ (mem_uc main_arg0 (by decide))).trans (U6_arg0 m c), (h c _ (mem_uc main_arg1 (by decide))).trans (U6_arg1 m c),
      (h c _ (mem_uc main_arg2 (by decide))).trans (U6_arg2 m c), (h c _ (mem_uc main_arg3 (by decide))).trans (U6_arg3 m c),
      (h c _ (mem_uc main_arg4 (by decide))).trans (U6_arg4 m c), (h c _ (mem_uc main_arg5 (by decide))).trans (U6_arg5 m c),
      (h c _ (mem_uc main_arg6 (by decide))).trans (U6_arg6 m c)⟩) (run_all m ρ)

/-- THE FRAME: the arguments come back as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2.2) (run_read m ρ)

end Cert.KernelIdeal.Hand

end
-- ==== Proof.LibRows.lean ====
/-
  Row gathers and row scatter-adds of a rank-2 table, read at an index, for any extents.

  * `rowGather N E C`: the dimension numbers of `table[idx]` for a table of N rows and C columns and E indices
    (offset axis 1, collapsed axis 0, start index map [0], the index vector on axis 1 of an [E,1] index array).
    `rowGather_apply`: row e, column j of the result is the table at row `srcRow idx e` — the index read signed and
    clamped into [0, N-1] — and column j.
  * `rowScatter N E C`: the dimension numbers of `zeros.at[idx].add(updates)` (update window axis 1, inserted
    window axis 0, scatter axis map [0], the index vector on axis 1 of an [E,1] index array).
    `rowScatterAdd_apply`: over the extended reals, entry (n, j) of the result is the operand's entry plus the sum,
    over the updates' rows e whose index, read signed and NOT clamped, is exactly n (`lands idx e n`), of the
    update at (e, j); an index outside [0, N) lands nowhere.
-/
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- The dimension numbers of a row gather `table[idx]`. -/
abbrev rowGather (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the index, signed, clamped into the table. -/
def srcRow {N E w : ℕ} (hN : 0 < N) (idx : IVec ⟨2, ![E, 1]⟩ w) (e : Fin E) : Fin N :=
  ⟨min (idx (ix2 e 0)).toInt.toNat (N - 1), by omega⟩

/-- THE ROW GATHER READ AT (e, j). -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j) = x (ix2 (srcRow hN idx e) j) := by
  unfold Host.gather
  congr 1
  funext a
  refine Fin.ext ?_
  match a with
  | ⟨0, _⟩ =>
    show (rowGather N E C wf).start (ix2 e j) idx 0 + (rowGather N E C wf).batchCoord (ix2 e j) 0
      + (rowGather N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e j) idx 1 + (rowGather N E C wf).batchCoord (ix2 e j) 1
      + (rowGather N E C wf).offCoord (ix2 e j) 1 = _
    rw [GatherDims.batchCoord_eq_zero _ _ _ List.not_mem_nil]
    have hst : (rowGather N E C wf).start (ix2 e j) idx 1 = 0 := by
      unfold GatherDims.start
      rw [dif_neg (show (1 : Fin 2) ∉ ([0] : List (Fin 2)) by decide)]
    rw [hst]
    simp only [Nat.add_zero, Nat.zero_add]
    rfl

/-- The dimension numbers of a row scatter `operand.at[idx].add(updates)`. -/
abbrev rowScatter (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update row `e` lands on operand row `n`: its index, read signed, is `n`. -/
def lands {N E w : ℕ} (idx : IVec ⟨2, ![E, 1]⟩ w) (e : Fin E) (n : Fin N) : Prop :=
  (idx (ix2 e 0)).toInt = (n.val : ℤ)

instance {N E w : ℕ} (idx : IVec ⟨2, ![E, 1]⟩ w) (e : Fin E) (n : Fin N) : Decidable (lands idx e n) := by
  unfold lands; infer_instance

/-- Start of update (e, j0)'s window on the row axis: its index, read signed. -/
theorem rowScatter_start0 {N E C w : ℕ}
    (wf : ScatterDims.WF ⟨2, ![N, C]⟩ ⟨2, ![E, 1]⟩ ⟨2, ![E, C]⟩ [1] [0] [0] 1)
    (idx : IVec ⟨2, ![E, 1]⟩ w) (e : Fin E) (j0 : Fin C) :
    (rowScatter N E C wf).start (ix2 e j0) idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e j0) ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- Start on the column axis: the scatter axis map does not name it, so it is 0. -/
theorem rowScatter_start1 {N E C w : ℕ}
    (wf : ScatterDims.WF ⟨2, ![N, C]⟩ ⟨2, ![E, 1]⟩ ⟨2, ![E, C]⟩ [1] [0] [0] 1)
    (idx : IVec ⟨2, ![E, 1]⟩ w) (e : Fin E) (j0 : Fin C) :
    (rowScatter N E C wf).start (ix2 e j0) idx 1 = 0 := by
  unfold ScatterDims.start
  rw [dif_neg (show (1 : Fin 2) ∉ ([0] : List (Fin 2)) by decide)]

/-- Window coordinate on the row axis: the axis is inserted, so it is 0. -/
theorem rowScatter_window0 {N E C : ℕ}
    (wf : ScatterDims.WF ⟨2, ![N, C]⟩ ⟨2, ![E, 1]⟩ ⟨2, ![E, C]⟩ [1] [0] [0] 1)
    (e : Fin E) (j0 : Fin C) :
    (rowScatter N E C wf).window (ix2 e j0) 0 = 0 := by
  unfold ScatterDims.window
  rw [dif_neg (show (0 : Fin 2) ∉ (⟨2, ![N, C]⟩ : Shape).kept ([0] : List (Fin 2)) by simp [Shape.kept])]

/-- Window coordinate on the column axis: the update's column. -/
theorem rowScatter_window1 {N E C : ℕ}
    (wf : ScatterDims.WF ⟨2, ![N, C]⟩ ⟨2, ![E, 1]⟩ ⟨2, ![E, C]⟩ [1] [0] [0] 1)
    (e : Fin E) (j0 : Fin C) :
    (rowScatter N E C wf).window (ix2 e j0) 1 = j0.val := by
  unfold ScatterDims.window
  rw [dif_pos (show (1 : Fin 2) ∈ (⟨2, ![N, C]⟩ : Shape).kept ([0] : List (Fin 2)) by simp [Shape.kept])]
  rfl

/-- Update (e, j0) lands on operand entry (n, j) exactly when its row index, read signed, is n and its column is j. -/
theorem rowScatter_resultIdx_iff {N E C w : ℕ}
    (wf : ScatterDims.WF ⟨2, ![N, C]⟩ ⟨2, ![E, 1]⟩ ⟨2, ![E, C]⟩ [1] [0] [0] 1)
    (idx : IVec ⟨2, ![E, 1]⟩ w) (e : Fin E) (j0 : Fin C) (n : Fin N) (j : Fin C) :
    (rowScatter N E C wf).resultIdx? (ix2 e j0) idx = some (ix2 n j) ↔ lands idx e n ∧ j0 = j := by
  have hs0 := rowScatter_start0 wf idx e j0
  have hs1 := rowScatter_start1 wf idx e j0
  have hw0 := rowScatter_window0 wf e j0
  have hw1 := rowScatter_window1 wf e j0
  unfold lands
  unfold ScatterDims.resultIdx?
  constructor
  · intro h
    split at h
    · rename_i hr
      have hf := Option.some.inj h
      have h0 := congrArg Fin.val (congrFun hf 0)
      have h1 := congrArg Fin.val (congrFun hf 1)
      have hr0 := hr 0
      change ((rowScatter N E C wf).start (ix2 e j0) idx 0 + ((rowScatter N E C wf).window (ix2 e j0) 0 : ℤ)).toNat = n.val at h0
      change ((rowScatter N E C wf).start (ix2 e j0) idx 1 + ((rowScatter N E C wf).window (ix2 e j0) 1 : ℤ)).toNat = j.val at h1
      rw [hs0, hw0] at h0 hr0
      rw [hs1, hw1] at h1
      refine ⟨by omega, Fin.ext (by omega)⟩
    · exact absurd h (by simp)
  · rintro ⟨hl, rfl⟩
    have hr : ∀ a : Fin 2, 0 ≤ (rowScatter N E C wf).start (ix2 e j0) idx a + ((rowScatter N E C wf).window (ix2 e j0) a : ℤ) ∧
        (rowScatter N E C wf).start (ix2 e j0) idx a + ((rowScatter N E C wf).window (ix2 e j0) a : ℤ)
          < ((⟨2, ![N, C]⟩ : Shape).size a : ℤ) := by
      intro a
      match a with
      | ⟨0, _⟩ =>
        show 0 ≤ (rowScatter N E C wf).start (ix2 e j0) idx 0 + ((rowScatter N E C wf).window (ix2 e j0) 0 : ℤ) ∧
          (rowScatter N E C wf).start (ix2 e j0) idx 0 + ((rowScatter N E C wf).window (ix2 e j0) 0 : ℤ) < (N : ℤ)
        rw [hs0, hw0, hl]
        have := n.isLt
        omega
      | ⟨1, _⟩ =>
        show 0 ≤ (rowScatter N E C wf).start (ix2 e j0) idx 1 + ((rowScatter N E C wf).window (ix2 e j0) 1 : ℤ) ∧
          (rowScatter N E C wf).start (ix2 e j0) idx 1 + ((rowScatter N E C wf).window (ix2 e j0) 1 : ℤ) < (C : ℤ)
        rw [hs1, hw1]
        have := j0.isLt
        omega
    rw [dif_pos hr]
    congr 1
    funext a
    refine Fin.ext ?_
    match a with
    | ⟨0, _⟩ =>
      show ((rowScatter N E C wf).start (ix2 e j0) idx 0 + ((rowScatter N E C wf).window (ix2 e j0) 0 : ℤ)).toNat = n.val
      rw [hs0, hw0, hl]; omega
    | ⟨1, _⟩ =>
      show ((rowScatter N E C wf).start (ix2 e j0) idx 1 + ((rowScatter N E C wf).window (ix2 e j0) 1 : ℤ)).toNat = j0.val
      rw [hs1, hw1]; omega

/-- THE ROW SCATTER-ADD READ AT (n, j), over the extended reals. -/
theorem rowScatterAdd_apply {N E C w : ℕ}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (j : Fin C) :
    Ideal.hostScatterAdd (rowScatter N E C wf) x idx upd (ix2 n j)
      = x (ix2 n j) + ∑ e ∈ Finset.univ.filter (fun e : Fin E => lands idx e n), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (rowScatter_resultIdx_iff wf idx e j n j).mpr ⟨he.2, rfl⟩⟩
  · intro e _ e' _ h
    exact congrFun h 0
  · intro j' hj'
    rw [Finset.mem_filter] at hj'
    have hj2 := hj'.2
    rw [eq_ix2 j'] at hj2
    obtain ⟨hl, hc⟩ := (rowScatter_resultIdx_iff wf idx (j' 0) (j' 1) n j).mp hj2
    refine ⟨j' 0, Finset.mem_filter.mpr ⟨Finset.mem_univ _, hl⟩, ?_⟩
    rw [← hc]
    exact (eq_ix2 j').symm
  · intro e _
    rfl

end Cert.LibRows

end
-- ==== Proof.Spec.lean ====
/-
  The mathematics of the two programs, over the extended reals and literal extents, with no program in sight.

  A graph-convolution layer on C feature columns: a dense projection `mm` followed by the aggregation `agg`
  — node n, column j receives the sum, over the edges e whose target index is n, of the projected feature of
  the edge's (clamped) source node in column j, times the edge's weight. Both programs compute
  mean(mu) and log(mean(exp(logvar))) of two such layers stacked on a clamped-at-zero first layer; they differ in
  whether the second layer's two 64-column projections are done apart or as one 128-column projection.
-/
import Idealize.ShloMosaic.Lib.ValueIdx
import Idealize.ShloMosaic.PureOps.Ideal.Laws

noncomputable section

open scoped BigOperators

namespace Cert.Spec

open Idealize.ShloMosaic Idealize.ShloMosaic.ValueIdx

/-- A dense projection [N,K]·[K,C] at an index. -/
def mm {N K C : ℕ} (x : (⟨2, ![N, K]⟩ : Shape).Idx → EReal) (w : (⟨2, ![K, C]⟩ : Shape).Idx → EReal) :
    (⟨2, ![N, C]⟩ : Shape).Idx → EReal :=
  fun i => ∑ k : Fin K, x (ix2 (i 0) k) * w (ix2 k (i 1))

/-- Clamping at zero from below. -/
def relu {s : Shape} (x : s.Idx → EReal) : s.Idx → EReal := fun i => max (x i) 0

/-- The sum of the entries of rows 5000·t … 5000·t+4999 of a [100000, 64] table: what one grid point of the reduction adds. -/
def blockSum (X : (⟨2, ![100000, 64]⟩ : Shape).Idx → EReal) (t : Fin 20) : EReal :=
  ∑ r : Fin 5000, ∑ j : Fin 64, X (ix2 ⟨5000 * t.val + r.val, by have := t.isLt; have := r.isLt; omega⟩ j)

/-- The twenty row blocks tile the table: their sums add up to the sum of all its entries. -/
theorem blockSum_total (X : (⟨2, ![100000, 64]⟩ : Shape).Idx → EReal) : ∑ t : Fin 20, blockSum X t = ∑ i, X i := by
  rw [sum_idx2]
  unfold blockSum
  -- every row a of the table is 5000·t + r for exactly one block t and one offset r
  have hrow : ∀ g : Fin 100000 → EReal,
      ∑ t : Fin 20, ∑ r : Fin 5000,
        g ⟨5000 * t.val + r.val, by have := t.isLt; have := r.isLt; omega⟩ = ∑ a, g a := by
    intro g
    rw [← Fintype.sum_prod_type
      (f := fun p : Fin 20 × Fin 5000 =>
        g ⟨5000 * p.1.val + p.2.val, by have := p.1.isLt; have := p.2.isLt; omega⟩)]
    refine Fintype.sum_bijective
      (fun p : Fin 20 × Fin 5000 =>
        (⟨5000 * p.1.val + p.2.val, by have := p.1.isLt; have := p.2.isLt; omega⟩ : Fin 100000))
      ⟨?_, ?_⟩ _ _ (fun _ => rfl)
    · rintro ⟨t, r⟩ ⟨t', r'⟩ h
      have hv := congrArg Fin.val h
      have h1 := t.isLt; have h2 := r.isLt; have h3 := t'.isLt; have h4 := r'.isLt
      simp only at hv
      refine Prod.ext (Fin.ext ?_) (Fin.ext ?_)
      · show t.val = t'.val
        omega
      · show r.val = r'.val
        omega
    · intro a
      have ha := a.isLt
      refine ⟨(⟨a.val / 5000, by omega⟩, ⟨a.val % 5000, by omega⟩), Fin.ext ?_⟩
      show 5000 * (a.val / 5000) + a.val % 5000 = a.val
      omega
  exact hrow (fun a => ∑ b : Fin 64, X (ix2 a b))

end Cert.Spec

end
-- ==== Proof.SpecAgg.lean ====
/-
  The aggregation over the edges of a graph-convolution layer, over the extended reals: node n, column j receives
  the sum, over the edges e whose target index is n, of the table's entry at the edge's (clamped) source node and
  column j, times the edge's weight. It acts column by column.
-/
import proofs.«114034_j16561393893850_1_alg».proof.Proof.LibRows
import proofs.«114034_j16561393893850_1_alg».proof.Proof.Spec

noncomputable section

open scoped BigOperators

namespace Cert.Spec

open Idealize.ShloMosaic Idealize.ShloMosaic.ValueIdx Cert.LibRows

/-- The aggregation over the edges, on C columns: `tgt` and `src` are the [E,1] index arrays the scatter and the
    gather read, `val` the edge weights. -/
def agg {C : ℕ} (tgt src : IVec ⟨2, ![1600000, 1]⟩ 32) (val : (⟨1, ![1600000]⟩ : Shape).Idx → EReal)
    (P : (⟨2, ![100000, C]⟩ : Shape).Idx → EReal) : (⟨2, ![100000, C]⟩ : Shape).Idx → EReal :=
  fun i => 0 + ∑ e ∈ Finset.univ.filter (fun e : Fin 1600000 => lands tgt e (i 0)),
    P (ix2 (srcRow (N := 100000) (by decide) src e) (i 1)) * val (ix1 e)

/-- The aggregation acts column by column: reading columns off..off+C' of the aggregate of a wide table is
    aggregating the table's columns off..off+C'. -/
theorem agg_cols {C C' : ℕ} (off : ℕ) (tgt src : IVec ⟨2, ![1600000, 1]⟩ 32) (val : (⟨1, ![1600000]⟩ : Shape).Idx → EReal)
    (P : (⟨2, ![100000, C]⟩ : Shape).Idx → EReal) (P' : (⟨2, ![100000, C']⟩ : Shape).Idx → EReal)
    (n : Fin 100000) (j : Fin C) (j' : Fin C') (hP : ∀ r : Fin 100000, P (ix2 r j) = P' (ix2 r j')) :
    agg tgt src val P (ix2 n j) = agg tgt src val P' (ix2 n j') := by
  unfold agg
  refine congrArg (0 + ·) (Finset.sum_congr rfl fun e _ => ?_)
  exact congrArg (· * val (ix1 e)) (hP _)

/-- An [E] array as the [E,1] column the gather and the scatter read their indices from. -/
def col1 {α : Type} {E : ℕ} (v : (⟨1, ![E]⟩ : Shape).Idx → α) : (⟨2, ![E, 1]⟩ : Shape).Idx → α := fun i => v (ix1 (i 0))

/-- jnp's index normalisation: a negative index counts from the end of the 100000 rows. -/
def nrm (col : (⟨1, ![1600000]⟩ : Shape).Idx → BitVec 32) : (⟨1, ![1600000]⟩ : Shape).Idx → BitVec 32 :=
  fun i => Scalar.select (IntOp.cmpi .slt (col i) 0#32) (col i + 100000#32) (col i)

/-- The divisor of both means: 6 400 000 = 100000 · 64, as the f32 word both programs carry. -/
abbrev cnt : EReal := Ideal.ofBits .f32 0x4AC35000#32

section Programs
variable (x : (⟨2, ![100000, 256]⟩ : Shape).Idx → EReal) (row col : (⟨1, ![1600000]⟩ : Shape).Idx → BitVec 32)
  (val : (⟨1, ![1600000]⟩ : Shape).Idx → EReal) (W1 : (⟨2, ![256, 128]⟩ : Shape).Idx → EReal)

/-- The first layer: project, aggregate, clamp at zero. -/
def hidden : (⟨2, ![100000, 128]⟩ : Shape).Idx → EReal :=
  relu (agg (col1 row) (col1 (nrm col)) val (mm x W1))

/-- A second-layer head on 64 columns with weights `W`. -/
def head (W : (⟨2, ![128, 64]⟩ : Shape).Idx → EReal) : (⟨2, ![100000, 64]⟩ : Shape).Idx → EReal :=
  agg (col1 row) (col1 (nrm col)) val (mm (hidden x row col val W1) W)

/-- The first result: the mean of the first head. -/
def zmu (W2 : (⟨2, ![128, 64]⟩ : Shape).Idx → EReal) : EReal :=
  Ideal.div (0 + ∑ i, head x row col val W1 W2 i) cnt

/-- The second result: the logarithm of the mean of the exponentials of the second head. -/
def zlv (W3 : (⟨2, ![128, 64]⟩ : Shape).Idx → EReal) : EReal :=
  Ideal.log (Ideal.div (0 + ∑ i, Ideal.exp (head x row col val W1 W3 i)) cnt)

end Programs

end Cert.Spec

end
-- ==== Proof.KerHost.lean ====
/-
  The kernel program's host stretches read at an index, over the extended reals. Between the first two regions the
  stretch gathers the projected features by source node, weighs them by the edge values and scatter-adds them by target
  node (`Spec.agg`), and concatenates the two second-layer weight matrices side by side; between the last two it does
  the same aggregation on 128 columns and cuts the result into its two halves of 64 columns; after the last region it
  divides the two accumulated totals by the entry count and takes the logarithm of the second.
-/
import proofs.«114034_j16561393893850_1_alg».proof.Proof.Launch
import proofs.«114034_j16561393893850_1_alg».proof.Proof.SpecAgg
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Cert.KernelIdeal.Gen

variable (m : (ℓ : Loc nD τ sig) → Buf (Elt Ideal) ℓ)

/-! ## Reading the stretches' operations at an index -/

/-- A negative index counts from the end of the 100000 rows: the comparison with 0, the sum with 100000 and the choice
    between the two, entry by entry. -/
theorem nrm_eq (col : IVec S1600000 32) (h : S_.BroadcastsInDim S1600000 ![]) :
    select (cmpi .slt col (broadcastInDim S1600000 ![] h (constantI S_ 32 0#32)))
      (addi col (broadcastInDim S1600000 ![] h (constantI S_ 32 100000#32))) col = Cert.Spec.nrm col := by
  funext i
  rfl

/-- An [E] array broadcast along axis 0 of [E,1] is its column. -/
theorem col1_eq {α : Type} (v : S1600000.Idx → α) (h : S1600000.BroadcastsInDim S1600000x1 ![0]) :
    broadcastInDim S1600000x1 ![0] h v = Cert.Spec.col1 v := by
  funext i
  unfold Cert.Spec.col1
  refine broadcastInDim_apply _ h v i (ix1 (i 0)) fun a => ?_
  match a with
  | ⟨0, _⟩ => rfl

/-- An [E] array broadcast to [E,1] and then across 128 columns reads, at (e, j), entry e. -/
theorem bcast_cols (val : S1600000.Idx → EReal) (h : S1600000.BroadcastsInDim S1600000x1 ![0])
    (h' : S1600000x1.BroadcastsInDim S1600000x128 ![0, 1]) (e : Fin 1600000) (j : Fin 128) :
    broadcastInDim S1600000x128 ![0, 1] h' (broadcastInDim S1600000x1 ![0] h val) (ix2 e j) = val (ix1 e) := by
  rw [broadcastInDim_apply _ h' _ (ix2 e j) (ix2 e 0) fun a => by
    match a with
    | ⟨0, _⟩ => rfl
    | ⟨1, _⟩ => rfl]
  rw [col1_eq]
  rfl

/-! ## The gather and the scatter-add as a row gather and a row scatter-add -/

/-- The scatter's dimension numbers are a row scatter's: update window axis 1, inserted axis 0, the index on axis 0. -/
theorem scat_rec : scatter_S100000x128_S1600000x1_S1600000x128_1_0_0_1
    = Cert.LibRows.rowScatter 100000 1600000 128 scatter_S100000x128_S1600000x1_S1600000x128_1_0_0_1_wf := rfl
/-- The gather's dimension numbers are a row gather's: offset axis 1, collapsed axis 0, the index on axis 0. -/
theorem gath_rec : gather_S100000x128_S1600000x1_S1600000x128_1_0_n_n_0_1_1128
    = Cert.LibRows.rowGather 100000 1600000 128 gather_S100000x128_S1600000x1_S1600000x128_1_0_n_n_0_1_1128_wf := rfl

open scoped BigOperators in
/-- A row scatter-add over the extended reals, read at (n, j): the operand's entry plus the updates of the rows landing on n. -/
theorem scatterAdd_read {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (j : Fin C) :
    (Host.scatterAdd (F := Ideal) (φ := .f32) (Cert.LibRows.rowScatter N E C wf) x idx upd : (⟨2, ![N, C]⟩ : Shape).Idx → EReal) (ix2 n j)
      = x (ix2 n j) + ∑ e ∈ Finset.univ.filter (fun e : Fin E => Cert.LibRows.lands idx e n), upd (ix2 e j) :=
  Cert.LibRows.rowScatterAdd_apply wf x idx upd n j

open scoped BigOperators in
/-- The aggregation read at (n, j). -/
theorem agg_apply {C : ℕ} (tgt src : IVec ⟨2, ![1600000, 1]⟩ 32) (val : (⟨1, ![1600000]⟩ : Shape).Idx → EReal)
    (P : (⟨2, ![100000, C]⟩ : Shape).Idx → EReal) (n : Fin 100000) (j : Fin C) :
    Cert.Spec.agg tgt src val P (ix2 n j)
      = 0 + ∑ e ∈ Finset.univ.filter (fun e : Fin 1600000 => Cert.LibRows.lands tgt e n),
          P (ix2 (Cert.LibRows.srcRow (N := 100000) (by decide) src e) j) * val (ix1 e) := rfl

/-- One aggregation layer: gather the table's rows by source index, weigh each by its edge's value, scatter-add by
    target index onto zeros. -/
theorem layer_eq (P : S100000x128.Idx → EReal) (tgt src : IVec S1600000x1 32) (val : S1600000.Idx → EReal)
    (W : S1600000x128.Idx → EReal) (hW : ∀ (e : Fin 1600000) (j : Fin 128), W (ix2 e j) = val (ix1 e))
    (hz : S_.BroadcastsInDim S100000x128 ![]) :
    (Host.scatterAdd scatter_S100000x128_S1600000x1_S1600000x128_1_0_0_1
        (broadcastInDim S100000x128 ![] hz (constant (F := Ideal) S_ .f32 0x00000000#32)) tgt
        (mulf (Host.gather gather_S100000x128_S1600000x1_S1600000x128_1_0_n_n_0_1_1128 P src) W) : S100000x128.Idx → EReal)
      = Cert.Spec.agg tgt src val P := by
  rw [scat_rec, gath_rec]
  funext i
  obtain ⟨n, j, rfl⟩ : ∃ (n : Fin 100000) (j : Fin 128), i = ix2 n j := ⟨i 0, i 1, eq_ix2 i⟩
  rw [scatterAdd_read, agg_apply]
  refine congrArg₂ (· + ·) ?_ (Finset.sum_congr rfl fun e _ => ?_)
  · exact Ideal.ofBits_zero_f32
  · rw [mulf_apply, Cert.LibRows.rowGather_apply (by decide), hW]

/-- The aggregation as the stretches spell it: the target and (normalised) source indices as columns, the edge values
    spread across the 128 columns, the gathered rows weighed and scatter-added onto zeros. -/
theorem layer_term (P : S100000x128.Idx → EReal) (a1 a2 : IVec S1600000 32) (a3 : S1600000.Idx → EReal)
    (hz : S_.BroadcastsInDim S100000x128 ![]) (hs : S_.BroadcastsInDim S1600000 ![])
    (h1 : S1600000.BroadcastsInDim S1600000x1 ![0]) (h2 : S1600000x1.BroadcastsInDim S1600000x128 ![0, 1]) :
    (Host.scatterAdd scatter_S100000x128_S1600000x1_S1600000x128_1_0_0_1
        (broadcastInDim S100000x128 ![] hz (constant (F := Ideal) S_ .f32 0x00000000#32))
        (broadcastInDim S1600000x1 ![0] h1 a1)
        (mulf
          (Host.gather gather_S100000x128_S1600000x1_S1600000x128_1_0_n_n_0_1_1128 P
            (broadcastInDim S1600000x1 ![0] h1
              (select (cmpi .slt a2 (broadcastInDim S1600000 ![] hs (constantI S_ 32 0#32)))
                (addi a2 (broadcastInDim S1600000 ![] hs (constantI S_ 32 100000#32))) a2)))
          (broadcastInDim S1600000x128 ![0, 1] h2 (broadcastInDim S1600000x1 ![0] h1 a3))) : S100000x128.Idx → EReal)
      = Cert.Spec.agg (Cert.Spec.col1 a1) (Cert.Spec.col1 (Cert.Spec.nrm a2)) a3 P := by
  rw [nrm_eq, col1_eq, col1_eq]
  exact layer_eq _ _ _ _ _ (fun e j => bcast_cols _ _ _ e j) _

/-- Two [128,64] tables side by side along the columns: column j < 64 of the [128,128] table is the first table's
    column j, -/
theorem concat_left {α : Type} (a b : S128x64.Idx → α) (h : Shape.Concatenates [S128x64, S128x64] S128x128 1)
    (k : Fin 128) (j : Fin 64) (hj : j.val < 128) :
    concatenate S128x128 1 [⟨S128x64, a⟩, ⟨S128x64, b⟩] h (ix2 k ⟨j.val, hj⟩) = a (ix2 k j) :=
  concatenate_pair_apply_left 1 a b h _ rfl (ix2 k j) fun d => by
    match d with
    | ⟨0, _⟩ => rfl
    | ⟨1, _⟩ => rfl

/-- and column j + 64 is the second table's column j. -/
theorem concat_right {α : Type} (a b : S128x64.Idx → α) (h : Shape.Concatenates [S128x64, S128x64] S128x128 1)
    (k : Fin 128) (j : Fin 64) (hj : j.val + 64 < 128) :
    concatenate S128x128 1 [⟨S128x64, a⟩, ⟨S128x64, b⟩] h (ix2 k ⟨j.val + 64, hj⟩) = b (ix2 k j) :=
  concatenate_pair_apply_right 1 a b h _ rfl rfl (ix2 k j)
    (fun d hd => by
      match d, hd with
      | ⟨0, _⟩, _ => rfl
      | ⟨1, _⟩, hd => exact absurd rfl hd)
    rfl

/-! ## The last stretch: an entry of the [1,2] array, divided by the count -/

/-- The one entry of a [1,1] cut of a [1,2] array at column o, recast to rank 0. -/
theorem tail_read (o : ℕ) (X : S1x2.Idx → EReal) (h : S1x2.Slices ![0, o] S1x1) (hc : S1x1.ShapeCasts S_) (k : Fin 2) (hk : k.val = o) (i : S_.Idx) :
    shapeCast S_ (extractStridedSlice S1x1 ![0, o] X h) hc i = X (ix2 0 k) := by
  obtain rfl : i = ix0 := eq_ix0 i
  rw [shapeCast_apply (extractStridedSlice S1x1 ![0, o] X h) hc ix0 (ix2 0 0) (by decide)]
  exact slice2_axis1_apply o X h 0 0 k (by simpa using hk)

/-! ## The arguments at each boundary: no region and no stretch writes them -/

theorem arg1_U1 (c : Dev nD) : U1 m c main_arg1 = m ((c.tc : Thread nD τ).loc main_arg1) := (U1_other m c main_arg1 (by decide)).trans rfl
theorem arg2_U1 (c : Dev nD) : U1 m c main_arg2 = m ((c.tc : Thread nD τ).loc main_arg2) := (U1_other m c main_arg2 (by decide)).trans rfl
theorem arg3_U1 (c : Dev nD) : U1 m c main_arg3 = m ((c.tc : Thread nD τ).loc main_arg3) := (U1_other m c main_arg3 (by decide)).trans rfl
theorem arg5_U1 (c : Dev nD) : U1 m c main_arg5 = m ((c.tc : Thread nD τ).loc main_arg5) := (U1_other m c main_arg5 (by decide)).trans rfl
theorem arg6_U1 (c : Dev nD) : U1 m c main_arg6 = m ((c.tc : Thread nD τ).loc main_arg6) := (U1_other m c main_arg6 (by decide)).trans rfl
theorem arg1_U3 (c : Dev nD) : U3 m c main_arg1 = m ((c.tc : Thread nD τ).loc main_arg1) :=
  (U3_other m c main_arg1 (by decide)).trans ((U2_other m c main_arg1 (by decide)).trans (arg1_U1 m c))
theorem arg2_U3 (c : Dev nD) : U3 m c main_arg2 = m ((c.tc : Thread nD τ).loc main_arg2) :=
  (U3_other m c main_arg2 (by decide)).trans ((U2_other m c main_arg2 (by decide)).trans (arg2_U1 m c))
theorem arg3_U3 (c : Dev nD) : U3 m c main_arg3 = m ((c.tc : Thread nD τ).loc main_arg3) :=
  (U3_other m c main_arg3 (by decide)).trans ((U2_other m c main_arg3 (by decide)).trans (arg3_U1 m c))

/-! ## The stretches' results -/

/-- The aggregated first layer, before the clamp: the aggregation of region 0's output. -/
theorem kh_v13 (c : Dev nD) :
    (U2 m c main_v13 : S100000x128.Idx → EReal)
      = Cert.Spec.agg (Cert.Spec.col1 (m ((c.tc : Thread nD τ).loc main_arg1))) (Cert.Spec.col1 (Cert.Spec.nrm (m ((c.tc : Thread nD τ).loc main_arg2))))
          (m ((c.tc : Thread nD τ).loc main_arg3)) (U1 m c main_v0 : S100000x128.Idx → EReal) := by
  show StableHlo.after hostOps1 (U1 m c) (Proc.devRef .tc main_v13) = _
  after_results_simp
  rw [arg1_U1, arg2_U1, arg3_U1]
  exact layer_term _ _ _ _ _ _ _ _

/-- The concatenated second-layer weights: columns 0–63 are the first head's, columns 64–127 the second's. -/
theorem kh_v14 (c : Dev nD) (k : Fin 128) (j : Fin 64) :
    (U2 m c main_v14 : S128x128.Idx → EReal) (ix2 k ⟨j.val, by omega⟩) = (m ((c.tc : Thread nD τ).loc main_arg5) : S128x64.Idx → EReal) (ix2 k j)
    ∧ (U2 m c main_v14 : S128x128.Idx → EReal) (ix2 k ⟨j.val + 64, by omega⟩) = (m ((c.tc : Thread nD τ).loc main_arg6) : S128x64.Idx → EReal) (ix2 k j) := by
  have e : (U2 m c main_v14 : S128x128.Idx → EReal)
      = concatenate S128x128 1 [⟨S128x64, (m ((c.tc : Thread nD τ).loc main_arg5) : S128x64.Idx → EReal)⟩,
          ⟨S128x64, (m ((c.tc : Thread nD τ).loc main_arg6) : S128x64.Idx → EReal)⟩] concatenates_S128x64_S128x64_S128x128_d1 := by
    show StableHlo.after hostOps1 (U1 m c) (Proc.devRef .tc main_v14) = _
    after_results
    rw [arg5_U1, arg6_U1]
  rw [e]
  exact ⟨concat_left _ _ _ k j _, concat_right _ _ _ k j _⟩

/-- The left half as a cut of the whole aggregate. -/
theorem v29_term (c : Dev nD) : (U4 m c main_v29 : S100000x64.Idx → EReal)
      = extractStridedSlice S100000x64 ![0, 0]
          (Cert.Spec.agg (Cert.Spec.col1 (m ((c.tc : Thread nD τ).loc main_arg1))) (Cert.Spec.col1 (Cert.Spec.nrm (m ((c.tc : Thread nD τ).loc main_arg2))))
            (m ((c.tc : Thread nD τ).loc main_arg3)) (U3 m c main_v15 : S100000x128.Idx → EReal)) slices_S100000x128_S100000x64_0_0 := by
  show StableHlo.after hostOps2 (U3 m c) (Proc.devRef .tc main_v29) = _
  after_results_simp
  rw [arg1_U3, arg2_U3, arg3_U3, layer_term]

/-- The right half as a cut of the whole aggregate. -/
theorem v30_term (c : Dev nD) : (U4 m c main_v30 : S100000x64.Idx → EReal)
      = extractStridedSlice S100000x64 ![0, 64]
          (Cert.Spec.agg (Cert.Spec.col1 (m ((c.tc : Thread nD τ).loc main_arg1))) (Cert.Spec.col1 (Cert.Spec.nrm (m ((c.tc : Thread nD τ).loc main_arg2))))
            (m ((c.tc : Thread nD τ).loc main_arg3)) (U3 m c main_v15 : S100000x128.Idx → EReal)) slices_S100000x128_S100000x64_0_64 := by
  show StableHlo.after hostOps2 (U3 m c) (Proc.devRef .tc main_v30) = _
  after_results_simp
  rw [arg1_U3, arg2_U3, arg3_U3, layer_term]

/-- The reduction's two operands: the left and right halves of the aggregation of region 1's output. -/
theorem kh_v29 (c : Dev nD) (n : Fin 100000) (j : Fin 64) :
    (U4 m c main_v29 : S100000x64.Idx → EReal) (ix2 n j)
      = Cert.Spec.agg (Cert.Spec.col1 (m ((c.tc : Thread nD τ).loc main_arg1))) (Cert.Spec.col1 (Cert.Spec.nrm (m ((c.tc : Thread nD τ).loc main_arg2))))
          (m ((c.tc : Thread nD τ).loc main_arg3)) (U3 m c main_v15 : S100000x128.Idx → EReal) (ix2 n ⟨j.val, by omega⟩) := by
  rw [v29_term]
  exact slice2_axis1_apply 0 _ _ n j _ (Nat.zero_add _).symm

theorem kh_v30 (c : Dev nD) (n : Fin 100000) (j : Fin 64) :
    (U4 m c main_v30 : S100000x64.Idx → EReal) (ix2 n j)
      = Cert.Spec.agg (Cert.Spec.col1 (m ((c.tc : Thread nD τ).loc main_arg1))) (Cert.Spec.col1 (Cert.Spec.nrm (m ((c.tc : Thread nD τ).loc main_arg2))))
          (m ((c.tc : Thread nD τ).loc main_arg3)) (U3 m c main_v15 : S100000x128.Idx → EReal) (ix2 n ⟨j.val + 64, by omega⟩) := by
  rw [v30_term]
  exact slice2_axis1_apply 64 _ _ n j _ (Nat.add_comm _ _)

/-- The two results, from the reduction's output array. -/
theorem kh_v34 (c : Dev nD) :
    (U6 m c main_v34 : S_.Idx → EReal) = fun _ => Ideal.div ((U5 m c main_v31 : S1x2.Idx → EReal) (ix2 0 0)) Cert.Spec.cnt := by
  show StableHlo.after hostOps3 (U5 m c) (Proc.devRef .tc main_v34) = _
  after_results_simp
  funext i
  show Ideal.div (shapeCast S_ (extractStridedSlice S1x1 ![0, 0] (U5 m c (Proc.tc.devRef main_v31)) slices_S1x2_S1x1_0_0) shapeCasts_S1x1_S_ i) (Ideal.ofBits .f32 0x4AC35000#32) = _
  rw [tail_read 0 _ _ _ 0 rfl]

theorem kh_v38 (c : Dev nD) :
    (U6 m c main_v38 : S_.Idx → EReal) = fun _ => Ideal.log (Ideal.div ((U5 m c main_v31 : S1x2.Idx → EReal) (ix2 0 1)) Cert.Spec.cnt) := by
  show StableHlo.after hostOps3 (U5 m c) (Proc.devRef .tc main_v38) = _
  after_results_simp
  funext i
  show Ideal.log (Ideal.div (shapeCast S_ (extractStridedSlice S1x1 ![0, 1] (U5 m c (Proc.tc.devRef main_v31)) slices_S1x2_S1x1_0_1) shapeCasts_S1x1_S_ i) (Ideal.ofBits .f32 0x4AC35000#32)) = _
  rw [tail_read 1 _ _ _ 1 rfl]

end Cert.KernelIdeal.Hand

end
-- ==== Proof.Pay0.lean ====
/-
  The payload of pipeline 0's body at an entry, over the extended reals, where format changes are the identity
  and the product into the zero splat is the plain sum: entry (p, q) is the sum over k of x(p, k)·w(k, q).
-/
import proofs.«114034_j16561393893850_1_alg».proof.Proof.Mm0
import proofs.«114034_j16561393893850_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Cert.KernelIdeal.Gen

/-- What the body of pipeline 0 does to its first operand before the product: nothing. -/
abbrev pre0 {s : Shape} (X : s.Idx → EReal) : s.Idx → EReal := X

/-- The preparation is entrywise: equal entries are prepared to equal entries. -/
theorem pre0_congr {s s' : Shape} (B : s.Idx → EReal) (X : s'.Idx → EReal) (y : s.Idx) (i : s'.Idx) (h : B y = X i) :
    pre0 B y = pre0 X i := h

/-! ## The operand indices of the contraction, coordinate by coordinate -/

theorem lhs0_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs0_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs0_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs0_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product of two vectors over this kernel's contraction, into the zero splat, at an entry: the row against the column. -/
theorem mm0_apply (a : FVec Ideal S5000x256 .bf16) (b : FVec Ideal S256x128 .bf16) (p : Fin 5000) (q : Fin 128) :
    FloatOps.matmul dot_S5000x256_S256x128_S5000x128_1_0_0_1_n_n none a b (constant (F := Ideal) S5000x128 .f32 0x00000000#32) (ix2 p q)
      = ∑ k : Fin 256, a (ix2 p k) * b (ix2 k q) := by
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs0_0 _ _
    | ⟨1, _⟩ => exact (lhs0_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs0_0 _ _).trans hk
    | ⟨1, _⟩ => exact rhs0_1 _ _)
  rw [el, er]

/-- The payload at an entry: the prepared row of the block against the column of the weights. -/
theorem pay0_apply (x : Vec Ideal S5000x256 .f32) (w : Vec Ideal S256x128 .f32) (p : Fin 5000) (q : Fin 128) :
    k0_pay1 x w (ix2 p q) = ∑ k : Fin 256, pre0 x (ix2 p k) * w (ix2 k q) := by
  unfold k0_pay1
  exact mm0_apply _ _ p q

end Cert.KernelIdeal.Hand

end
-- ==== Proof.Val0.lean ====
/-
  What pipeline 0 leaves in its output array, over the extended reals: the whole dense projection.
  Each grid point writes back the product of its 5000-row block, as the body prepares it (`pre0`), with the whole
  weight matrix; the twenty blocks tile the array's rows, so entry (n, j) of the array after the run is the sum
  over k of x'(n, k)·w(k, j), x' the prepared first operand.
-/
import proofs.«114034_j16561393893850_1_alg».proof.Proof.Mm0
import proofs.«114034_j16561393893850_1_alg».proof.Proof.Pay0
import proofs.«114034_j16561393893850_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat Cfg Window)
open Cert.KernelIdeal.Gen

variable (V : (c : Dev nD) → (b : Ref sig .tc) → Buf (Elt Ideal) ((c : Thread nD τ).loc b))

/-! ## The blocks as rows of the arrays -/

theorem hz0 : (![0, 0] : Fin 2 → Nat) = fun _ => 0 := funext fun a => by fin_cases a <;> rfl

/-- The printed index maps over the grid: the row blocks of the first operand and of the output move with the point,
    the weights' block stays at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of the first operand's block at point `t` is entry (5000·t + r, k) of its array. -/
theorem blk0_0_apply (c : Dev nD) (t : Fin cfg0.N) (y : S5000x256.Idx) (i : S100000x256.Idx)
    (h0 : (i 0).val = 5000 * t.val + (y 0).val) (h1 : (i 1).val = (y 1).val) :
    (blk0 V c 0 t : Vec Ideal S5000x256 .f32) y = (V c main_arg0 : S100000x256.Idx → EReal) i := by
  obtain ⟨e0, e1, -⟩ := idx_facts0 t
  show V c main_arg0 (((cfg0.win 0).blk t).view.emb y) = V c main_arg0 i
  congr 1
  funext a; apply Fin.ext
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- The weights' block at every point is the whole weight array. -/
theorem blk0_1_apply (c : Dev nD) (t : Fin cfg0.N) (y : S256x128.Idx) (i : S256x128.Idx)
    (h0 : (i 0).val = (y 0).val) (h1 : (i 1).val = (y 1).val) :
    (blk0 V c 1 t : Vec Ideal S256x128 .f32) y = (V c main_arg4 : S256x128.Idx → EReal) i := by
  obtain ⟨-, -, e2, e3, -⟩ := idx_facts0 t
  show V c main_arg4 (((cfg0.win 1).blk t).view.emb y) = V c main_arg4 i
  congr 1
  funext a; apply Fin.ext
  match a with
  | ⟨0, _⟩ => show win0_1.index t (0 : Fin 2) * 256 + 1 * (y 0).val = (i 0).val; omega
  | ⟨1, _⟩ => show win0_1.index t (1 : Fin 2) * 128 + 1 * (y 1).val = (i 1).val; omega

/-- Entry (r, j) of the output's block at point `t` sits at (5000·t + r, j) of the output array. -/
theorem emb0_2 (t : Fin cfg0.N) (y : S5000x128.Idx) :
    ((((cfg0.win 2).blk t).view.emb y : S100000x128.Idx) 0).val = 5000 * t.val + (y 0).val
    ∧ ((((cfg0.win 2).blk t).view.emb y : S100000x128.Idx) 1).val = (y 1).val := by
  obtain ⟨-, -, -, -, e4, e5⟩ := idx_facts0 t
  constructor
  · show win0_2.index t (0 : Fin 2) * 5000 + 1 * (y 0).val = _; omega
  · show win0_2.index t (1 : Fin 2) * 128 + 1 * (y 1).val = _; omega

/-! ## What a point writes back, and the array after the run -/

/-- What point `t` writes back is block `t` of the dense projection of the two arrays as the region finds them,
    the first prepared as the body prepares its block. -/
theorem flushed0_eq (c : Dev nD) (t : Fin cfg0.N) :
    (dat0 (F := Ideal) V c).flushed 2 t = ((cfg0.win 2).blk t).view.read (Elt Ideal)
      (Cert.Spec.mm (pre0 (V c main_arg0 : S100000x256.Idx → EReal)) (V c main_arg4 : S256x128.Idx → EReal)) := by
  show (cfg0.win 2).cut (grid0.coords t) ((dat0 V c).after 2 t) = _
  rw [dat0_after2]
  unfold prod0
  rw [View.canon_unit_zero hz0]
  simp only [View.ld_unit_zero (S := S5000x256) hz0, View.ld_unit_zero (S := S256x128) hz0]
  funext j
  obtain ⟨p, q, rfl⟩ : ∃ (p : Fin 5000) (q : Fin 128), j = ix2 p q := ⟨j 0, j 1, eq_ix2 j⟩
  obtain ⟨hr, hc⟩ := emb0_2 t (ix2 p q)
  refine (pay0_apply (blk0 V c 0 t) (blk0 V c 1 t) p q).trans ?_
  show _ = Cert.Spec.mm (pre0 (V c main_arg0 : S100000x256.Idx → EReal)) (V c main_arg4 : S256x128.Idx → EReal) (((cfg0.win 2).blk t).view.emb (ix2 p q))
  unfold Cert.Spec.mm
  refine Finset.sum_congr rfl fun k _ => ?_
  rw [blk0_1_apply V c t (ix2 k q) (ix2 k ((((cfg0.win 2).blk t).view.emb (ix2 p q) : S100000x128.Idx) 1)) rfl hc]
  refine congrArg (· * _) ?_
  exact pre0_congr (blk0 V c 0 t : Vec Ideal S5000x256 .f32) (V c main_arg0 : S100000x256.Idx → EReal) (ix2 p k) (ix2 ((((cfg0.win 2).blk t).view.emb (ix2 p q) : S100000x128.Idx) 0) k) (blk0_0_apply V c t (ix2 p k) (ix2 ((((cfg0.win 2).blk t).view.emb (ix2 p q) : S100000x128.Idx) 0) k) hr rfl)

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` of the output array lies in the block of point `r / 5000`, which writes back. -/
theorem cover0_2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array of pipeline 0 after its run is the dense projection of the first operand's array, prepared as the
    body prepares its blocks, by the second's. -/
theorem arr0 (c : Dev nD) :
    ((dat0 (F := Ideal) V c).arrAt 2 cfg0.N : S100000x128.Idx → EReal)
      = Cert.Spec.mm (pre0 (V c main_arg0 : S100000x256.Idx → EReal)) (V c main_arg4 : S256x128.Idx → EReal) := by
  exact (dat0 (F := Ideal) V c).arrAt_eq_of_cover 2
    (Cert.Spec.mm (pre0 (V c main_arg0 : S100000x256.Idx → EReal)) (V c main_arg4 : S256x128.Idx → EReal))
    (fun t _ => flushed0_eq V c t) cover0_2

end Cert.KernelIdeal.Hand

end
-- ==== Proof.Pay1.lean ====
/-
  The payload of pipeline 1's body at an entry, over the extended reals, where shape casts to the same shape and
  format changes are the identity and the product into the zero splat is the plain sum: entry (p, q) is the sum
  over k of max(x(p, k), 0)·w(k, q).
-/
import proofs.«114034_j16561393893850_1_alg».proof.Proof.Mm1
import proofs.«114034_j16561393893850_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Cert.KernelIdeal.Gen

/-- What the body of pipeline 1 does to its first operand before the product: it clamps it at zero from below. -/
abbrev pre1 {s : Shape} (X : s.Idx → EReal) : s.Idx → EReal := Cert.Spec.relu X

/-- The preparation is entrywise: equal entries are prepared to equal entries. -/
theorem pre1_congr {s s' : Shape} (B : s.Idx → EReal) (X : s'.Idx → EReal) (y : s.Idx) (i : s'.Idx) (h : B y = X i) :
    pre1 B y = pre1 X i := by
  show max (B y) 0 = max (X i) 0
  rw [h]

/-! ## The operand indices of the contraction, coordinate by coordinate -/

theorem lhs1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of two vectors over this kernel's contraction, into the zero splat, at an entry: the row against the column. -/
theorem mm1_apply (a : FVec Ideal S5000x128 .bf16) (b : FVec Ideal S128x128 .bf16) (p : Fin 5000) (q : Fin 128) :
    FloatOps.matmul dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The payload at an entry: the prepared row of the block against the column of the weights. -/
theorem pay1_apply (x : Vec Ideal S5000x128 .f32) (w : Vec Ideal S128x128 .f32) (p : Fin 5000) (q : Fin 128) :
    k1_pay1 x w (ix2 p q) = ∑ k : Fin 128, pre1 x (ix2 p k) * w (ix2 k q) := by
  unfold k1_pay1
  refine (mm1_apply _ _ p q).trans ?_
  refine Finset.sum_congr rfl fun k _ => ?_
  rw [shapeCast_self, shapeCast_self]
  show max (x (ix2 p k)) (Ideal.ofBits .f32 0x00000000#32) * w (ix2 k q) = max (x (ix2 p k)) 0 * w (ix2 k q)
  rw [Ideal.ofBits_zero_f32]

end Cert.KernelIdeal.Hand

end
-- ==== Proof.Val1.lean ====
/-
  What pipeline 1 leaves in its output array, over the extended reals: the whole dense projection.
  Each grid point writes back the product of its 5000-row block, as the body prepares it (`pre1`), with the whole
  weight matrix; the twenty blocks tile the array's rows, so entry (n, j) of the array after the run is the sum
  over k of x'(n, k)·w(k, j), x' the prepared first operand.
-/
import proofs.«114034_j16561393893850_1_alg».proof.Proof.Mm1
import proofs.«114034_j16561393893850_1_alg».proof.Proof.Pay1
import proofs.«114034_j16561393893850_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat Cfg Window)
open Cert.KernelIdeal.Gen

variable (V : (c : Dev nD) → (b : Ref sig .tc) → Buf (Elt Ideal) ((c : Thread nD τ).loc b))

/-! ## The blocks as rows of the arrays -/

theorem hz1 : (![0, 0] : Fin 2 → Nat) = fun _ => 0 := funext fun a => by fin_cases a <;> rfl

/-- The printed index maps over the grid: the row blocks of the first operand and of the output move with the point,
    the weights' block stays at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, k) of the first operand's block at point `t` is entry (5000·t + r, k) of its array. -/
theorem blk1_0_apply (c : Dev nD) (t : Fin cfg1.N) (y : S5000x128.Idx) (i : S100000x128.Idx)
    (h0 : (i 0).val = 5000 * t.val + (y 0).val) (h1 : (i 1).val = (y 1).val) :
    (blk1 V c 0 t : Vec Ideal S5000x128 .f32) y = (V c main_v13 : S100000x128.Idx → EReal) i := by
  obtain ⟨e0, e1, -⟩ := idx_facts1 t
  show V c main_v13 (((cfg1.win 0).blk t).view.emb y) = V c main_v13 i
  congr 1
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The weights' block at every point is the whole weight array. -/
theorem blk1_1_apply (c : Dev nD) (t : Fin cfg1.N) (y : S128x128.Idx) (i : S128x128.Idx)
    (h0 : (i 0).val = (y 0).val) (h1 : (i 1).val = (y 1).val) :
    (blk1 V c 1 t : Vec Ideal S128x128 .f32) y = (V c main_v14 : S128x128.Idx → EReal) i := by
  obtain ⟨-, -, e2, e3, -⟩ := idx_facts1 t
  show V c main_v14 (((cfg1.win 1).blk t).view.emb y) = V c main_v14 i
  congr 1
  funext a; apply Fin.ext
  match a with
  | ⟨0, _⟩ => show win1_1.index t (0 : Fin 2) * 128 + 1 * (y 0).val = (i 0).val; omega
  | ⟨1, _⟩ => show win1_1.index t (1 : Fin 2) * 128 + 1 * (y 1).val = (i 1).val; omega

/-- Entry (r, j) of the output's block at point `t` sits at (5000·t + r, j) of the output array. -/
theorem emb1_2 (t : Fin cfg1.N) (y : S5000x128.Idx) :
    ((((cfg1.win 2).blk t).view.emb y : S100000x128.Idx) 0).val = 5000 * t.val + (y 0).val
    ∧ ((((cfg1.win 2).blk t).view.emb y : S100000x128.Idx) 1).val = (y 1).val := by
  obtain ⟨-, -, -, -, e4, e5⟩ := idx_facts1 t
  constructor
  · show win1_2.index t (0 : Fin 2) * 5000 + 1 * (y 0).val = _; omega
  · show win1_2.index t (1 : Fin 2) * 128 + 1 * (y 1).val = _; omega

/-! ## What a point writes back, and the array after the run -/

/-- What point `t` writes back is block `t` of the dense projection of the two arrays as the region finds them,
    the first prepared as the body prepares its block. -/
theorem flushed1_eq (c : Dev nD) (t : Fin cfg1.N) :
    (dat1 (F := Ideal) V c).flushed 2 t = ((cfg1.win 2).blk t).view.read (Elt Ideal)
      (Cert.Spec.mm (pre1 (V c main_v13 : S100000x128.Idx → EReal)) (V c main_v14 : S128x128.Idx → EReal)) := by
  show (cfg1.win 2).cut (grid1.coords t) ((dat1 V c).after 2 t) = _
  rw [dat1_after2]
  unfold prod1
  rw [View.canon_unit_zero hz1]
  simp only [View.ld_unit_zero (S := S5000x128) hz1, View.ld_unit_zero (S := S128x128) hz1]
  funext j
  obtain ⟨p, q, rfl⟩ : ∃ (p : Fin 5000) (q : Fin 128), j = ix2 p q := ⟨j 0, j 1, eq_ix2 j⟩
  obtain ⟨hr, hc⟩ := emb1_2 t (ix2 p q)
  refine (pay1_apply (blk1 V c 0 t) (blk1 V c 1 t) p q).trans ?_
  show _ = Cert.Spec.mm (pre1 (V c main_v13 : S100000x128.Idx → EReal)) (V c main_v14 : S128x128.Idx → EReal) (((cfg1.win 2).blk t).view.emb (ix2 p q))
  unfold Cert.Spec.mm
  refine Finset.sum_congr rfl fun k _ => ?_
  rw [blk1_1_apply V c t (ix2 k q) (ix2 k ((((cfg1.win 2).blk t).view.emb (ix2 p q) : S100000x128.Idx) 1)) rfl hc]
  refine congrArg (· * _) ?_
  exact pre1_congr (blk1 V c 0 t : Vec Ideal S5000x128 .f32) (V c main_v13 : S100000x128.Idx → EReal) (ix2 p k) (ix2 ((((cfg1.win 2).blk t).view.emb (ix2 p q) : S100000x128.Idx) 0) k) (blk1_0_apply V c t (ix2 p k) (ix2 ((((cfg1.win 2).blk t).view.emb (ix2 p q) : S100000x128.Idx) 0) k) hr rfl)

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- Row `r` of the output array lies in the block of point `r / 5000`, which writes back. -/
theorem cover1_2 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array of pipeline 1 after its run is the dense projection of the first operand's array, prepared as the
    body prepares its blocks, by the second's. -/
theorem arr1 (c : Dev nD) :
    ((dat1 (F := Ideal) V c).arrAt 2 cfg1.N : S100000x128.Idx → EReal)
      = Cert.Spec.mm (pre1 (V c main_v13 : S100000x128.Idx → EReal)) (V c main_v14 : S128x128.Idx → EReal) := by
  exact (dat1 (F := Ideal) V c).arrAt_eq_of_cover 2
    (Cert.Spec.mm (pre1 (V c main_v13 : S100000x128.Idx → EReal)) (V c main_v14 : S128x128.Idx → EReal))
    (fun t _ => flushed1_eq V c t) cover1_2

end Cert.KernelIdeal.Hand

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.Val2.lean ====
/-
  What the reduction (pipeline 2) leaves in its [1,2] output array, over the extended reals: entry (0,0) is the sum
  over the twenty grid points of the sum of the point's block of the first operand, entry (0,1) the same for the
  exponentials of the second operand's blocks. The accumulator starts at zero at the first point, every point adds
  its block's total, and the last point's copy is the one block the pipeline writes back.
-/
import proofs.«114034_j16561393893850_1_alg».proof.Proof.Red2
import proofs.«114034_j16561393893850_1_alg».proof.Proof.Spec
import proofs.«114034_j16561393893850_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat Cfg Window)
open Cert.KernelIdeal.Gen

variable (V : (c : Dev nD) → (b : Ref sig .tc) → Buf (Elt Ideal) ((c : Thread nD τ).loc b))

/-- The total of a [5000,64] table taken as the kernel takes it: each row's 64 entries added, the 5000 row sums kept as a
    column, the column added up, the one number viewed as a [1,1] table. -/
theorem total_apply (x : FVec Ideal S5000x64 .f32) :
    shapeCast S1x1
        (multiReduction (F := Ideal) .add [0] S1
          (shapeCast S5000x1 (multiReduction (F := Ideal) .add [1] S5000 x 0x00000000#32 reduces_S5000x64_S5000 (.inl rfl) rfl)
            shapeCasts_S5000_S5000x1)
          0x00000000#32 reduces_S5000x1_S1 (.inl rfl) rfl)
        shapeCasts_S1_S1x1 (ix2 0 0)
      = ∑ r : Fin 5000, ∑ j : Fin 64, x (ix2 r j) := by
  refine (Cert.LibColumn.shapeCast_a_a1_apply _ shapeCasts_S1_S1x1 0 0).trans ?_
  refine (Ideal.multiReduction_add_total _ _ reduces_S5000x1_S1 (fun b => by match b with | ⟨0, _⟩ => rfl) (.inl rfl) rfl (ix1 0)).trans ?_
  rw [sum_idx2]
  refine Finset.sum_congr rfl fun r _ => ?_
  rw [Fin.sum_univ_one]
  refine (Cert.LibColumn.shapeCast_a_a1_apply _ shapeCasts_S5000_S5000x1 r 0).trans ?_
  exact Cert.LibColumn.multiReduction_add_last_apply x reduces_S5000x64_S5000 (.inl rfl) rfl r

/-- The first accumulating store's value at its one entry: what was there plus the block's total. -/
theorem pay2_apply (x : Vec Ideal S5000x64 .f32) (s : Vec Ideal S1x1 .f32) :
    k2_pay2 x s (ix2 0 0) = s (ix2 0 0) + ∑ r : Fin 5000, ∑ j : Fin 64, x (ix2 r j) := by
  unfold k2_pay2
  rw [shapeCast_self, addf_apply, shapeCast_self]
  exact congrArg (s (ix2 0 0) + ·) (total_apply x)

/-- The second accumulating store's value at its one entry: what was there plus the total of the block's exponentials. -/
theorem pay3_apply (y : Vec Ideal S5000x64 .f32) (s : Vec Ideal S1x1 .f32) :
    k2_pay3 y s (ix2 0 0) = s (ix2 0 0) + ∑ r : Fin 5000, ∑ j : Fin 64, Ideal.exp (y (ix2 r j)) := by
  unfold k2_pay3
  rw [shapeCast_self, addf_apply, shapeCast_self]
  exact congrArg (s (ix2 0 0) + ·) (total_apply (exp y))

theorem zeros2 : (![0, 0] : Fin 2 → Nat) = fun _ => 0 := funext fun a => by match a with | ⟨0, _⟩ => rfl | ⟨1, _⟩ => rfl

/-- The one entry of the [1,1] rectangle at (0,0) of the accumulator is the accumulator's entry (0,0), -/
theorem rS00_at : rS00.emb (ix2 0 0 : S1x1.Idx) = (ix2 0 0 : S1x2.Idx) :=
  funext fun a => Fin.ext (by match a with | ⟨0, _⟩ => rfl | ⟨1, _⟩ => rfl)

/-- and that of the rectangle at (0,1) its entry (0,1). -/
theorem rS01_at : rS01.emb (ix2 0 0 : S1x1.Idx) = (ix2 0 1 : S1x2.Idx) :=
  funext fun a => Fin.ext (by match a with | ⟨0, _⟩ => rfl | ⟨1, _⟩ => rfl)

/-- Entry (0,0) is not in the rectangle at (0,1): its column is 0, the rectangle's is 1. -/
theorem not_mem_rS01 : (ix2 0 0 : S1x2.Idx) ∉ rS01.set := by
  rw [Rect.mem_set_unit]
  intro h
  have := (h 1).1
  exact absurd this (by decide)

/-- After a point's two stores entry (0,0) holds what it held plus the total of the first block, -/
theorem step2_mu (x y : Vec Ideal S5000x64 .f32) (s : Vec Ideal S1x2 .f32) :
    step2 x y s (ix2 0 0) = s (ix2 0 0) + ∑ r : Fin 5000, ∑ j : Fin 64, x (ix2 r j) := by
  unfold step2
  refine (View.canon_cons_of_not_mem _ _ not_mem_rS01).trans ?_
  refine (congrArg (View.canon _) rS00_at.symm).trans ?_
  refine (View.canon_cons_emb rS00 _ [] (ix2 0 0)).trans ?_
  refine (pay2_apply _ _).trans ?_
  rw [View.ld_unit_zero (S := S5000x64) zeros2]
  exact congrArg (fun i => s i + _) rS00_at

/-- and entry (0,1) what it held plus the total of the exponentials of the second block. -/
theorem step2_lv (x y : Vec Ideal S5000x64 .f32) (s : Vec Ideal S1x2 .f32) :
    step2 x y s (ix2 0 1) = s (ix2 0 1) + ∑ r : Fin 5000, ∑ j : Fin 64, Ideal.exp (y (ix2 r j)) := by
  unfold step2
  refine (congrArg (View.canon _) rS01_at.symm).trans ?_
  refine (View.canon_cons_emb rS01 _ _ (ix2 0 0)).trans ?_
  refine (pay3_apply _ _).trans ?_
  rw [View.ld_unit_zero (S := S5000x64) zeros2]
  exact congrArg (fun i => s i + _) rS01_at

/-- The cleared accumulator holds zero at both entries. -/
theorem zero2_apply (i : S1x2.Idx) : zero2 (F := Ideal) i = 0 := by
  unfold zero2
  rw [View.canon_unit_zero zeros2]
  unfold k2_pay1
  rw [shapeCast_self, broadcast_apply]
  exact Ideal.ofBits_zero_f32

/-- The printed index maps over the grid: the two operands' blocks are indexed (t, 0), the output's one block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

theorem points_eq : cfg2.N = 20 := N_2

theorem last_lt : 19 < cfg2.N := by rw [points_eq]; decide

/-- Entry (r, j) of the first operand's block at point t is entry (5000·t + r, j) of the operand. -/
theorem blk2_0_apply (c : Dev nD) (t : Fin cfg2.N) (r : Fin 5000) (j : Fin 64) (i : S100000x64.Idx)
    (h0 : (i 0).val = 5000 * t.val + r.val) (h1 : (i 1).val = j.val) :
    (blk2 (F := Ideal) V c 0 t : Vec Ideal S5000x64 .f32) (ix2 r j) = (V c main_v29 : S100000x64.Idx → EReal) i := by
  obtain ⟨e0, e1, -⟩ := index_facts t
  unfold blk2
  rw [View.read_apply]
  show V c main_v29 (((cfg2.win 0).blk t).view.emb (ix2 r j)) = V c main_v29 i
  congr 1
  funext a
  apply Fin.ext
  match a with
  | ⟨0, _⟩ => show win2_0.index t (0 : Fin 2) * 5000 + 1 * r.val = (i 0).val; rw [e0, h0]; omega
  | ⟨1, _⟩ => show win2_0.index t (1 : Fin 2) * 64 + 1 * j.val = (i 1).val; rw [e1, h1]; omega

/-- The same for the second operand. -/
theorem blk2_1_apply (c : Dev nD) (t : Fin cfg2.N) (r : Fin 5000) (j : Fin 64) (i : S100000x64.Idx)
    (h0 : (i 0).val = 5000 * t.val + r.val) (h1 : (i 1).val = j.val) :
    (blk2 (F := Ideal) V c 1 t : Vec Ideal S5000x64 .f32) (ix2 r j) = (V c main_v30 : S100000x64.Idx → EReal) i := by
  obtain ⟨-, -, e0, e1, -⟩ := index_facts t
  unfold blk2
  rw [View.read_apply]
  show V c main_v30 (((cfg2.win 1).blk t).view.emb (ix2 r j)) = V c main_v30 i
  congr 1
  funext a
  apply Fin.ext
  match a with
  | ⟨0, _⟩ => show win2_1.index t (0 : Fin 2) * 5000 + 1 * r.val = (i 0).val; rw [e0, h0]; omega
  | ⟨1, _⟩ => show win2_1.index t (1 : Fin 2) * 64 + 1 * j.val = (i 1).val; rw [e1, h1]; omega

/-- What point t adds, for t a natural number: the t-th block total of a table, nothing past the grid. -/
def pointSum (X : S100000x64.Idx → EReal) (t : ℕ) : EReal :=
  if h : t < 20 then Cert.Spec.blockSum X ⟨t, h⟩ else 0

/-- A block whose entry (r, j) is entry (5000·n + r, j) of a table has the table's n-th block total for its total. -/
theorem total_eq_pointSum (x : Vec Ideal S5000x64 .f32) (X : S100000x64.Idx → EReal) (n : ℕ) (h20 : n < 20)
    (hx : ∀ (r : Fin 5000) (j : Fin 64), x (ix2 r j) = X (ix2 ⟨5000 * n + r.val, by have := r.isLt; omega⟩ j)) :
    ∑ r : Fin 5000, ∑ j : Fin 64, x (ix2 r j) = pointSum X n := by
  unfold pointSum
  rw [dif_pos h20]
  unfold Cert.Spec.blockSum
  exact Finset.sum_congr rfl fun r _ => Finset.sum_congr rfl fun j _ => hx r j

/-- The same for the exponentials of its entries and the table of the exponentials. -/
theorem total_exp_eq_pointSum (y : Vec Ideal S5000x64 .f32) (X : S100000x64.Idx → EReal) (n : ℕ) (h20 : n < 20)
    (hy : ∀ (r : Fin 5000) (j : Fin 64), y (ix2 r j) = X (ix2 ⟨5000 * n + r.val, by have := r.isLt; omega⟩ j)) :
    ∑ r : Fin 5000, ∑ j : Fin 64, Ideal.exp (y (ix2 r j)) = pointSum (fun i => Ideal.exp (X i)) n := by
  unfold pointSum
  rw [dif_pos h20]
  unfold Cert.Spec.blockSum
  exact Finset.sum_congr rfl fun r _ => Finset.sum_congr rfl fun j _ => congrArg Ideal.exp (hy r j)

theorem lt_twenty {n : ℕ} (h : n < cfg2.N) : n < 20 := by rw [← points_eq]; exact h

/-- After point n the accumulator's entry (0,0) is the sum of the first n+1 block totals of the first operand. -/
theorem sc2_mu (c : Dev nD) : ∀ (n : ℕ) (h : n < cfg2.N),
    sc2 (F := Ideal) V c n h (ix2 0 0) = ∑ t ∈ Finset.range (n + 1), pointSum (V c main_v29 : S100000x64.Idx → EReal) t
  | 0, h => by
    show step2 _ _ zero2 (ix2 0 0) = _
    refine (step2_mu _ _ _).trans ?_
    rw [zero2_apply, zero_add, Finset.sum_range_one]
    exact total_eq_pointSum _ _ 0 (lt_twenty h) fun r j => blk2_0_apply V c ⟨0, h⟩ r j _ rfl rfl
  | n + 1, h => by
    show step2 _ _ (sc2 V c n _) (ix2 0 0) = _
    refine (step2_mu _ _ _).trans ?_
    rw [sc2_mu c n _, Finset.sum_range_succ _ (n + 1)]
    exact congrArg (_ + ·) (total_eq_pointSum _ _ (n + 1) (lt_twenty h) fun r j => blk2_0_apply V c ⟨n + 1, h⟩ r j _ rfl rfl)

/-- After point n its entry (0,1) is the sum of the first n+1 block totals of the second operand's exponentials. -/
theorem sc2_lv (c : Dev nD) : ∀ (n : ℕ) (h : n < cfg2.N),
    sc2 (F := Ideal) V c n h (ix2 0 1)
      = ∑ t ∈ Finset.range (n + 1), pointSum (fun i => Ideal.exp ((V c main_v30 : S100000x64.Idx → EReal) i)) t
  | 0, h => by
    show step2 _ _ zero2 (ix2 0 1) = _
    refine (step2_lv _ _ _).trans ?_
    rw [zero2_apply, zero_add, Finset.sum_range_one]
    exact total_exp_eq_pointSum _ _ 0 (lt_twenty h) fun r j => blk2_1_apply V c ⟨0, h⟩ r j _ rfl rfl
  | n + 1, h => by
    show step2 _ _ (sc2 V c n _) (ix2 0 1) = _
    refine (step2_lv _ _ _).trans ?_
    rw [sc2_lv c n _, Finset.sum_range_succ _ (n + 1)]
    exact congrArg (_ + ·) (total_exp_eq_pointSum _ _ (n + 1) (lt_twenty h) fun r j => blk2_1_apply V c ⟨n + 1, h⟩ r j _ rfl rfl)

/-- Over the whole grid the point sums are the twenty block totals. -/
theorem sum_pointSum (X : S100000x64.Idx → EReal) :
    ∑ t ∈ Finset.range (19 + 1), pointSum X t = ∑ t : Fin 20, Cert.Spec.blockSum X t := by
  rw [← Fin.sum_univ_eq_sum_range (fun t => pointSum X t) 20]
  exact Finset.sum_congr rfl fun t _ => by unfold pointSum; rw [dif_pos t.isLt]

/-- The last point's write-back writes the accumulator as it stands after that point: the output's one block is its
    whole array. -/
theorem flushed2_eq (c : Dev nD) (t : Fin cfg2.N) (hf : (cfg2.win 2).flush t = true) :
    (dat2 (F := Ideal) V c).flushed 2 t
      = ((cfg2.win 2).blk t).view.read (Elt Ideal) (sc2 (F := Ideal) V c 19 last_lt) := by
  have ht : t.val = 19 := by
    have h1 := (flush2_2 t).mp hf
    have h2 : t.val < 20 := by rw [← points_eq]; exact t.isLt
    omega
  obtain rfl : t = ⟨19, last_lt⟩ := Fin.ext ht
  obtain ⟨-, -, -, -, e0, e1⟩ := index_facts ⟨19, last_lt⟩
  show (cfg2.win 2).cut (grid2.coords ⟨19, last_lt⟩) ((dat2 (F := Ideal) V c).after 2 ⟨19, last_lt⟩) = _
  rw [dat2_after2]
  unfold out2
  rw [View.canon_unit_zero zeros2, View.ld_unit_zero (S := S1x2) zeros2]
  funext y
  rw [View.read_apply]
  show sc2 V c 19 last_lt _ = sc2 V c 19 last_lt (((cfg2.win 2).blk ⟨19, last_lt⟩).view.emb y)
  congr 1
  funext a
  apply Fin.ext
  match a with
  | ⟨0, _⟩ => show (y 0).val = win2_2.index ⟨19, last_lt⟩ (0 : Fin 2) * 1 + 1 * (y 0).val; rw [e0]; omega
  | ⟨1, _⟩ => show (y 1).val = win2_2.index ⟨19, last_lt⟩ (1 : Fin 2) * 2 + 1 * (y 1).val; rw [e1]; omega

/-- So the output array ends holding the accumulator as the last point left it. -/
theorem arr2_eq (c : Dev nD) : (dat2 (F := Ideal) V c).arrAt 2 cfg2.N = sc2 (F := Ideal) V c 19 last_lt :=
  (dat2 (F := Ideal) V c).arrAt_eq_of_cover 2 (sc2 (F := Ideal) V c 19 last_lt) (flushed2_eq V c) fun i =>
    ⟨⟨19, last_lt⟩, (flush2_2 ⟨19, last_lt⟩).mpr rfl, by
      obtain ⟨-, -, -, -, e0, e1⟩ := index_facts ⟨19, last_lt⟩
      show i ∈ ((View.whole main_v31).slice (win2_2.rect ⟨19, last_lt⟩)).set
      rw [View.set_slice_whole, Rect.mem_set_unit]
      intro a
      have h0 : (i 0 : ℕ) < 1 := (i 0).isLt
      have h1 : (i 1 : ℕ) < 2 := (i 1).isLt
      match a with
      | ⟨0, _⟩ =>
        show win2_2.index ⟨19, last_lt⟩ (0 : Fin 2) * 1 ≤ (i 0 : ℕ) ∧ (i 0 : ℕ) < win2_2.index ⟨19, last_lt⟩ (0 : Fin 2) * 1 + 1
        rw [e0]; omega
      | ⟨1, _⟩ =>
        show win2_2.index ⟨19, last_lt⟩ (1 : Fin 2) * 2 ≤ (i 1 : ℕ) ∧ (i 1 : ℕ) < win2_2.index ⟨19, last_lt⟩ (1 : Fin 2) * 2 + 2
        rw [e1]; omega⟩

/-- Entry (0,0) of the reduction's output array after the run: the block totals of the first operand, added up. -/
theorem arr2_mu (c : Dev nD) :
    ((dat2 (F := Ideal) V c).arrAt 2 cfg2.N : S1x2.Idx → EReal) (ix2 0 0)
      = ∑ t : Fin 20, Cert.Spec.blockSum (V c main_v29 : S100000x64.Idx → EReal) t := by
  rw [arr2_eq V c]
  exact (sc2_mu V c 19 last_lt).trans (sum_pointSum _)

/-- Entry (0,1): the block totals of the exponentials of the second operand, added up. -/
theorem arr2_lv (c : Dev nD) :
    ((dat2 (F := Ideal) V c).arrAt 2 cfg2.N : S1x2.Idx → EReal) (ix2 0 1)
      = ∑ t : Fin 20, Cert.Spec.blockSum (fun i => Ideal.exp ((V c main_v30 : S100000x64.Idx → EReal) i)) t := by
  rw [arr2_eq V c]
  exact (sc2_lv V c 19 last_lt).trans (sum_pointSum _)

end Cert.KernelIdeal.Hand

end
-- ==== Proof.KerValue.lean ====
/-
  The kernel program's two results are `Spec.zmu` / `Spec.zlv` of its arguments.

  Region 0 leaves the first dense projection; the first host stretch aggregates it over the edges; region 1 clamps
  that at zero and projects it by the two second-layer weight matrices laid side by side, so its column j (resp.
  64 + j) is the first (resp. second) head's projection — a sum over the 128 hidden columns whose weights are read in
  the left (resp. right) half of the concatenation; the aggregation acts column by column, so the halves the second
  stretch cuts out are the two heads; the reduction adds up each head's entries (the second's exponentials) block by
  block, which is the sum over all entries; the last stretch divides by the entry count and takes the logarithm.
-/
import proofs.«114034_j16561393893850_1_alg».proof.Proof.Launch
import proofs.«114034_j16561393893850_1_alg».proof.Proof.KerHost
import proofs.«114034_j16561393893850_1_alg».proof.Proof.Val0
import proofs.«114034_j16561393893850_1_alg».proof.Proof.Val1
import proofs.«114034_j16561393893850_1_alg».proof.Proof.Val2
import proofs.«114034_j16561393893850_1_alg».proof.Proof.SpecAgg

set_option maxRecDepth 16384

noncomputable section

open scoped BigOperators

namespace Cert.KernelIdeal.Hand

open Idealize.ShloMosaic Idealize.ShloMosaic.TcCoe Idealize.SL.Sem
open Idealize.ShloMosaic.ValueIdx
open Cert.KernelIdeal.Gen Cert.Spec

variable (m : (ℓ : Loc nD τ sig) → Buf (Elt Ideal) ℓ) (ρ : Dev nD → PrngReg)

/-- The argument arrays, by the names the mathematics gives them. -/
abbrev aX (c : Dev nD) : S100000x256.Idx → EReal := m ((c.tc : Thread nD τ).loc main_arg0)
abbrev aRow (c : Dev nD) : S1600000.Idx → BitVec 32 := m ((c.tc : Thread nD τ).loc main_arg1)
abbrev aCol (c : Dev nD) : S1600000.Idx → BitVec 32 := m ((c.tc : Thread nD τ).loc main_arg2)
abbrev aVal (c : Dev nD) : S1600000.Idx → EReal := m ((c.tc : Thread nD τ).loc main_arg3)
abbrev aW1 (c : Dev nD) : S256x128.Idx → EReal := m ((c.tc : Thread nD τ).loc main_arg4)
abbrev aW2 (c : Dev nD) : S128x64.Idx → EReal := m ((c.tc : Thread nD τ).loc main_arg5)
abbrev aW3 (c : Dev nD) : S128x64.Idx → EReal := m ((c.tc : Thread nD τ).loc main_arg6)

/-- A dense projection at explicit coordinates. -/
theorem mm_at {N K C : ℕ} (x : (⟨2, ![N, K]⟩ : Shape).Idx → EReal) (w : (⟨2, ![K, C]⟩ : Shape).Idx → EReal) (n : Fin N) (j : Fin C) :
    mm x w (ix2 n j) = ∑ k : Fin K, x (ix2 n k) * w (ix2 k j) := rfl

/-- Region 0's output: the first projection. -/
theorem v0_eq (c : Dev nD) : (U1 m c main_v0 : S100000x128.Idx → EReal) = mm (aX m c) (aW1 m c) :=
  (U1_arr m c 2).trans (arr0 (E0 m) c)

/-- After the first stretch and the clamp region 1 applies: the hidden layer. -/
theorem v13_eq (c : Dev nD) : relu (U2 m c main_v13 : S100000x128.Idx → EReal) = hidden (aX m c) (aRow m c) (aCol m c) (aVal m c) (aW1 m c) := by
  rw [kh_v13, v0_eq]; rfl

/-- Region 1's output: the hidden layer projected by the two heads' weights side by side. -/
theorem v15_eq (c : Dev nD) : (U3 m c main_v15 : S100000x128.Idx → EReal)
    = mm (hidden (aX m c) (aRow m c) (aCol m c) (aVal m c) (aW1 m c)) (U2 m c main_v14 : S128x128.Idx → EReal) := by
  rw [← v13_eq]
  exact (U3_arr m c 2).trans (arr1 (E2 m) c)

/-- Its left half is the first head's projection, its right half the second's. -/
theorem v15_left (c : Dev nD) (r : Fin 100000) (j : Fin 64) :
    (U3 m c main_v15 : S100000x128.Idx → EReal) (ix2 r ⟨j.val, by omega⟩)
      = mm (hidden (aX m c) (aRow m c) (aCol m c) (aVal m c) (aW1 m c)) (aW2 m c) (ix2 r j) := by
  have h : (mm (hidden (aX m c) (aRow m c) (aCol m c) (aVal m c) (aW1 m c)) (U2 m c main_v14 : S128x128.Idx → EReal) (ix2 r ⟨j.val, by omega⟩) : EReal)
      = mm (hidden (aX m c) (aRow m c) (aCol m c) (aVal m c) (aW1 m c)) (aW2 m c) (ix2 r j) := by
    rw [mm_at, mm_at]
    exact Finset.sum_congr rfl fun k _ => by rw [(kh_v14 m c k j).1]
  exact (congrFun (v15_eq m c) (ix2 r ⟨j.val, by omega⟩)).trans h

theorem v15_right (c : Dev nD) (r : Fin 100000) (j : Fin 64) :
    (U3 m c main_v15 : S100000x128.Idx → EReal) (ix2 r ⟨j.val + 64, by omega⟩)
      = mm (hidden (aX m c) (aRow m c) (aCol m c) (aVal m c) (aW1 m c)) (aW3 m c) (ix2 r j) := by
  have h : (mm (hidden (aX m c) (aRow m c) (aCol m c) (aVal m c) (aW1 m c)) (U2 m c main_v14 : S128x128.Idx → EReal) (ix2 r ⟨j.val + 64, by omega⟩) : EReal)
      = mm (hidden (aX m c) (aRow m c) (aCol m c) (aVal m c) (aW1 m c)) (aW3 m c) (ix2 r j) := by
    rw [mm_at, mm_at]
    exact Finset.sum_congr rfl fun k _ => by rw [(kh_v14 m c k j).2]
  exact (congrFun (v15_eq m c) (ix2 r ⟨j.val + 64, by omega⟩)).trans h

/-- The reduction's operands are the two heads. -/
theorem v29_eq (c : Dev nD) : (U4 m c main_v29 : S100000x64.Idx → EReal) = head (aX m c) (aRow m c) (aCol m c) (aVal m c) (aW1 m c) (aW2 m c) := by
  funext i
  obtain ⟨n, j, rfl⟩ : ∃ (n : Fin 100000) (j : Fin 64), i = ix2 n j := ⟨i 0, i 1, eq_ix2 i⟩
  rw [kh_v29]
  exact agg_cols 0 _ _ _ _ _ n _ j fun r => v15_left m c r j

theorem v30_eq (c : Dev nD) : (U4 m c main_v30 : S100000x64.Idx → EReal) = head (aX m c) (aRow m c) (aCol m c) (aVal m c) (aW1 m c) (aW3 m c) := by
  funext i
  obtain ⟨n, j, rfl⟩ : ∃ (n : Fin 100000) (j : Fin 64), i = ix2 n j := ⟨i 0, i 1, eq_ix2 i⟩
  rw [kh_v30]
  exact agg_cols 64 _ _ _ _ _ n _ j fun r => v15_right m c r j

/-- The reduction's output: the two totals. -/
theorem v31_mu (c : Dev nD) : (U5 m c main_v31 : S1x2.Idx → EReal) (ix2 0 0)
    = ∑ i, head (aX m c) (aRow m c) (aCol m c) (aVal m c) (aW1 m c) (aW2 m c) i := by
  rw [← v29_eq, ← blockSum_total]
  exact (congrFun (U5_arr m c 2) (ix2 0 0)).trans (arr2_mu (E4 m) c)

theorem v31_lv (c : Dev nD) : (U5 m c main_v31 : S1x2.Idx → EReal) (ix2 0 1)
    = ∑ i, Ideal.exp (head (aX m c) (aRow m c) (aCol m c) (aVal m c) (aW1 m c) (aW3 m c) i) := by
  rw [← v30_eq, ← blockSum_total (fun i => Ideal.exp ((U4 m c main_v30 : S100000x64.Idx → EReal) i))]
  exact (congrFun (U5_arr m c 2) (ix2 0 1)).trans (arr2_lv (E4 m) c)

/-- The two results. -/
theorem res_mu (c : Dev nD) : (U6 m c main_v34 : S_.Idx → EReal)
    = fun _ => zmu (aX m c) (aRow m c) (aCol m c) (aVal m c) (aW1 m c) (aW2 m c) := by
  rw [kh_v34, v31_mu]; unfold zmu; rw [zero_add]

theorem res_lv (c : Dev nD) : (U6 m c main_v38 : S_.Idx → EReal)
    = fun _ => zlv (aX m c) (aRow m c) (aCol m c) (aVal m c) (aW1 m c) (aW3 m c) := by
  rw [kh_v38, v31_lv]; unfold zlv; rw [zero_add]

/-- The kernel program's run, with its results named. -/
theorem run_spec : θ_run (defs (F := Ideal)) (onTc (τ := τ) (main (F := Ideal))) ⟨m, fun _ => 0, ρ⟩ (fun r => ∀ c : Dev nD,
      r.2.mem ((c.tc : Thread nD τ).loc main_v34) = (fun _ => zmu (aX m c) (aRow m c) (aCol m c) (aVal m c) (aW1 m c) (aW2 m c))
      ∧ r.2.mem ((c.tc : Thread nD τ).loc main_v38) = (fun _ => zlv (aX m c) (aRow m c) (aCol m c) (aVal m c) (aW1 m c) (aW3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (res_mu m c), (h c).2.1.trans (res_lv m c), (h c).2.2⟩) (run_read m ρ)

end Cert.KernelIdeal.Hand

end
-- ==== Proof.RefValue.lean ====
/-
  The reference's value: its two results as the mathematical functions `Spec.zmu` / `Spec.zlv` of the argument arrays.
  Its run ends with each result at the composed term of its host operations; read at an index, the dense products are
  `Spec.mm`, the gather / multiply / scatter-add chain is `Spec.agg`, the clamp is `Spec.relu`, and the two full
  reductions are sums over all entries.
-/
import proofs.«114034_j16561393893850_1_alg».proof.Proof.Gen.ReferenceIdeal.Run
import proofs.«114034_j16561393893850_1_alg».proof.Proof.Gen.ReferenceIdeal.Read
import proofs.«114034_j16561393893850_1_alg».proof.Proof.SpecAgg
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem
open Idealize.ShloMosaic.ValueIdx
open Cert.ReferenceIdeal Cert.ReferenceIdeal.Gen

open scoped BigOperators

section Stages
variable (x0 : (⟨S100000x256, .f32⟩ : BufTy).Contents (Elt Ideal)) (x1 x2 : (⟨S1600000, .i32⟩ : BufTy).Contents (Elt Ideal))
  (x3 : (⟨S1600000, .f32⟩ : BufTy).Contents (Elt Ideal)) (x4 : (⟨S256x128, .f32⟩ : BufTy).Contents (Elt Ideal))
  (x5 x6 : (⟨S128x64, .f32⟩ : BufTy).Contents (Elt Ideal))

/-- The first dense product is `Spec.mm`. -/
theorem v0_eq : Read.val_main_v0 (F := Ideal) x0 x4 = Cert.Spec.mm x0 x4 := by
  funext i
  rw [Read.val_main_v0_apply]
  unfold Cert.Spec.mm
  refine Finset.sum_congr rfl fun k _ => ?_
  have hl : Read.lidx_main_v0 i k = ix2 (n0 := 100000) (n1 := 256) (i 0) k := by
    funext a; match a with | ⟨0, _⟩ => rfl | ⟨1, _⟩ => rfl
  have hr : Read.ridx_main_v0 i k = ix2 (n0 := 256) (n1 := 128) k (i 1) := by
    funext a; match a with | ⟨0, _⟩ => rfl | ⟨1, _⟩ => rfl
  rw [hl, hr]

/-- The index normalisation is `Spec.nrm`. -/
theorem v5_eq : Read.val_main_v5 (F := Ideal) x2 = Cert.Spec.nrm x2 := by
  funext i
  rw [Read.val_main_v5_apply, Read.val_main_v2_apply, Read.val_main_v4_apply, Read.val_main_v1_apply,
    Read.val_main_v3_apply, Read.val_main_c_apply, Read.val_main_c_0_apply]
  rfl

/-- The normalised indices as a column. -/
theorem v6_eq : Read.val_main_v6 (F := Ideal) x2 = Cert.Spec.col1 (Cert.Spec.nrm x2) := by
  funext i
  rw [Read.val_main_v6_apply, v5_eq]
  unfold Cert.Spec.col1
  have h : Read.idx_main_v6 i = ix1 (n := 1600000) (i 0) := by
    funext a; match a with | ⟨0, _⟩ => rfl
  rw [h]

/-- The scatter's indices as a column. -/
theorem v12_eq : Read.val_main_v12 (F := Ideal) x1 = Cert.Spec.col1 x1 := by
  funext i
  rw [Read.val_main_v12_apply]
  unfold Cert.Spec.col1
  have h : Read.idx_main_v12 i = ix1 (n := 1600000) (i 0) := by
    funext a; match a with | ⟨0, _⟩ => rfl
  rw [h]

/-- The edge weights spread over the 128 columns. -/
theorem v9_apply (e : Fin 1600000) (j : Fin 128) :
    Read.val_main_v9 (F := Ideal) x3 (ix2 e j) = x3 (ix1 e) := by
  rw [Read.val_main_v9_apply, Read.val_main_v8_apply]
  congr 1
  funext a; match a with | ⟨0, _⟩ => rfl

/-- The scatter's operand is zero. -/
theorem v11_apply (i : S100000x128.Idx) : Read.val_main_v11 (F := Ideal) i = 0 := by
  rw [Read.val_main_v11_apply, Read.val_main_cst_apply]
  exact Ideal.ofBits_zero_f32

/-- The gather / multiply / scatter-add chain on C columns is `Spec.agg`: entry (n, j) of the scatter-add of a zero
    operand is the sum, over the edges landing on n, of the gathered row's entry at column j times the edge's weight. -/
theorem agg_read {C : ℕ}
    (wfs : ScatterDims.WF ⟨2, ![100000, C]⟩ ⟨2, ![1600000, 1]⟩ ⟨2, ![1600000, C]⟩ [1] [0] [0] 1)
    (wfg : GatherDims.WF ⟨2, ![100000, C]⟩ ⟨2, ![1600000, 1]⟩ ⟨2, ![1600000, C]⟩ [1] [0] [] [0] [] 1 ![1, C])
    (tgt src : IVec ⟨2, ![1600000, 1]⟩ 32) (val : (⟨1, ![1600000]⟩ : Shape).Idx → EReal)
    (P : (⟨2, ![100000, C]⟩ : Shape).Idx → EReal) (zero : (⟨2, ![100000, C]⟩ : Shape).Idx → EReal)
    (hz : ∀ i, zero i = 0) (V : (⟨2, ![1600000, C]⟩ : Shape).Idx → EReal)
    (hV : ∀ (e : Fin 1600000) (j : Fin C), V (ix2 e j) = val (ix1 e)) :
    Ideal.hostScatterAdd (Cert.LibRows.rowScatter 100000 1600000 C wfs) zero tgt
        (fun i => Host.gather (Cert.LibRows.rowGather 100000 1600000 C wfg) P src i * V i)
      = Cert.Spec.agg tgt src val P := by
  funext i
  obtain ⟨n, j, rfl⟩ : ∃ n j, i = ix2 n j := ⟨i 0, i 1, eq_ix2 i⟩
  rw [Cert.LibRows.rowScatterAdd_apply, hz]
  unfold Cert.Spec.agg
  refine congrArg (0 + ·) (Finset.sum_congr rfl fun e _ => ?_)
  rw [Cert.LibRows.rowGather_apply (by decide : 0 < 100000), hV]
  rfl

/-- The same, in the form the program's operations have. -/
theorem agg_read' {C : ℕ}
    (wfs : ScatterDims.WF ⟨2, ![100000, C]⟩ ⟨2, ![1600000, 1]⟩ ⟨2, ![1600000, C]⟩ [1] [0] [0] 1)
    (wfg : GatherDims.WF ⟨2, ![100000, C]⟩ ⟨2, ![1600000, 1]⟩ ⟨2, ![1600000, C]⟩ [1] [0] [] [0] [] 1 ![1, C])
    (tgt src : IVec ⟨2, ![1600000, 1]⟩ 32) (val : FVec Ideal ⟨1, ![1600000]⟩ .f32)
    (P : FVec Ideal ⟨2, ![100000, C]⟩ .f32) (zero : FVec Ideal ⟨2, ![100000, C]⟩ .f32)
    (hz : ∀ i, zero i = 0) (V : FVec Ideal ⟨2, ![1600000, C]⟩ .f32)
    (hV : ∀ (e : Fin 1600000) (j : Fin C), V (ix2 e j) = val (ix1 e)) :
    Host.scatterAdd (F := Ideal) (Cert.LibRows.rowScatter 100000 1600000 C wfs) zero tgt
        (mulf (Host.gather (Cert.LibRows.rowGather 100000 1600000 C wfg) P src) V)
      = Cert.Spec.agg tgt src val P :=
  agg_read wfs wfg tgt src val P zero hz V hV

/-- The first layer's aggregate. -/
theorem v13_eq : Read.val_main_v13 (F := Ideal) x0 x1 x2 x3 x4
    = Cert.Spec.agg (Cert.Spec.col1 x1) (Cert.Spec.col1 (Cert.Spec.nrm x2)) x3 (Cert.Spec.mm x0 x4) := by
  have h := agg_read (C := 128) Facts₀.scatter_S100000x128_S1600000x1_S1600000x128_1_0_0_1_wf
    Facts₀.gather_S100000x128_S1600000x1_S1600000x128_1_0_n_n_0_1_1128_wf
    (Cert.Spec.col1 x1) (Cert.Spec.col1 (Cert.Spec.nrm x2)) x3 (Cert.Spec.mm x0 x4)
    (Read.val_main_v11 (F := Ideal)) v11_apply (Read.val_main_v9 (F := Ideal) x3) (v9_apply x3)
  rw [← h]
  unfold Read.val_main_v13 Read.val_main_v10 Read.val_main_v7
  rw [v0_eq, v6_eq, v12_eq]
  rfl

/-- The first layer, clamped at zero: `Spec.hidden`. -/
theorem v14_eq : Read.val_main_v14 (F := Ideal) x0 x1 x2 x3 x4 = Cert.Spec.hidden x0 x1 x2 x3 x4 := by
  funext i
  rw [Read.val_main_v14_apply, v13_eq, Read.val_main_call0_v0_apply, Read.val_main_call0_cst_apply]
  unfold Cert.Spec.hidden Cert.Spec.relu
  rw [Ideal.maximumf_def]
  exact congrArg (max _) Ideal.ofBits_zero_f32

/-- First head: the dense product of the hidden layer. -/
theorem v15_eq : Read.val_main_v15 (F := Ideal) x0 x1 x2 x3 x4 x5
    = Cert.Spec.mm (Cert.Spec.hidden x0 x1 x2 x3 x4) x5 := by
  funext i
  rw [Read.val_main_v15_apply, v14_eq]
  unfold Cert.Spec.mm
  refine Finset.sum_congr rfl fun k _ => ?_
  have hl : Read.lidx_main_v15 i k = ix2 (n0 := 100000) (n1 := 128) (i 0) k := by
    funext a; match a with | ⟨0, _⟩ => rfl | ⟨1, _⟩ => rfl
  have hr : Read.ridx_main_v15 i k = ix2 (n0 := 128) (n1 := 64) k (i 1) := by
    funext a; match a with | ⟨0, _⟩ => rfl | ⟨1, _⟩ => rfl
  rw [hl, hr]

/-- First head: the index normalisation. -/
theorem v20_eq : Read.val_main_v20 (F := Ideal) x2 = Cert.Spec.nrm x2 := by
  funext i
  rw [Read.val_main_v20_apply, Read.val_main_v17_apply, Read.val_main_v19_apply, Read.val_main_v16_apply,
    Read.val_main_v18_apply, Read.val_main_c_1_apply, Read.val_main_c_2_apply]
  rfl

/-- First head: the normalised indices as a column. -/
theorem v21_eq : Read.val_main_v21 (F := Ideal) x2 = Cert.Spec.col1 (Cert.Spec.nrm x2) := by
  funext i
  rw [Read.val_main_v21_apply, v20_eq]
  unfold Cert.Spec.col1
  have h : Read.idx_main_v21 i = ix1 (n := 1600000) (i 0) := by
    funext a; match a with | ⟨0, _⟩ => rfl
  rw [h]

/-- First head: the scatter's indices as a column. -/
theorem v27_eq : Read.val_main_v27 (F := Ideal) x1 = Cert.Spec.col1 x1 := by
  funext i
  rw [Read.val_main_v27_apply]
  unfold Cert.Spec.col1
  have h : Read.idx_main_v27 i = ix1 (n := 1600000) (i 0) := by
    funext a; match a with | ⟨0, _⟩ => rfl
  rw [h]

/-- First head: the edge weights spread over the 64 columns. -/
theorem v24_apply (e : Fin 1600000) (j : Fin 64) :
    Read.val_main_v24 (F := Ideal) x3 (ix2 e j) = x3 (ix1 e) := by
  rw [Read.val_main_v24_apply, Read.val_main_v23_apply]
  congr 1
  funext a; match a with | ⟨0, _⟩ => rfl

/-- First head: the scatter's operand is zero. -/
theorem v26_apply (i : S100000x64.Idx) : Read.val_main_v26 (F := Ideal) i = 0 := by
  rw [Read.val_main_v26_apply, Read.val_main_cst_3_apply]
  exact Ideal.ofBits_zero_f32

/-- First head: the aggregate is `Spec.head`. -/
theorem v28_eq : Read.val_main_v28 (F := Ideal) x0 x1 x2 x3 x4 x5 = Cert.Spec.head x0 x1 x2 x3 x4 x5 := by
  unfold Read.val_main_v28 Read.val_main_v25 Read.val_main_v22
  rw [v15_eq, v21_eq, v27_eq]
  unfold Cert.Spec.head
  exact agg_read' (C := 64) Facts₀.scatter_S100000x64_S1600000x1_S1600000x64_1_0_0_1_wf
    Facts₀.gather_S100000x64_S1600000x1_S1600000x64_1_0_n_n_0_1_164_wf
    (Cert.Spec.col1 x1) (Cert.Spec.col1 (Cert.Spec.nrm x2)) x3 (Cert.Spec.mm (Cert.Spec.hidden x0 x1 x2 x3 x4) x5)
    (Read.val_main_v26 (F := Ideal)) v26_apply (Read.val_main_v24 (F := Ideal) x3) (v24_apply x3)

/-- Second head: the dense product of the hidden layer. -/
theorem v29_eq : Read.val_main_v29 (F := Ideal) x0 x1 x2 x3 x4 x6
    = Cert.Spec.mm (Cert.Spec.hidden x0 x1 x2 x3 x4) x6 := by
  funext i
  rw [Read.val_main_v29_apply, v14_eq]
  unfold Cert.Spec.mm
  refine Finset.sum_congr rfl fun k _ => ?_
  have hl : Read.lidx_main_v29 i k = ix2 (n0 := 100000) (n1 := 128) (i 0) k := by
    funext a; match a with | ⟨0, _⟩ => rfl | ⟨1, _⟩ => rfl
  have hr : Read.ridx_main_v29 i k = ix2 (n0 := 128) (n1 := 64) k (i 1) := by
    funext a; match a with | ⟨0, _⟩ => rfl | ⟨1, _⟩ => rfl
  rw [hl, hr]

/-- Second head: the index normalisation. -/
theorem v34_eq : Read.val_main_v34 (F := Ideal) x2 = Cert.Spec.nrm x2 := by
  funext i
  rw [Read.val_main_v34_apply, Read.val_main_v31_apply, Read.val_main_v33_apply, Read.val_main_v30_apply,
    Read.val_main_v32_apply, Read.val_main_c_4_apply, Read.val_main_c_5_apply]
  rfl

/-- Second head: the normalised indices as a column. -/
theorem v35_eq : Read.val_main_v35 (F := Ideal) x2 = Cert.Spec.col1 (Cert.Spec.nrm x2) := by
  funext i
  rw [Read.val_main_v35_apply, v34_eq]
  unfold Cert.Spec.col1
  have h : Read.idx_main_v35 i = ix1 (n := 1600000) (i 0) := by
    funext a; match a with | ⟨0, _⟩ => rfl
  rw [h]

/-- Second head: the scatter's indices as a column. -/
theorem v41_eq : Read.val_main_v41 (F := Ideal) x1 = Cert.Spec.col1 x1 := by
  funext i
  rw [Read.val_main_v41_apply]
  unfold Cert.Spec.col1
  have h : Read.idx_main_v41 i = ix1 (n := 1600000) (i 0) := by
    funext a; match a with | ⟨0, _⟩ => rfl
  rw [h]

/-- Second head: the edge weights spread over the 64 columns. -/
theorem v38_apply (e : Fin 1600000) (j : Fin 64) :
    Read.val_main_v38 (F := Ideal) x3 (ix2 e j) = x3 (ix1 e) := by
  rw [Read.val_main_v38_apply, Read.val_main_v37_apply]
  congr 1
  funext a; match a with | ⟨0, _⟩ => rfl

/-- Second head: the scatter's operand is zero. -/
theorem v40_apply (i : S100000x64.Idx) : Read.val_main_v40 (F := Ideal) i = 0 := by
  rw [Read.val_main_v40_apply, Read.val_main_cst_6_apply]
  exact Ideal.ofBits_zero_f32

/-- Second head: the aggregate is `Spec.head`. -/
theorem v42_eq : Read.val_main_v42 (F := Ideal) x0 x1 x2 x3 x4 x6 = Cert.Spec.head x0 x1 x2 x3 x4 x6 := by
  unfold Read.val_main_v42 Read.val_main_v39 Read.val_main_v36
  rw [v29_eq, v35_eq, v41_eq]
  unfold Cert.Spec.head
  exact agg_read' (C := 64) Facts₀.scatter_S100000x64_S1600000x1_S1600000x64_1_0_0_1_wf
    Facts₀.gather_S100000x64_S1600000x1_S1600000x64_1_0_n_n_0_1_164_wf
    (Cert.Spec.col1 x1) (Cert.Spec.col1 (Cert.Spec.nrm x2)) x3 (Cert.Spec.mm (Cert.Spec.hidden x0 x1 x2 x3 x4) x6)
    (Read.val_main_v40 (F := Ideal)) v40_apply (Read.val_main_v38 (F := Ideal) x3) (v38_apply x3)

/-- The float zero word is 0. -/
theorem zero_word : (FloatOps.ofBits (F := Ideal) .f32 0x00000000#32) = 0 := Ideal.ofBits_zero_f32

/-- The first result: the mean of the first head. -/
theorem v44_eq : Read.val_main_v44 (F := Ideal) x0 x1 x2 x3 x4 x5 = fun _ => Cert.Spec.zmu x0 x1 x2 x3 x4 x5 := by
  funext i
  rw [Read.val_main_v44_apply, Read.val_main_v43_apply, Read.val_main_cst_7_apply, Read.val_main_cst_8_apply, v28_eq,
    Ideal.hostDivf_def, zero_word]
  unfold Cert.Spec.zmu
  congr 1

/-- The exponentials of the second head. -/
theorem v45_eq : Read.val_main_v45 (F := Ideal) x0 x1 x2 x3 x4 x6
    = fun i => Ideal.exp (Cert.Spec.head x0 x1 x2 x3 x4 x6 i) := by
  funext i
  rw [Read.val_main_v45_apply, v42_eq, Ideal.hostUnary_exp_def]

/-- The sum of the exponentials, before the division. -/
theorem v46_apply (i : S_.Idx) : Read.val_main_v46 (F := Ideal) x0 x1 x2 x3 x4 x6 i
    = 0 + ∑ j, Ideal.exp (Cert.Spec.head x0 x1 x2 x3 x4 x6 j) := by
  rw [Read.val_main_v46_apply, Read.val_main_cst_9_apply, zero_word, v45_eq]

/-- The second result: the logarithm of the mean of the exponentials of the second head. -/
theorem v48_eq : Read.val_main_v48 (F := Ideal) x0 x1 x2 x3 x4 x6 = fun _ => Cert.Spec.zlv x0 x1 x2 x3 x4 x6 := by
  funext i
  rw [Read.val_main_v48_apply, Read.val_main_v47_apply, v46_apply, Read.val_main_cst_10_apply,
    Ideal.hostUnary_log_def, Ideal.hostDivf_def]
  unfold Cert.Spec.zlv
  congr 2

end Stages

/-- Every weakly fair execution of the reference ends with its two results at `Spec.zmu` / `Spec.zlv` of the argument
    arrays, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = (fun _ => Cert.Spec.zmu
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
      ∧ r.2.mem ((c.tc : Thread nD τ).loc main_v48) = (fun _ => Cert.Spec.zlv
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c =>
      ⟨(h c).1.trans ((Read.val_main_v44_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).trans
          (v44_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))),
       (h c).2.1.trans ((Read.val_main_v48_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))).trans
          (v48_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)))),
       (h c).2.2⟩)
    (Cert.ReferenceIdeal.Value.run (F := Ideal) m ρ)

end Cert.ReferenceIdeal.RefValue

end
-- ==== Proof.lean ====
/-
  The certificate of a two-layer graph-convolution encoder against its plain reference.

  Both programs compute, from node features x, edges (row, col, val) and weights W1, W2, W3:
    hidden = max(0, A·(x·W1)),   z_mu = mean(A·(hidden·W2)),   z_logvar = log(mean(exp(A·(hidden·W3)))),
  where A·P sums, for each node, the rows of P at the edges' source nodes weighted by the edge values over the edges
  that target it. The kernel does the three dense products in row-blocked pipelined regions (the last two as ONE
  product against [W2 | W3]) and the two means in a pipelined reduction with a carried accumulator; over the extended
  reals these are the same numbers: a blocked product is the product, the aggregation acts column by column, and a sum
  of block totals is the total (addition of extended reals is commutative and associative; no cancellation is used,
  so the finiteness of the inputs is never needed).

  The three frames: the kernel's run (at the word level and over the extended reals: one text, read at either) ends with
  every argument as launched; the reference is a straight line of host operations. The idealisation rewrote nothing.
-/
import proofs.«114034_j16561393893850_1_alg».proof.Defs
import proofs.«114034_j16561393893850_1_alg».proof.Proof.Gen.Kernel
import proofs.«114034_j16561393893850_1_alg».proof.Proof.Gen.KernelIdeal
import proofs.«114034_j16561393893850_1_alg».proof.Proof.Gen.ReferenceIdeal
import proofs.«114034_j16561393893850_1_alg».proof.Proof.Gen.Pre_finite_inputs
import proofs.«114034_j16561393893850_1_alg».proof.Proof.Bits.Launch
import proofs.«114034_j16561393893850_1_alg».proof.Proof.Launch
import proofs.«114034_j16561393893850_1_alg».proof.Proof.KerValue
import proofs.«114034_j16561393893850_1_alg».proof.Proof.RefValue
import Idealize.ShloMosaic.Adequacy
import Idealize.ShloMosaic.Init

noncomputable section

namespace Cert.Proof

open Idealize.ShloMosaic Idealize.SL.Sem

/-- The word-level kernel runs to the end with its arguments unchanged. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference's run, with the results dropped. -/
theorem frame_ri : Cert.frame_ReferenceIdeal := fun m ρ _ =>
  (θ_run Cert.ReferenceIdeal.defs _ _).mono (fun _ h c => (h c).2.2) (Cert.ReferenceIdeal.RefValue.run_spec m ρ)

/-- Both programs end with the two results at `Spec.zmu` / `Spec.zlv` of arguments that agree. -/
theorem algebraic : Cert.algebraic_KernelIdeal_ReferenceIdeal := by
  intro m ρ m' ρ' _ hagree
  refine ⟨_, _, Cert.KernelIdeal.Hand.run_spec m ρ, ?_⟩
  refine (θ_run Cert.ReferenceIdeal.defs _ _).mono (fun _ h c => ?_) (Cert.ReferenceIdeal.RefValue.run_spec m' ρ')
  obtain ⟨h0, h1, h2, h3, h4, h5, h6⟩ := hagree c
  refine ⟨(h c).1.trans ?_, (h c).2.1.trans ?_, (h c).2.2⟩
  · rw [h0, h1, h2, h3, h4, h5]; rfl
  · rw [h0, h1, h2, h3, h4, h6]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
